-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S5000x128 .f32 .bf16
  ∧ IdealRules.truncf_extf.Statement Cert.KernelIdeal.S5000x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S500000 : Shape := ⟨1, ![500000]⟩
abbrev S128 : Shape := ⟨1, ![128]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S128 : S_.BroadcastsInDim S128 (![] : Fin 0 → Fin S128.rank)
  reducesTo_S128_S_d0 : S128.ReducesTo [0] S_
  bcast_S_S500000 : S_.BroadcastsInDim S500000 (![] : Fin 0 → Fin S500000.rank)
  reducesTo_S500000_S_d0 : S500000.ReducesTo [0] S_

variable [Facts]

def fn_part1 {F : FTy → Type} [FloatOps F] (main_arg1 : IVec S500000 32) (main_v13 : IVec S_ 1) (main_v15 : IVec S500000 1) (main_c_5 : IVec S_ 32) : IVec S_ 1 :=
  let main_v16 : IVec S500000 32 := broadcastInDim S500000 ![] bcast_S_S500000 main_c_5
  let main_v17 : IVec S500000 1 := cmpi .slt main_arg1 main_v16
  let main_v18 : IVec S500000 1 := andi main_v15 main_v17
  let main_c_6 : IVec S_ 1 := constantI S_ 1 1#1
  let main_v19 : IVec S_ 1 := (fun x v => Host.reduce IntOp.andi x v reducesTo_S500000_S_d0 h_S_) main_v18 main_c_6
  let main_v20 : IVec S_ 1 := andi main_v13 main_v19
  main_v20

def fn {F : FTy → Type} [FloatOps F] (main_arg0 : FVec F S500000x128 .f32) (main_arg1 : IVec S500000 32) (main_arg2 : FVec F S128 .f32) (main_arg3 : FVec F S128 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S500000 32 := broadcastInDim S500000 ![] bcast_S_S500000 main_c_4
  let main_v15 : IVec S500000 1 := cmpi .sge main_arg1 main_v14
  let main_c_5 : IVec S_ 32 := constantI S_ 32 256#32
  fn_part1 (F := F) main_arg1 main_v13 main_v15 main_c_5
-- ==== Kernel.lean ====
abbrev S500000x128 : Shape := ⟨2, ![500000, 128]⟩
abbrev S500000 : Shape := ⟨1, ![500000]⟩
abbrev S128 : Shape := ⟨1, ![128]⟩
abbrev S100x5000 : Shape := ⟨2, ![100, 5000]⟩
abbrev S1x128 : Shape := ⟨2, ![1, 128]⟩
abbrev S2x256x128 : Shape := ⟨3, ![2, 256, 128]⟩
abbrev S2x256x1 : Shape := ⟨3, ![2, 256, 1]⟩
abbrev S5000x128 : Shape := ⟨2, ![5000, 128]⟩
abbrev S1x256x128 : Shape := ⟨3, ![1, 256, 128]⟩
abbrev S1x256x1 : Shape := ⟨3, ![1, 256, 1]⟩
abbrev S1x5000 : Shape := ⟨2, ![1, 5000]⟩
abbrev S5000 : Shape := ⟨1, ![5000]⟩
abbrev S256x1 : Shape := ⟨2, ![256, 1]⟩
abbrev S256x5000 : Shape := ⟨2, ![256, 5000]⟩
abbrev S5000x1 : Shape := ⟨2, ![5000, 1]⟩
abbrev S256x128 : Shape := ⟨2, ![256, 128]⟩
abbrev S2x256 : Shape := ⟨2, ![2, 256]⟩
abbrev S_ : Shape := ⟨0, ![]⟩
abbrev S256 : Shape := ⟨1, ![256]⟩

abbrev nBuf : Space → Nat
  | .hbm => 72
  | .vmem => 18
  | .smem => 0
  | _ => 0

abbrev bufTy : (tb : Table) → Fin (tcTables nBuf tb) → BufTy
  | .hbm, ⟨0, _⟩ => ⟨S500000x128, .f32⟩
  | .hbm, ⟨1, _⟩ => ⟨S500000, .i32⟩
  | .hbm, ⟨2, _⟩ => ⟨S128, .f32⟩
  | .hbm, ⟨3, _⟩ => ⟨S128, .f32⟩
  | .hbm, ⟨4, _⟩ => ⟨S100x5000, .i32⟩
  | .hbm, ⟨5, _⟩ => ⟨S1x128, .f32⟩
  | .hbm, ⟨6, _⟩ => ⟨S1x128, .f32⟩
  | .hbm, ⟨7, _⟩ => ⟨S2x256x128, .f32⟩
  | .hbm, ⟨8, _⟩ => ⟨S2x256x128, .f32⟩
  | .hbm, ⟨9, _⟩ => ⟨S2x256x1, .f32⟩
  | .hbm, ⟨10, _⟩ => ⟨S1x256x128, .f32⟩
  | .hbm, ⟨11, _⟩ => ⟨S256x128, .f32⟩
  | .hbm, ⟨12, _⟩ => ⟨S1x256x128, .f32⟩
  | .hbm, ⟨13, _⟩ => ⟨S256x128, .f32⟩
  | .hbm, ⟨14, _⟩ => ⟨S256x128, .f32⟩
  | .hbm, ⟨15, _⟩ => ⟨S1x256x128, .f32⟩
  | .hbm, ⟨16, _⟩ => ⟨S256x128, .f32⟩
  | .hbm, ⟨17, _⟩ => ⟨S1x256x128, .f32⟩
  | .hbm, ⟨18, _⟩ => ⟨S256x128, .f32⟩
  | .hbm, ⟨19, _⟩ => ⟨S256x128, .f32⟩
  | .hbm, ⟨20, _⟩ => ⟨S2x256, .f32⟩
  | .hbm, ⟨21, _⟩ => ⟨S_, .f32⟩
  | .hbm, ⟨22, _⟩ => ⟨S256, .f32⟩
  | .hbm, ⟨23, _⟩ => ⟨S256x1, .f32⟩
  | .hbm, ⟨24, _⟩ => ⟨S_, .f32⟩
  | .hbm, ⟨25, _⟩ => ⟨S256x1, .f32⟩
  | .hbm, ⟨26, _⟩ => ⟨S256x1, .i1⟩
  | .hbm, ⟨27, _⟩ => ⟨S256x128, .f32⟩
  | .hbm, ⟨28, _⟩ => ⟨S256x128, .f32⟩
  | .hbm, ⟨29, _⟩ => ⟨S_, .f32⟩
  | .hbm, ⟨30, _⟩ => ⟨S_, .f32⟩
  | .hbm, ⟨31, _⟩ => ⟨S256x128, .i1⟩
  | .hbm, ⟨32, _⟩ => ⟨S256x128, .f32⟩
  | .hbm, ⟨33, _⟩ => ⟨S256x128, .f32⟩
  | .hbm, ⟨34, _⟩ => ⟨S256x128, .f32⟩
  | .hbm, ⟨35, _⟩ => ⟨S256x128, .f32⟩
  | .hbm, ⟨36, _⟩ => ⟨S256x128, .f32⟩
  | .hbm, ⟨37, _⟩ => ⟨S256x128, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S256x128, .f32⟩
  | .hbm, ⟨42, _⟩ => ⟨S256x128, .f32⟩
  | .hbm, ⟨43, _⟩ => ⟨S_, .f32⟩
  | .hbm, ⟨44, _⟩ => ⟨S256x1, .f32⟩
  | .hbm, ⟨45, _⟩ => ⟨S256x1, .i1⟩
  | .hbm, ⟨46, _⟩ => ⟨S_, .f32⟩
  | .hbm, ⟨47, _⟩ => ⟨S256x128, .f32⟩
  | .hbm, ⟨48, _⟩ => ⟨S256x128, .f32⟩
  | .hbm, ⟨49, _⟩ => ⟨S_, .f32⟩
  | .hbm, ⟨50, _⟩ => ⟨S_, .f32⟩
  | .hbm, ⟨51, _⟩ => ⟨S256x128, .i1⟩
  | .hbm, ⟨52, _⟩ => ⟨S256x128, .f32⟩
  | .hbm, ⟨53, _⟩ => ⟨S256x128, .f32⟩
  | .hbm, ⟨54, _⟩ => ⟨S256x128, .f32⟩
  | .hbm, ⟨55, _⟩ => ⟨S_, .f32⟩
  | .hbm, ⟨56, _⟩ => ⟨S256x128, .f32⟩
  | .hbm, ⟨57, _⟩ => ⟨S256x128, .f32⟩
  | .hbm, ⟨58, _⟩ => ⟨S256x128, .f32⟩
  | .hbm, ⟨59, _⟩ => ⟨S256x128, .f32⟩
  | .hbm, ⟨60, _⟩ => ⟨S256x128, .f32⟩
  | .hbm, ⟨61, _⟩ => ⟨S256x128, .f32⟩
  | .hbm, ⟨62, _⟩ => ⟨S256x128, .f32⟩
  | .hbm, ⟨63, _⟩ => ⟨S256x128, .bf16⟩
  | .hbm, ⟨64, _⟩ => ⟨S256x128, .f32⟩
  | .hbm, ⟨65, _⟩ => ⟨S256x128, .f32⟩
  | .hbm, ⟨66, _⟩ => ⟨S256x128, .bf16⟩
  | .hbm, ⟨67, _⟩ => ⟨S256x128, .bf16⟩
  | .hbm, ⟨68, _⟩ => ⟨S256x128, .f32⟩
  | .hbm, ⟨69, _⟩ => ⟨S256x128, .f32⟩
  | .hbm, ⟨70, _⟩ => ⟨S256x128, .bf16⟩
  | .hbm, ⟨71, _⟩ => ⟨S500000x128, .f32⟩
  | .local _ .vmem, ⟨0, _⟩ => ⟨S100x5000, .i32⟩
  | .local _ .vmem, ⟨1, _⟩ => ⟨S5000x128, .f32⟩
  | .local _ .vmem, ⟨2, _⟩ => ⟨S5000x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x1, .f32⟩
  | .local _ .vmem, ⟨8, _⟩ => ⟨S1x256x1, .f32⟩
  | .local _ .vmem, ⟨9, _⟩ => ⟨S100x5000, .i32⟩
  | .local _ .vmem, ⟨10, _⟩ => ⟨S5000x128, .f32⟩
  | .local _ .vmem, ⟨11, _⟩ => ⟨S5000x128, .f32⟩
  | .local _ .vmem, ⟨12, _⟩ => ⟨S256x128, .bf16⟩
  | .local _ .vmem, ⟨13, _⟩ => ⟨S256x128, .bf16⟩
  | .local _ .vmem, ⟨14, _⟩ => ⟨S256x128, .bf16⟩
  | .local _ .vmem, ⟨15, _⟩ => ⟨S256x128, .bf16⟩
  | .local _ .vmem, ⟨16, _⟩ => ⟨S5000x128, .f32⟩
  | .local _ .vmem, ⟨17, _⟩ => ⟨S5000x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨2, ![2, 50], ![false, false]⟩

def k0_off1 (i : grid0.Coords) : Fin 2 → Nat :=
  let arg0 : BitVec 32 := BitVec.ofNat 32 (i 0).val
  let c50_i32 : BitVec 32 := 50#32
  let v3 : BitVec 32 := Scalar.muli arg0 c50_i32
  let arg1 : BitVec 32 := BitVec.ofNat 32 (i 1).val
  let v4 : BitVec 32 := Scalar.addi v3 arg1
  let v5 : Index := Scalar.indexCast v4
  let c0 : Index := 0#32
  ![v5.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S100x5000 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![100], ![false]⟩

def k1_off1 (i : grid1.Coords) : Fin 2 → Nat :=
  let arg0 : BitVec 32 := BitVec.ofNat 32 (i 0).val
  let v0 : Index := Scalar.indexCast arg0
  let c0 : Index := 0#32
  ![v0.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S100x5000 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S500000_S100x5000 : S500000.ShapeCasts S100x5000
  shapeCasts_S128_S1x128 : S128.ShapeCasts S1x128
  inb_S1x256x128_S1x256x128_0_0_0 : ∀ a, (![0, 0, 0] : Fin 3 → Nat) a + S1x256x128.size a ≤ S1x256x128.size a
  h_S1x256x128 : 0 < S1x256x128.numel
  inb_S1x256x1_S1x256x1_0_0_0 : ∀ a, (![0, 0, 0] : Fin 3 → Nat) a + S1x256x1.size a ≤ S1x256x1.size a
  h_S1x256x1 : 0 < S1x256x1.numel
  h_S1x5000 : 0 < S1x5000.numel
  shapeCasts_S1x5000_S5000 : S1x5000.ShapeCasts S5000
  iota_S256x1_d0_w32 : S256x1.Iotas .tc 32 [0]
  shapeCasts_S5000_S1x5000 : S5000.ShapeCasts S1x5000
  broadcasts_S256x1_S256x5000 : S256x1.Broadcasts S256x5000
  broadcasts_S1x5000_S256x5000 : S1x5000.Broadcasts S256x5000
  natLt_1_32 : 1 < 32
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S1x256x128_S1x256x128 : S1x256x128.ShapeCasts S1x256x128
  shapeCasts_S256x128_S1x256x128 : S256x128.ShapeCasts S1x256x128
  shapeCasts_S1x256x1_S1x256x1 : S1x256x1.ShapeCasts S1x256x1
  shapeCasts_S256x1_S1x256x1 : S256x1.ShapeCasts S1x256x1
  slices_S2x256x128_S1x256x128_0_0_0 : S2x256x128.Slices ![0, 0, 0] S1x256x128
  shapeCasts_S1x256x128_S256x128 : S1x256x128.ShapeCasts S256x128
  slices_S2x256x128_S1x256x128_1_0_0 : S2x256x128.Slices ![1, 0, 0] S1x256x128
  shapeCasts_S2x256x1_S2x256 : S2x256x1.ShapeCasts S2x256
  reducesTo_S2x256_S256_d0 : S2x256.ReducesTo [0] S256
  h_S_ : 0 < S_.numel
  shapeCasts_S256_S256x1 : S256.ShapeCasts S256x1
  bcast_S_S256x1 : S_.BroadcastsInDim S256x1 (![] : Fin 0 → Fin S256x1.rank)
  bcast_S256x1_S256x128_0_1 : S256x1.BroadcastsInDim S256x128 (![0, 1] : Fin 2 → Fin S256x128.rank)
  bcast_S_S256x128 : S_.BroadcastsInDim S256x128 (![] : Fin 0 → Fin S256x128.rank)
  bcast_S1x128_S256x128_0_1 : S1x128.BroadcastsInDim S256x128 (![0, 1] : Fin 2 → Fin S256x128.rank)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  dot_S256x5000_S5000x128_S256x128_1_0_0_1_n_n_wf : DotDims.WF S256x5000 S5000x128 S256x128 [1] [0] [0] [1] [] []
  dot_S256x5000_S5000x1_S256x1_1_0_0_1_n_n_wf : DotDims.WF S256x5000 S5000x1 S256x1 [1] [0] [0] [1] [] []
  dot_S256x5000_S256x128_S5000x128_0_0_1_1_n_n_wf : DotDims.WF S256x5000 S256x128 S5000x128 [0] [0] [1] [1] [] []
  hrank0 : 0 < grid0.rank
  k0_off1_inb : ∀ i : grid0.Coords, ∀ a, (k0_off1 i) a + S1x5000.size a ≤ S100x5000.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S100x5000.size a ≤ S100x5000.size a
  hwx0_0 : ∀ i : grid0.Coords, EltTy.bits .i32 = 32 ∨ (Rect.block (s := S100x5000) S100x5000.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .f32 = 32 ∨ (Rect.block (s := S500000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x128.size a ≤ S2x256x128.size a
  hwx0_2 : ∀ i : grid0.Coords, EltTy.bits .f32 = 32 ∨ (Rect.block (s := S2x256x128) S1x256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x128.size a ≤ S2x256x128.size a
  hwx0_3 : ∀ i : grid0.Coords, EltTy.bits .f32 = 32 ∨ (Rect.block (s := S2x256x128) S1x256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1.size a ≤ S2x256x1.size a
  hwx0_4 : ∀ i : grid0.Coords, EltTy.bits .f32 = 32 ∨ (Rect.block (s := S2x256x1) S1x256x1.size (cc0_transform_4 i) (hinb0_4 i)).WholeWords (EltTy.packing .f32)
  hrank1 : 0 < grid1.rank
  k1_off1_inb : ∀ i : grid1.Coords, ∀ a, (k1_off1 i) a + S1x5000.size a ≤ S100x5000.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S100x5000.size a ≤ S100x5000.size a
  hwx1_0 : ∀ i : grid1.Coords, EltTy.bits .i32 = 32 ∨ (Rect.block (s := S100x5000) S100x5000.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S500000x128.size a
  hwx1_1 : ∀ i : grid1.Coords, EltTy.bits .f32 = 32 ∨ (Rect.block (s := S500000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .bf16 = 32 ∨ (Rect.block (s := S256x128) S256x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .bf16 = 32 ∨ (Rect.block (s := S256x128) S256x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .bf16 = 32 ∨ (Rect.block (s := S256x128) S256x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .bf16 = 32 ∨ (Rect.block (s := S256x128) S256x128.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S500000x128.size a
  hwx1_6 : ∀ i : grid1.Coords, EltTy.bits .f32 = 32 ∨ (Rect.block (s := S500000x128) S5000x128.size (cc1_transform_6 i) (hinb1_6 i)).WholeWords (EltTy.packing .f32)

variable [Facts₀]

def dot_S256x5000_S5000x128_S256x128_1_0_0_1_n_n : DotDims S256x5000 S5000x128 S256x128 where
  lhsContracting := [1]
  rhsContracting := [0]
  lhsNonContracting := [0]
  rhsNonContracting := [1]
  lhsBatch := []
  rhsBatch := []
  wf := dot_S256x5000_S5000x128_S256x128_1_0_0_1_n_n_wf
def dot_S256x5000_S5000x1_S256x1_1_0_0_1_n_n : DotDims S256x5000 S5000x1 S256x1 where
  lhsContracting := [1]
  rhsContracting := [0]
  lhsNonContracting := [0]
  rhsNonContracting := [1]
  lhsBatch := []
  rhsBatch := []
  wf := dot_S256x5000_S5000x1_S256x1_1_0_0_1_n_n_wf
def dot_S256x5000_S256x128_S5000x128_0_0_1_1_n_n : DotDims S256x5000 S256x128 S5000x128 where
  lhsContracting := [0]
  rhsContracting := [0]
  lhsNonContracting := [1]
  rhsNonContracting := [1]
  lhsBatch := []
  rhsBatch := []
  wf := dot_S256x5000_S256x128_S5000x128_0_0_1_1_n_n_wf

abbrev win0_0 : Pipeline.Window sig grid0 :=
  Pipeline.Window.ofSpec (Memref.whole main_v0) S100x5000.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1x256x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x256x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_2) S1x256x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S100x5000.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S500000x128 : Shape := ⟨2, ![500000, 128]⟩
abbrev S500000 : Shape := ⟨1, ![500000]⟩
abbrev S128 : Shape := ⟨1, ![128]⟩
abbrev S_ : Shape := ⟨0, ![]⟩
abbrev S256 : Shape := ⟨1, ![256]⟩
abbrev S500000x1 : Shape := ⟨2, ![500000, 1]⟩
abbrev S256x128 : Shape := ⟨2, ![256, 128]⟩
abbrev S256x1 : Shape := ⟨2, ![256, 1]⟩
abbrev S1x128 : Shape := ⟨2, ![1, 128]⟩

abbrev nBuf : Space → Nat
  | .hbm => 58
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000, .i32⟩
  | .hbm, ⟨2, _⟩ => ⟨S128, .f32⟩
  | .hbm, ⟨3, _⟩ => ⟨S128, .f32⟩
  | .hbm, ⟨4, _⟩ => ⟨S_, .f32⟩
  | .hbm, ⟨5, _⟩ => ⟨S500000, .f32⟩
  | .hbm, ⟨6, _⟩ => ⟨S_, .f32⟩
  | .hbm, ⟨7, _⟩ => ⟨S256, .f32⟩
  | .hbm, ⟨8, _⟩ => ⟨S500000x1, .i32⟩
  | .hbm, ⟨9, _⟩ => ⟨S256, .f32⟩
  | .hbm, ⟨10, _⟩ => ⟨S_, .f32⟩
  | .hbm, ⟨11, _⟩ => ⟨S256x128, .f32⟩
  | .hbm, ⟨12, _⟩ => ⟨S500000x1, .i32⟩
  | .hbm, ⟨13, _⟩ => ⟨S256x128, .f32⟩
  | .hbm, ⟨14, _⟩ => ⟨S256x1, .f32⟩
  | .hbm, ⟨15, _⟩ => ⟨S256x128, .f32⟩
  | .hbm, ⟨16, _⟩ => ⟨S256x128, .f32⟩
  | .hbm, ⟨17, _⟩ => ⟨S_, .i32⟩
  | .hbm, ⟨18, _⟩ => ⟨S500000, .i32⟩
  | .hbm, ⟨19, _⟩ => ⟨S500000, .i1⟩
  | .hbm, ⟨20, _⟩ => ⟨S_, .i32⟩
  | .hbm, ⟨21, _⟩ => ⟨S500000, .i32⟩
  | .hbm, ⟨22, _⟩ => ⟨S500000, .i32⟩
  | .hbm, ⟨23, _⟩ => ⟨S500000, .i32⟩
  | .hbm, ⟨24, _⟩ => ⟨S500000x1, .i32⟩
  | .hbm, ⟨25, _⟩ => ⟨S500000x128, .f32⟩
  | .hbm, ⟨26, _⟩ => ⟨S500000x128, .f32⟩
  | .hbm, ⟨27, _⟩ => ⟨S500000x128, .f32⟩
  | .hbm, ⟨28, _⟩ => ⟨S_, .f32⟩
  | .hbm, ⟨29, _⟩ => ⟨S256x128, .f32⟩
  | .hbm, ⟨30, _⟩ => ⟨S500000x1, .i32⟩
  | .hbm, ⟨31, _⟩ => ⟨S256x128, .f32⟩
  | .hbm, ⟨32, _⟩ => ⟨S_, .f32⟩
  | .hbm, ⟨33, _⟩ => ⟨S256, .f32⟩
  | .hbm, ⟨34, _⟩ => ⟨S256, .f32⟩
  | .hbm, ⟨35, _⟩ => ⟨S256x1, .f32⟩
  | .hbm, ⟨36, _⟩ => ⟨S256x128, .f32⟩
  | .hbm, ⟨37, _⟩ => ⟨S256x128, .f32⟩
  | .hbm, ⟨38, _⟩ => ⟨S256x128, .f32⟩
  | .hbm, ⟨39, _⟩ => ⟨S_, .i32⟩
  | .hbm, ⟨40, _⟩ => ⟨S500000, .i32⟩
  | .hbm, ⟨41, _⟩ => ⟨S500000, .i1⟩
  | .hbm, ⟨42, _⟩ => ⟨S_, .i32⟩
  | .hbm, ⟨43, _⟩ => ⟨S500000, .i32⟩
  | .hbm, ⟨44, _⟩ => ⟨S500000, .i32⟩
  | .hbm, ⟨45, _⟩ => ⟨S500000, .i32⟩
  | .hbm, ⟨46, _⟩ => ⟨S500000x1, .i32⟩
  | .hbm, ⟨47, _⟩ => ⟨S500000x128, .f32⟩
  | .hbm, ⟨48, _⟩ => ⟨S_, .f32⟩
  | .hbm, ⟨49, _⟩ => ⟨S500000x128, .f32⟩
  | .hbm, ⟨50, _⟩ => ⟨S500000x128, .f32⟩
  | .hbm, ⟨51, _⟩ => ⟨S500000x128, .f32⟩
  | .hbm, ⟨52, _⟩ => ⟨S1x128, .f32⟩
  | .hbm, ⟨53, _⟩ => ⟨S500000x128, .f32⟩
  | .hbm, ⟨54, _⟩ => ⟨S500000x128, .f32⟩
  | .hbm, ⟨55, _⟩ => ⟨S1x128, .f32⟩
  | .hbm, ⟨56, _⟩ => ⟨S500000x128, .f32⟩
  | .hbm, ⟨57, _⟩ => ⟨S500000x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_c_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S_S256 : S_.BroadcastsInDim S256 (![] : Fin 0 → Fin S256.rank)
  bcast_S500000_S500000x1_0 : S500000.BroadcastsInDim S500000x1 (![0] : Fin 1 → Fin S500000x1.rank)
  bcast_S_S256x128 : S_.BroadcastsInDim S256x128 (![] : Fin 0 → Fin S256x128.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S_S500000x128 : S_.BroadcastsInDim S500000x128 (![] : Fin 0 → Fin S500000x128.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  scatter_S256_S500000x1_S500000_n_0_0_1_wf : ScatterDims.WF S256 S500000x1 S500000 [] [0] [0] 1
  scatter_S256x128_S500000x1_S500000x128_1_0_0_1_wf : ScatterDims.WF S256x128 S500000x1 S500000x128 [1] [0] [0] 1
  gather_S256x128_S500000x1_S500000x128_1_0_n_n_0_1_1128_wf : GatherDims.WF S256x128 S500000x1 S500000x128 [1] [0] [] [0] [] 1 ![1, 128]

variable [Facts₀]

def scatter_S256_S500000x1_S500000_n_0_0_1 : ScatterDims S256 S500000x1 S500000 where
  updateWindowDims := []
  insertedWindowDims := [0]
  scatterDimsToOperandDims := [0]
  indexVectorDim := 1
  wf := scatter_S256_S500000x1_S500000_n_0_0_1_wf
def scatter_S256x128_S500000x1_S500000x128_1_0_0_1 : ScatterDims S256x128 S500000x1 S500000x128 where
  updateWindowDims := [1]
  insertedWindowDims := [0]
  scatterDimsToOperandDims := [0]
  indexVectorDim := 1
  wf := scatter_S256x128_S500000x1_S500000x128_1_0_0_1_wf
def gather_S256x128_S500000x1_S500000x128_1_0_n_n_0_1_1128 : GatherDims S256x128 S500000x1 S500000x128 where
  offsetDims := [1]
  collapsedSliceDims := [0]
  operandBatchingDims := []
  startIndicesBatchingDims := []
  startIndexMap := [0]
  indexVectorDim := 1
  sliceSizes := ![1, 128]
  wf := gather_S256x128_S500000x1_S500000x128_1_0_n_n_0_1_1128_wf

class Facts : Prop extends Facts₀ where

variable [Facts]
-- ==== Proof.Spec.lean ====
/-
  Graph normalisation over ragged segments, as two functions of the rows.

  The input is `h : 500000 × 128` extended reals, one segment identifier (a 32-bit word) per row, and
  two vectors `γ β` of 128 entries.  Both programs compute, for a row `n` in segment `g`,
  `γ · (h n − mean g) / (std g + ε) + β`, where `mean g` is the mean of the rows of segment `g` and
  `std g` the square root of their unbiased variance.

  * `outR` spells it as the reference does: the count, the sum and the sum of squared differences of a segment
    are sums over the rows whose identifier, read signed, is `g`; the mean and the deviation of row `n` are
    read at the identifier of row `n` (wrapped by 256 when negative, then clamped to 255).
  * `outK` spells it as the kernel does: the count, the sum and the sum of squares of a segment are
    accumulated block by block (100 blocks of 5000 rows, 50 blocks per core) as products with the one-hot row
    `(g = seg n)`, each value split as `x + (x − x)`; the variance is `(Σ h² − c · mean²) / (c − 1)`, clamped below at
    zero and replaced by zero for segments of at most one row; the row is `h · scale + shift` with
    `scale = γ / (std + ε)` and `shift = β − mean · scale` selected by the one-hot row again.

  `one` and `eps` are the two float literals both programs carry (1.0 and 1e-5), kept as parameters.
-/
import Idealize.ShloMosaic.PureOps.Ideal

noncomputable section

open Idealize.ShloMosaic

namespace Cert.GraphNorm

/-- Row `t` of block `b`: the blocks are 5000 consecutive rows. -/
def row (b : Fin 100) (t : Fin 5000) : Fin 500000 :=
  ⟨b.val * 5000 + t.val, by have := b.isLt; have := t.isLt; omega⟩

/-- The identifiers laid out as 100 blocks of 5000, read back row by row. -/
def rowsOf (s2 : Fin 100 → Fin 5000 → BitVec 32) : Fin 500000 → BitVec 32 :=
  fun n => s2 ⟨n.val / 5000, by have := n.isLt; omega⟩ ⟨n.val % 5000, Nat.mod_lt _ (by norm_num)⟩

theorem rowsOf_row (s2 : Fin 100 → Fin 5000 → BitVec 32) (b : Fin 100) (t : Fin 5000) :
    rowsOf s2 (row b t) = s2 b t := by
  have hb := b.isLt; have ht := t.isLt
  unfold rowsOf row
  congr 1 <;> refine Fin.ext ?_
  · show (b.val * 5000 + t.val) / 5000 = b.val
    omega
  · show (b.val * 5000 + t.val) % 5000 = t.val
    omega

/-- The one-hot entry: 1 when segment `g`, written as a word, is the identifier `s`. -/
def oh (g : Fin 256) (s : BitVec 32) : EReal := if BitVec.ofNat 32 g.val = s then 1 else 0

section
variable (seg : Fin 500000 → BitVec 32) (h : Fin 500000 → Fin 128 → EReal) (γ β : Fin 128 → EReal) (one eps : EReal)

/-! ## The kernel's spelling -/

/-- Block `b`'s contribution to the sum of segment `g`, column `f`: the one-hot row against the rows of the block,
    and against their split remainder `h − h`. Zero past the last block. -/
def blkSum (b : ℕ) (g : Fin 256) (f : Fin 128) : EReal :=
  if hb : b < 100 then
    (∑ t : Fin 5000, oh g (seg (row ⟨b, hb⟩ t)) * h (row ⟨b, hb⟩ t) f)
      + (∑ t : Fin 5000, oh g (seg (row ⟨b, hb⟩ t)) * (h (row ⟨b, hb⟩ t) f - h (row ⟨b, hb⟩ t) f))
  else 0

/-- Block `b`'s contribution to the sum of squares. -/
def blkSq (b : ℕ) (g : Fin 256) (f : Fin 128) : EReal :=
  if hb : b < 100 then
    (∑ t : Fin 5000, oh g (seg (row ⟨b, hb⟩ t)) * (h (row ⟨b, hb⟩ t) f * h (row ⟨b, hb⟩ t) f))
      + (∑ t : Fin 5000, oh g (seg (row ⟨b, hb⟩ t))
          * (h (row ⟨b, hb⟩ t) f * h (row ⟨b, hb⟩ t) f - h (row ⟨b, hb⟩ t) f * h (row ⟨b, hb⟩ t) f))
  else 0

/-- Block `b`'s contribution to the count. -/
def blkCnt (b : ℕ) (g : Fin 256) : EReal :=
  if hb : b < 100 then ∑ t : Fin 5000, oh g (seg (row ⟨b, hb⟩ t)) * 1 else 0

/-- Core `c` accumulates its 50 blocks. -/
def kSum (c : Fin 2) (g : Fin 256) (f : Fin 128) : EReal := ∑ s ∈ Finset.range 50, blkSum seg h (50 * c.val + s) g f
def kSq (c : Fin 2) (g : Fin 256) (f : Fin 128) : EReal := ∑ s ∈ Finset.range 50, blkSq seg h (50 * c.val + s) g f
def kCnt (c : Fin 2) (g : Fin 256) : EReal := ∑ s ∈ Finset.range 50, blkCnt seg (50 * c.val + s) g

/-- The two cores' halves added. -/
def sumH (g : Fin 256) (f : Fin 128) : EReal := kSum seg h 0 g f + kSum seg h 1 g f
def sqH (g : Fin 256) (f : Fin 128) : EReal := kSq seg h 0 g f + kSq seg h 1 g f
def cntH (g : Fin 256) : EReal := kCnt seg 0 g + kCnt seg 1 g

def meanK (g : Fin 256) (f : Fin 128) : EReal :=
  if 0 < cntH seg g then Ideal.div (sumH seg h g f) (cntH seg g) else 0
def varRawK (g : Fin 256) (f : Fin 128) : EReal :=
  Ideal.div (sqH seg h g f - cntH seg g * meanK seg h g f * meanK seg h g f) (cntH seg g - one)
def varK (g : Fin 256) (f : Fin 128) : EReal :=
  if one < cntH seg g then max (varRawK seg h one g f) 0 else 0
def scaleK (g : Fin 256) (f : Fin 128) : EReal := Ideal.div (γ f) (Ideal.sqrt (varK seg h one g f) + eps)
def shiftK (g : Fin 256) (f : Fin 128) : EReal := β f - meanK seg h g f * scaleK seg h γ one eps g f

/-- The kernel's row `n`, column `f`. -/
def outK (n : Fin 500000) (f : Fin 128) : EReal :=
  h n f * ((∑ g : Fin 256, oh g (seg n) * scaleK seg h γ one eps g f)
            + (∑ g : Fin 256, oh g (seg n) * (scaleK seg h γ one eps g f - scaleK seg h γ one eps g f)))
    + ((∑ g : Fin 256, oh g (seg n) * shiftK seg h γ β one eps g f)
        + (∑ g : Fin 256, oh g (seg n) * (shiftK seg h γ β one eps g f - shiftK seg h γ β one eps g f)))

/-! ## The reference's spelling -/

/-- The rows of segment `g`: those whose identifier, read signed, is `g`. -/
def segSet (g : Fin 256) : Finset (Fin 500000) := Finset.univ.filter fun e => (seg e).toInt = (g.val : ℤ)

/-- A negative identifier wrapped by 256. -/
def wrap (s : BitVec 32) : BitVec 32 := if s.toInt < 0 then s + 256#32 else s

/-- The segment a row is gathered from: its wrapped identifier, read signed, clamped into the 256 segments. -/
def gidx (n : Fin 500000) : Fin 256 := ⟨min (wrap (seg n)).toInt.toNat 255, by omega⟩

def cntR (g : Fin 256) : EReal := 0 + ∑ _e ∈ segSet seg g, one
def sumR (g : Fin 256) (f : Fin 128) : EReal := 0 + ∑ e ∈ segSet seg g, h e f
def meanR (g : Fin 256) (f : Fin 128) : EReal := Ideal.div (sumR seg h g f) (cntR seg one g)
def diffR (n : Fin 500000) (f : Fin 128) : EReal := h n f - meanR seg h one (gidx seg n) f
def ssdR (g : Fin 256) (f : Fin 128) : EReal := 0 + ∑ e ∈ segSet seg g, diffR seg h one e f * diffR seg h one e f
def varR (g : Fin 256) (f : Fin 128) : EReal := Ideal.div (ssdR seg h one g f) (cntR seg one g - one)

/-- The reference's row `n`, column `f`. -/
def outR (n : Fin 500000) (f : Fin 128) : EReal :=
  γ f * Ideal.div (diffR seg h one n f) (Ideal.sqrt (varR seg h one (gidx seg n) f) + eps) + β f

end

end Cert.GraphNorm

end
-- ==== Proof.LibDotCols.lean ====
/-
  A product of two matrices that contracts the left operand's LAST axis with the right operand's FIRST, read at an entry.

  For a left operand of shape [R, K], a right operand of shape [K, N] and dimension numbers
  "contract axis 1 with axis 0, free axes 0 and 1, no batch axes", the contraction shape has the one axis of extent
  K, the left operand is read at (p, k) and the right at (k, n); so over the extended reals the product accumulated
  into an accumulator `acc` is, at (p, n), `acc (p, n) + ∑ k, l (p, k) * r (k, n)`: row p of the left operand against
  column n of the right.  Stated for ANY such record of dimension numbers, whatever its name, from the six equations
  that say which lists it holds (each `rfl` for a printed record).
-/
import Idealize.ShloMosaic.PureOps.Ideal.Laws
import Idealize.ShloMosaic.Lib.ValueIdx

noncomputable section

namespace Cert.LibDotCols

open Idealize.ShloMosaic Idealize.ShloMosaic.ValueIdx

variable {R K N : Nat} (D : DotDims ⟨2, ![R, K]⟩ ⟨2, ![K, N]⟩ ⟨2, ![R, N]⟩)

/-- Two coordinates of an index named by equal numbers are equal. -/
private theorem coord_congr {s : Shape} (i : s.Idx) (a b : Nat) (ha : a < s.rank) (hb : b < s.rank) (h : a = b) :
    (i ⟨a, ha⟩).val = (i ⟨b, hb⟩).val := by subst h; rfl

/-- One axis is contracted. -/
theorem contr_rank (hlc : D.lhsContracting = [1]) : D.contr.rank = 1 := by
  rw [D.rank_contr, hlc]; rfl

/-- Its extent is K, the left operand's second extent. -/
theorem contr_size (hlc : D.lhsContracting = [1]) :
    D.contr.size ⟨0, by rw [contr_rank D hlc]; exact Nat.one_pos⟩ = K := by
  have h := D.size_contr 0 (by rw [hlc]; exact Nat.one_pos)
  refine h.trans ?_
  simp only [hlc, List.getElem_cons_zero]
  rfl

/-- The left operand's row is the result's row. -/
theorem lhs_row (hln : D.lhsNonContracting = [0]) (hlb : D.lhsBatch = [])
    (i : (⟨2, ![R, N]⟩ : Shape).Idx) (q : D.contr.Idx) : (D.lhsIdx i q 0).val = (i 0).val := by
  unfold DotDims.lhsIdx
  rw [dif_neg (show ¬(0 : Fin (⟨2, ![R, K]⟩ : Shape).rank) ∈ D.lhsBatch by rw [hlb]; exact List.not_mem_nil),
    dif_pos (show (0 : Fin (⟨2, ![R, K]⟩ : Shape).rank) ∈ D.lhsNonContracting by rw [hln]; exact List.mem_singleton.mpr rfl)]
  simp only [Fin.val_cast]
  exact coord_congr i _ 0 _ (show 0 < 2 from Nat.two_pos) (by simp [hlb, hln])

/-- The left operand's column is the contraction coordinate. -/
theorem lhs_col (hlc : D.lhsContracting = [1]) (i : (⟨2, ![R, N]⟩ : Shape).Idx) (q : D.contr.Idx) :
    (D.lhsIdx i q 1).val = (q ⟨0, by rw [contr_rank D hlc]; exact Nat.one_pos⟩).val :=
  D.lhsIdx_val_of_single hlc i q

/-- The right operand's row is the contraction coordinate. -/
theorem rhs_row (hlc : D.lhsContracting = [1]) (hrc : D.rhsContracting = [0]) (i : (⟨2, ![R, N]⟩ : Shape).Idx)
    (q : D.contr.Idx) : (D.rhsIdx i q 0).val = (q ⟨0, by rw [contr_rank D hlc]; exact Nat.one_pos⟩).val :=
  D.rhsIdx_val_of_single hrc i q

/-- The right operand's column is the result's column. -/
theorem rhs_col (hln : D.lhsNonContracting = [0]) (hrn : D.rhsNonContracting = [1]) (hlb : D.lhsBatch = [])
    (hrb : D.rhsBatch = []) (i : (⟨2, ![R, N]⟩ : Shape).Idx) (q : D.contr.Idx) : (D.rhsIdx i q 1).val = (i 1).val := by
  unfold DotDims.rhsIdx
  rw [dif_neg (show ¬(1 : Fin (⟨2, ![K, N]⟩ : Shape).rank) ∈ D.rhsBatch by rw [hrb]; exact List.not_mem_nil),
    dif_pos (show (1 : Fin (⟨2, ![K, N]⟩ : Shape).rank) ∈ D.rhsNonContracting by rw [hrn]; exact List.mem_singleton.mpr rfl)]
  simp only [Fin.val_cast]
  exact coord_congr i _ 1 _ (show 1 < 2 from Nat.one_lt_two) (by simp [hlb, hln, hrn])

/-- THE PRODUCT AT AN ENTRY: at (p, n) it is the accumulator's entry plus row p of the left operand against column n
    of the right. -/
theorem matmul_cols {φ₁ φ₂ : FTy} (prec : Option ContractPrecision)
    (hlc : D.lhsContracting = [1]) (hrc : D.rhsContracting = [0]) (hln : D.lhsNonContracting = [0])
    (hrn : D.rhsNonContracting = [1]) (hlb : D.lhsBatch = []) (hrb : D.rhsBatch = [])
    (l : FVec Ideal ⟨2, ![R, K]⟩ φ₁) (r : FVec Ideal ⟨2, ![K, N]⟩ φ₂) (acc : FVec Ideal ⟨2, ![R, N]⟩ .f32) (p : Fin R) (n : Fin N) :
    FloatOps.matmul D prec l r acc (ix2 p n) = acc (ix2 p n) + ∑ k : Fin K, l (ix2 p k) * r (ix2 k n) := by
  rw [Ideal.matmul_apply,
    ← Equiv.sum_comp (contrEquiv1 D K (contr_rank D hlc) (contr_size D hlc)).symm]
  refine congrArg (acc (ix2 p n) + ·) (Finset.sum_congr rfl fun k _ => ?_)
  have hk := contrEquiv1_symm_val D K (contr_rank D hlc) (contr_size D hlc) k
  have el : D.lhsIdx (ix2 p n) ((contrEquiv1 D K (contr_rank D hlc) (contr_size D hlc)).symm k) = ix2 p k :=
    funext fun a => Fin.ext (by
      match a with
      | ⟨0, _⟩ => exact lhs_row D hln hlb _ _
      | ⟨1, _⟩ => exact (lhs_col D hlc _ _).trans hk)
  have er : D.rhsIdx (ix2 p n) ((contrEquiv1 D K (contr_rank D hlc) (contr_size D hlc)).symm k) = ix2 k n :=
    funext fun a => Fin.ext (by
      match a with
      | ⟨0, _⟩ => exact (rhs_row D hlc hrc _ _).trans hk
      | ⟨1, _⟩ => exact rhs_col D hln hrn hlb hrb _ _)
  rw [el, er]

end Cert.LibDotCols

end
-- ==== Proof.Region0Pay.lean ====
/-
  Region 0's arithmetic read entry by entry over the extended reals.

  A grid point holds one row of 5000 identifiers and one block of 5000 rows of `h`.  The left operand of every product
  is the one-hot matrix `(g, t) ↦ [g = identifier t]`; the three results a point adds to its running blocks are, at
  segment `g`: the one-hot row against the block's columns (and against their split remainder `x − x`), the same with
  the squared entries, and the one-hot row against a column of ones.
-/
import proofs.«403000_j1451698946636_3_alg».proof.Proof.Gen.KernelIdeal.Skeleton
import proofs.«403000_j1451698946636_3_alg».proof.Proof.Spec
import proofs.«403000_j1451698946636_3_alg».proof.Proof.LibDotCols
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.ValueIdx

namespace Cert.KernelIdeal.Region0Pay

open Cert.KernelIdeal Cert.KernelIdeal.Gen Cert.GraphNorm

/-- A one-bit comparison word, widened and read as a signed integer, is the indicator of the equality. -/
theorem eq_word_toReal (a s : BitVec 32) :
    ((((IntOp.cmpi .eq a s).setWidth 32).toInt : ℝ) : EReal) = if a = s then 1 else 0 := by
  unfold IntOp.cmpi
  by_cases h : a = s
  · subst h
    simp
  · have hb : (a == s) = false := by simpa using h
    simp [hb, h]

/-- The one-hot operand at (g, t): 1 when segment `g`, as a word, is the identifier at position `t` of the row. -/
theorem onehot_apply (v6 : Vec Ideal S1x5000 .i32) (g : Fin 256) (t : Fin 5000) :
    k0_pay6 (F := Ideal) v6 (ix2 g t) = oh g (v6 (ix2 (0 : Fin 1) t)) := by
  have hio : broadcastTo S256x5000 (iota .tc S256x1 32 [0] iota_S256x1_d0_w32) broadcasts_S256x1_S256x5000 (ix2 g t)
      = BitVec.ofNat 32 g.val := by
    refine (broadcastTo_apply _ _ (ix2 g t) (ix2 g (0 : Fin 1)) (fun a => ?_)).trans ?_
    · match a with
      | ⟨0, _⟩ => rfl
      | ⟨1, _⟩ => rfl
    · exact iota_single_apply .tc S256x1 32 0 iota_S256x1_d0_w32 (ix2 g (0 : Fin 1))
  have hrow : broadcastTo S256x5000
        (shapeCast S1x5000 (shapeCast S5000 v6 shapeCasts_S1x5000_S5000) shapeCasts_S5000_S1x5000)
        broadcasts_S1x5000_S256x5000 (ix2 g t) = v6 (ix2 (0 : Fin 1) t) := by
    rw [shapeCast_shapeCast]
    refine broadcastTo_apply _ _ (ix2 g t) (ix2 (0 : Fin 1) t) (fun a => ?_)
    match a with
    | ⟨0, _⟩ => rfl
    | ⟨1, _⟩ => rfl
  have e : k0_pay6 (F := Ideal) v6 (ix2 g t)
      = ((((IntOp.cmpi .eq
            (broadcastTo S256x5000 (iota .tc S256x1 32 [0] iota_S256x1_d0_w32) broadcasts_S256x1_S256x5000 (ix2 g t))
            (broadcastTo S256x5000
              (shapeCast S1x5000 (shapeCast S5000 v6 shapeCasts_S1x5000_S5000) shapeCasts_S5000_S1x5000)
              broadcasts_S1x5000_S256x5000 (ix2 g t))).setWidth 32).toInt : ℝ) : EReal) := rfl
  rw [e, hio, hrow]
  exact eq_word_toReal _ _

/-- The matrix product of the one-hot operand with a block of 128 columns, into the zero accumulator, at (g, f). -/
theorem dot128_apply (v6 : Vec Ideal S1x5000 .i32) (r : FVec Ideal S5000x128 .bf16) (g : Fin 256) (f : Fin 128) :
    matmul dot_S256x5000_S5000x128_S256x128_1_0_0_1_n_n none (k0_pay6 (F := Ideal) v6) r
        (constant S256x128 .f32 0x00000000#32) (ix2 g f)
      = ∑ t : Fin 5000, oh g (v6 (ix2 (0 : Fin 1) t)) * r (ix2 t f) := by
  refine (Cert.LibDotCols.matmul_cols dot_S256x5000_S5000x128_S256x128_1_0_0_1_n_n none rfl rfl rfl rfl rfl rfl
    (k0_pay6 (F := Ideal) v6) r (constant S256x128 .f32 0x00000000#32) g f).trans ?_
  rw [constant_apply, Ideal.ofBits_zero_f32, zero_add]
  exact Finset.sum_congr rfl fun t _ => by rw [onehot_apply]

/-- The same against one column. -/
theorem dot1_apply (v6 : Vec Ideal S1x5000 .i32) (r : FVec Ideal S5000x1 .bf16) (g : Fin 256) :
    matmul dot_S256x5000_S5000x1_S256x1_1_0_0_1_n_n none (k0_pay6 (F := Ideal) v6) r
        (constant S256x1 .f32 0x00000000#32) (ix2 g (0 : Fin 1))
      = ∑ t : Fin 5000, oh g (v6 (ix2 (0 : Fin 1) t)) * r (ix2 t (0 : Fin 1)) := by
  refine (Cert.LibDotCols.matmul_cols dot_S256x5000_S5000x1_S256x1_1_0_0_1_n_n none rfl rfl rfl rfl rfl rfl
    (k0_pay6 (F := Ideal) v6) r (constant S256x1 .f32 0x00000000#32) g (0 : Fin 1)).trans ?_
  rw [constant_apply, Ideal.ofBits_zero_f32, zero_add]
  exact Finset.sum_congr rfl fun t _ => by rw [onehot_apply]

/-- The bf16 word of one is the extended real 1. -/
theorem one_bf16 : Ideal.ofBits .bf16 0x3F80#16 = 1 := by
  simp [Ideal.ofBits, Ideal.ieee]
  rw [← EReal.coe_mul]
  norm_num

/-- A block with a leading unit axis added reads (0, g, f) at (g, f). -/
theorem addUnit128_apply (v : FVec Ideal S256x128 .f32) (g : Fin 256) (f : Fin 128) :
    shapeCast S1x256x128 v shapeCasts_S256x128_S1x256x128 (ix3 (0 : Fin 1) g f) = v (ix2 g f) := by
  refine shapeCast_apply v _ (ix3 (0 : Fin 1) g f) (ix2 g f) ?_
  rw [Shape.rowMajor_val_two, Shape.rowMajor_val_three]
  show g.val * 128 + f.val = (0 * 256 + g.val) * 128 + f.val
  omega

theorem addUnit1_apply (v : FVec Ideal S256x1 .f32) (g : Fin 256) :
    shapeCast S1x256x1 v shapeCasts_S256x1_S1x256x1 (ix3 (0 : Fin 1) g (0 : Fin 1)) = v (ix2 g (0 : Fin 1)) := by
  refine shapeCast_apply v _ (ix3 (0 : Fin 1) g (0 : Fin 1)) (ix2 g (0 : Fin 1)) ?_
  rw [Shape.rowMajor_val_two, Shape.rowMajor_val_three]
  show g.val * 1 + 0 = (0 * 256 + g.val) * 1 + 0
  omega

/-- WHAT A POINT ADDS TO THE SUMS: the running block plus the one-hot row against the block's column `f` and against
    its split remainder. -/
theorem sum_step (v6 : Vec Ideal S1x5000 .i32) (v16 : Vec Ideal S5000x128 .f32) (v34 : Vec Ideal S1x256x128 .f32)
    (g : Fin 256) (f : Fin 128) :
    k0_pay9 (F := Ideal) v6 v16 v34 (ix3 (0 : Fin 1) g f)
      = v34 (ix3 (0 : Fin 1) g f)
        + ((∑ t : Fin 5000, oh g (v6 (ix2 (0 : Fin 1) t)) * v16 (ix2 t f))
          + (∑ t : Fin 5000, oh g (v6 (ix2 (0 : Fin 1) t)) * (v16 (ix2 t f) - v16 (ix2 t f)))) := by
  unfold k0_pay9
  rw [addf_apply, shapeCast_self, addUnit128_apply, addf_apply, dot128_apply, dot128_apply]
  rfl

/-- WHAT A POINT ADDS TO THE SUMS OF SQUARES. -/
theorem sq_step (v6 : Vec Ideal S1x5000 .i32) (v16 : Vec Ideal S5000x128 .f32) (v39 : Vec Ideal S1x256x128 .f32)
    (g : Fin 256) (f : Fin 128) :
    k0_pay1 (F := Ideal) (k0_pay7 (F := Ideal) v6 v16) v39 (ix3 (0 : Fin 1) g f)
      = v39 (ix3 (0 : Fin 1) g f)
        + ((∑ t : Fin 5000, oh g (v6 (ix2 (0 : Fin 1) t)) * (v16 (ix2 t f) * v16 (ix2 t f)))
          + (∑ t : Fin 5000, oh g (v6 (ix2 (0 : Fin 1) t))
              * (v16 (ix2 t f) * v16 (ix2 t f) - v16 (ix2 t f) * v16 (ix2 t f)))) := by
  unfold k0_pay1 k0_pay7
  rw [addf_apply, shapeCast_self, addUnit128_apply, addf_apply, dot128_apply, dot128_apply]
  rfl

/-- WHAT A POINT ADDS TO THE COUNTS. -/
theorem cnt_step (v6 : Vec Ideal S1x5000 .i32) (v44 : Vec Ideal S1x256x1 .f32) (g : Fin 256) :
    k0_pay2 (F := Ideal) (k0_pay8 (F := Ideal) v6) v44 (ix3 (0 : Fin 1) g (0 : Fin 1))
      = v44 (ix3 (0 : Fin 1) g (0 : Fin 1)) + ∑ t : Fin 5000, oh g (v6 (ix2 (0 : Fin 1) t)) * 1 := by
  unfold k0_pay2 k0_pay8
  rw [addf_apply, shapeCast_self, addUnit1_apply, dot1_apply]
  refine congrArg (v44 (ix3 (0 : Fin 1) g (0 : Fin 1)) + ·) (Finset.sum_congr rfl fun t _ => ?_)
  rw [broadcast_apply]
  show _ * Ideal.ofBits .bf16 0x3F80#16 = _
  rw [one_bf16]

end Cert.KernelIdeal.Region0Pay

end
-- ==== Proof.Region0Piece.lean ====
/-
  Region 0's body read as values: what each of the two control cases leaves in the three output blocks, as the body's
  arithmetic applied to the row of identifiers it loads, the block of `h` and (away from a core's first point) the
  running blocks.
-/
import proofs.«403000_j1451698946636_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Region0Piece

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The row of identifiers a point loads: the rectangle of one row at the point's offset. -/
abbrev segRow (i : grid0.Coords) (x0 : Vec F S100x5000 .i32) : Vec F S1x5000 .i32 :=
  View.ld x0 (Rect.unit (s := S100x5000) (k0_off1 i) S1x5000.size (k0_off1_inb i))

/-! ## Away from a core's first point: the running blocks are added to -/

/-- The block of sums after such a point: the running block plus the point's products. -/
theorem sum_B (c : Dev nD) (i : grid0.Coords) (arg2 : Memref sig .tc .vmem S100x5000 .i32) (harg2 : arg2.IsWhole) (arg3 : Memref sig .tc .vmem S5000x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x256x1 .f32) (harg6 : arg6.IsWhole) (hc0 : ¬cond0_0 i)
    (x0 : Vec F S100x5000 .i32) (x1 : Vec F S5000x128 .f32) (xo2 : Vec F S1x256x128 .f32) (xo3 : Vec F S1x256x128 .f32) (xo4 : Vec F S1x256x1 .f32) :
    out0_B_2 c i arg2 harg2 arg3 harg3 arg4 harg4 arg5 harg5 arg6 harg6 hc0 x0 x1 xo2 xo3 xo4 = k0_pay9 (segRow i x0) x1 xo2 := by
  unfold out0_B_2
  rw [View.read_writes_eq_canon _ _ _ (cover0_B_2 c i arg2 harg2 arg3 harg3 arg4 harg4 arg5 harg5 arg6 harg6 hc0 x0 x1 xo2 xo3 xo4)]
  unfold kernelRun0_B
  dsimp only
  sl_unfold_words
  rw [View.canon_unit_zero (S := S1x256x128) hz3]
  simp only [View.readAt_eq_ld, harg2.read_unread, harg3.read_unread, harg4.read_unread, harg5.read_unread, harg6.read_unread,
    View.ld_unit_zero (S := S1x256x128) hz3, View.ld_unit_zero (S := S1x256x1) hz3, View.ld_unit_zero (S := S5000x128) hz2]
  rfl

/-- The block of sums of squares after such a point. -/
theorem sq_B (c : Dev nD) (i : grid0.Coords) (arg2 : Memref sig .tc .vmem S100x5000 .i32) (harg2 : arg2.IsWhole) (arg3 : Memref sig .tc .vmem S5000x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x256x1 .f32) (harg6 : arg6.IsWhole) (hc0 : ¬cond0_0 i)
    (x0 : Vec F S100x5000 .i32) (x1 : Vec F S5000x128 .f32) (xo2 : Vec F S1x256x128 .f32) (xo3 : Vec F S1x256x128 .f32) (xo4 : Vec F S1x256x1 .f32) :
    out0_B_3 c i arg2 harg2 arg3 harg3 arg4 harg4 arg5 harg5 arg6 harg6 hc0 x0 x1 xo2 xo3 xo4 = k0_pay1 (k0_pay7 (segRow i x0) x1) xo3 := by
  unfold out0_B_3
  rw [View.read_writes_eq_canon _ _ _ (cover0_B_3 c i arg2 harg2 arg3 harg3 arg4 harg4 arg5 harg5 arg6 harg6 hc0 x0 x1 xo2 xo3 xo4)]
  unfold kernelRun0_B
  dsimp only
  sl_unfold_words
  rw [View.canon_unit_zero (S := S1x256x128) hz3]
  simp only [View.readAt_eq_ld, harg2.read_unread, harg3.read_unread, harg4.read_unread, harg5.read_unread, harg6.read_unread,
    View.ld_unit_zero (S := S1x256x128) hz3, View.ld_unit_zero (S := S1x256x1) hz3, View.ld_unit_zero (S := S5000x128) hz2]
  rfl

/-- The block of counts after such a point. -/
theorem cnt_B (c : Dev nD) (i : grid0.Coords) (arg2 : Memref sig .tc .vmem S100x5000 .i32) (harg2 : arg2.IsWhole) (arg3 : Memref sig .tc .vmem S5000x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x256x1 .f32) (harg6 : arg6.IsWhole) (hc0 : ¬cond0_0 i)
    (x0 : Vec F S100x5000 .i32) (x1 : Vec F S5000x128 .f32) (xo2 : Vec F S1x256x128 .f32) (xo3 : Vec F S1x256x128 .f32) (xo4 : Vec F S1x256x1 .f32) :
    out0_B_4 c i arg2 harg2 arg3 harg3 arg4 harg4 arg5 harg5 arg6 harg6 hc0 x0 x1 xo2 xo3 xo4 = k0_pay2 (k0_pay8 (segRow i x0)) xo4 := by
  unfold out0_B_4
  rw [View.read_writes_eq_canon _ _ _ (cover0_B_4 c i arg2 harg2 arg3 harg3 arg4 harg4 arg5 harg5 arg6 harg6 hc0 x0 x1 xo2 xo3 xo4)]
  unfold kernelRun0_B
  dsimp only
  sl_unfold_words
  rw [View.canon_unit_zero (S := S1x256x1) hz3]
  simp only [View.readAt_eq_ld, harg2.read_unread, harg3.read_unread, harg4.read_unread, harg5.read_unread, harg6.read_unread,
    View.ld_unit_zero (S := S1x256x128) hz3, View.ld_unit_zero (S := S1x256x1) hz3, View.ld_unit_zero (S := S5000x128) hz2]
  rfl

/-! ## At a core's first point: the blocks are zeroed, then added to -/

/-- The block of sums after a first point: the zero block plus the point's products. -/
theorem sum_A (c : Dev nD) (i : grid0.Coords) (arg2 : Memref sig .tc .vmem S100x5000 .i32) (harg2 : arg2.IsWhole) (arg3 : Memref sig .tc .vmem S5000x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x256x1 .f32) (harg6 : arg6.IsWhole) (hc0 : cond0_0 i)
    (x0 : Vec F S100x5000 .i32) (x1 : Vec F S5000x128 .f32) :
    out0_A_2 c i arg2 harg2 arg3 harg3 arg4 harg4 arg5 harg5 arg6 harg6 hc0 x0 x1 = k0_pay9 (segRow i x0) x1 (k0_pay3 (F := F)) := by
  unfold out0_A_2
  rw [View.read_writes_eq_canon _ _ _ (cover0_A_2 c i arg2 harg2 arg3 harg3 arg4 harg4 arg5 harg5 arg6 harg6 hc0 x0 x1)]
  unfold kernelRun0_A
  dsimp only
  sl_unfold_words
  rw [View.canon_cons_unit_zero (S := S1x256x128) hz3]
  simp only [View.readAt_eq_ld, harg2.read_unread, harg3.read_unread,
    View.readCov_unit_zero (S := S1x256x128) _ hz3, View.readCov_unit_zero (S := S1x256x1) _ hz3,
    View.ld_unit_zero (S := S1x256x128) hz3, View.ld_unit_zero (S := S1x256x1) hz3, View.ld_unit_zero (S := S5000x128) hz2]
  rfl

/-- The block of sums of squares after a first point. -/
theorem sq_A (c : Dev nD) (i : grid0.Coords) (arg2 : Memref sig .tc .vmem S100x5000 .i32) (harg2 : arg2.IsWhole) (arg3 : Memref sig .tc .vmem S5000x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x256x1 .f32) (harg6 : arg6.IsWhole) (hc0 : cond0_0 i)
    (x0 : Vec F S100x5000 .i32) (x1 : Vec F S5000x128 .f32) :
    out0_A_3 c i arg2 harg2 arg3 harg3 arg4 harg4 arg5 harg5 arg6 harg6 hc0 x0 x1 = k0_pay1 (k0_pay7 (segRow i x0) x1) (k0_pay4 (F := F)) := by
  unfold out0_A_3
  rw [View.read_writes_eq_canon _ _ _ (cover0_A_3 c i arg2 harg2 arg3 harg3 arg4 harg4 arg5 harg5 arg6 harg6 hc0 x0 x1)]
  unfold kernelRun0_A
  dsimp only
  sl_unfold_words
  rw [View.canon_cons_unit_zero (S := S1x256x128) hz3]
  simp only [View.readAt_eq_ld, harg2.read_unread, harg3.read_unread,
    View.readCov_unit_zero (S := S1x256x128) _ hz3, View.readCov_unit_zero (S := S1x256x1) _ hz3,
    View.ld_unit_zero (S := S1x256x128) hz3, View.ld_unit_zero (S := S1x256x1) hz3, View.ld_unit_zero (S := S5000x128) hz2]
  rfl

/-- The block of counts after a first point. -/
theorem cnt_A (c : Dev nD) (i : grid0.Coords) (arg2 : Memref sig .tc .vmem S100x5000 .i32) (harg2 : arg2.IsWhole) (arg3 : Memref sig .tc .vmem S5000x128 .f32) (harg3 : arg3.IsWhole) (arg4 : Memref sig .tc .vmem S1x256x128 .f32) (harg4 : arg4.IsWhole) (arg5 : Memref sig .tc .vmem S1x256x128 .f32) (harg5 : arg5.IsWhole) (arg6 : Memref sig .tc .vmem S1x256x1 .f32) (harg6 : arg6.IsWhole) (hc0 : cond0_0 i)
    (x0 : Vec F S100x5000 .i32) (x1 : Vec F S5000x128 .f32) :
    out0_A_4 c i arg2 harg2 arg3 harg3 arg4 harg4 arg5 harg5 arg6 harg6 hc0 x0 x1 = k0_pay2 (k0_pay8 (segRow i x0)) (k0_pay5 (F := F)) := by
  unfold out0_A_4
  rw [View.read_writes_eq_canon _ _ _ (cover0_A_4 c i arg2 harg2 arg3 harg3 arg4 harg4 arg5 harg5 arg6 harg6 hc0 x0 x1)]
  unfold kernelRun0_A
  dsimp only
  sl_unfold_words
  rw [View.canon_cons_unit_zero (S := S1x256x1) hz3]
  simp only [View.readAt_eq_ld, harg2.read_unread, harg3.read_unread,
    View.readCov_unit_zero (S := S1x256x128) _ hz3, View.readCov_unit_zero (S := S1x256x1) _ hz3,
    View.ld_unit_zero (S := S1x256x128) hz3, View.ld_unit_zero (S := S1x256x1) hz3, View.ld_unit_zero (S := S5000x128) hz2]
  rfl

end Cert.KernelIdeal.Region0Piece

end
-- ==== Proof.Region0.lean ====
/-
  Region 0 (the reducing pass) read as values.

  The grid has 100 points, 50 per core; point `n` holds row `n` of the table of identifiers and rows
  `5000 n … 5000 n + 4999` of `h`.  At a core's first point the three output blocks are zeroed; every point then adds,
  at segment `g`, the one-hot row `[g = identifier]` against the block's columns (sums), against their squares (sums
  of squares) and against a column of ones (counts).  The blocks are carried from point to point and written back at the
  core's last point, so each output array holds, per core, the sum over its 50 points of the point's contribution.
-/
import proofs.«403000_j1451698946636_3_alg».proof.Proof.Gen.KernelIdeal.Frame
import proofs.«403000_j1451698946636_3_alg».proof.Proof.Spec
import proofs.«403000_j1451698946636_3_alg».proof.Proof.Region0Pay
import proofs.«403000_j1451698946636_3_alg».proof.Proof.Region0Piece
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.GraphNorm
open Cert.KernelIdeal.Region0Pay Cert.KernelIdeal.Region0Piece

variable (V : (c : Dev nD) → (b : Ref sig .tc) → Buf (Elt Ideal) ((c : Thread nD τ).loc b))

/-- The arrays region 0 finds, by their literal types. -/
abbrev segArr (c : Dev nD) : IVec S100x5000 32 := V c main_v0
abbrev hArr (c : Dev nD) : Vec Ideal S500000x128 .f32 := V c main_arg0
/-- The same as functions of the rows. -/
def segRows (c : Dev nD) : Fin 500000 → BitVec 32 := rowsOf fun b t => segArr V c (ix2 b t)
def hRows (c : Dev nD) : Fin 500000 → Fin 128 → EReal := fun n f => hArr V c (ix2 n f)

/-! ## Where a point's blocks sit -/

/-- The block indices and the loaded row's offset at every point of the grid: the table is staged whole, the loaded row
    and the block of `h` are the point's own, the three outputs' blocks are the core's. -/
theorem idx_facts : ∀ t : Fin cfg0.N,
    k0_off1 (grid0.coords t) (0 : Fin 2) = t.val ∧ k0_off1 (grid0.coords t) (1 : Fin 2) = 0
    ∧ win0_0.index t (0 : Fin 2) = 0 ∧ win0_0.index t (1 : Fin 2) = 0
    ∧ win0_1.index t (0 : Fin 2) = t.val ∧ win0_1.index t (1 : Fin 2) = 0
    ∧ win0_2.index t (0 : Fin 3) = t.val / 50 ∧ win0_2.index t (1 : Fin 3) = 0 ∧ win0_2.index t (2 : Fin 3) = 0
    ∧ win0_3.index t (0 : Fin 3) = t.val / 50 ∧ win0_3.index t (1 : Fin 3) = 0 ∧ win0_3.index t (2 : Fin 3) = 0
    ∧ win0_4.index t (0 : Fin 3) = t.val / 50 ∧ win0_4.index t (1 : Fin 3) = 0 ∧ win0_4.index t (2 : Fin 3) = 0 :=
  (by decide +kernel : ∀ t : Fin grid0.N, _)

/-- The two input blocks of a point, by their literal types. -/
abbrev tblk (c : Dev nD) (t : Fin cfg0.N) : Vec Ideal S100x5000 .i32 := iblk0 V c 0 t
abbrev hblk (c : Dev nD) (t : Fin cfg0.N) : Vec Ideal S5000x128 .f32 := iblk0 V c 1 t

/-- The staged table is the table. -/
theorem tblk_apply (c : Dev nD) (t : Fin cfg0.N) (x k : S100x5000.Idx)
    (hk0 : (k 0).val = (x 0).val) (hk1 : (k 1).val = (x 1).val) : tblk V c t x = segArr V c k := by
  obtain ⟨-, -, e0, e1, -⟩ := idx_facts t
  unfold tblk iblk0
  rw [View.read_apply]
  show V c main_v0 _ = V c main_v0 _
  congr 1
  funext a
  apply Fin.ext
  match a with
  | ⟨0, _⟩ => show win0_0.index t 0 * 100 + 1 * (x 0).val = (k 0).val; rw [e0, hk0]; omega
  | ⟨1, _⟩ => show win0_0.index t 1 * 5000 + 1 * (x 1).val = (k 1).val; rw [e1, hk1]; omega

/-- The row of identifiers point `n` loads is row `n` of the table: the identifiers of block `n`'s rows. -/
theorem segRow_apply (c : Dev nD) (t : Fin cfg0.N) (hn : t.val < 100) (u : Fin 5000) :
    segRow (F := Ideal) (grid0.coords t) (tblk V c t) (ix2 (0 : Fin 1) u) = segRows V c (row ⟨t.val, hn⟩ u) := by
  obtain ⟨o0, o1, -⟩ := idx_facts t
  unfold segRows
  rw [rowsOf_row]
  show tblk V c t ((Rect.unit (s := S100x5000) (k0_off1 (grid0.coords t)) S1x5000.size (k0_off1_inb (grid0.coords t))).emb (ix2 (0 : Fin 1) u)) = _
  refine tblk_apply V c t _ (ix2 (⟨t.val, hn⟩ : Fin 100) u) ?_ ?_
  · show t.val = k0_off1 (grid0.coords t) 0 + 1 * 0
    rw [o0]; omega
  · show u.val = k0_off1 (grid0.coords t) 1 + 1 * u.val
    rw [o1]; omega

/-- Point `n`'s block of `h` is rows `5000 n … 5000 n + 4999`. -/
theorem hblk_apply (c : Dev nD) (t : Fin cfg0.N) (hn : t.val < 100) (u : Fin 5000) (f : Fin 128) :
    hblk V c t (ix2 u f) = hRows V c (row ⟨t.val, hn⟩ u) f := by
  obtain ⟨-, -, -, -, e0, e1, -⟩ := idx_facts t
  unfold hblk iblk0 hRows
  rw [View.read_apply]
  show V c main_arg0 _ = V c main_arg0 _
  congr 1
  funext a
  apply Fin.ext
  match a with
  | ⟨0, _⟩ => show win0_1.index t 0 * 5000 + 1 * u.val = t.val * 5000 + u.val; rw [e0]; omega
  | ⟨1, _⟩ => show win0_1.index t 1 * 128 + 1 * f.val = f.val; rw [e1]; omega

/-! ## What a point adds, in the specification's words -/

theorem N100 : cfg0.N = 100 := N_0

/-- The sums: the running block plus block `n`'s contribution. -/
theorem sum_addend (c : Dev nD) (t : Fin cfg0.N) (acc : Vec Ideal S1x256x128 .f32) (g : Fin 256) (f : Fin 128) :
    k0_pay9 (F := Ideal) (segRow (F := Ideal) (grid0.coords t) (tblk V c t)) (hblk V c t) acc (ix3 (0 : Fin 1) g f)
      = acc (ix3 (0 : Fin 1) g f) + blkSum (segRows V c) (hRows V c) t.val g f := by
  have hn : t.val < 100 := lt_of_lt_of_eq t.isLt N100
  refine (sum_step _ _ _ g f).trans ?_
  unfold blkSum
  rw [dif_pos hn]
  refine congrArg (acc (ix3 (0 : Fin 1) g f) + ·) ?_
  refine congrArg₂ (· + ·) (Finset.sum_congr rfl fun u _ => ?_) (Finset.sum_congr rfl fun u _ => ?_)
  · rw [segRow_apply V c t hn u, hblk_apply V c t hn u f]
  · rw [segRow_apply V c t hn u, hblk_apply V c t hn u f]

/-- The sums of squares. -/
theorem sq_addend (c : Dev nD) (t : Fin cfg0.N) (acc : Vec Ideal S1x256x128 .f32) (g : Fin 256) (f : Fin 128) :
    k0_pay1 (F := Ideal) (k0_pay7 (F := Ideal) (segRow (F := Ideal) (grid0.coords t) (tblk V c t)) (hblk V c t)) acc
        (ix3 (0 : Fin 1) g f)
      = acc (ix3 (0 : Fin 1) g f) + blkSq (segRows V c) (hRows V c) t.val g f := by
  have hn : t.val < 100 := lt_of_lt_of_eq t.isLt N100
  refine (sq_step _ _ _ g f).trans ?_
  unfold blkSq
  rw [dif_pos hn]
  refine congrArg (acc (ix3 (0 : Fin 1) g f) + ·) ?_
  refine congrArg₂ (· + ·) (Finset.sum_congr rfl fun u _ => ?_) (Finset.sum_congr rfl fun u _ => ?_)
  · rw [segRow_apply V c t hn u, hblk_apply V c t hn u f]
  · rw [segRow_apply V c t hn u, hblk_apply V c t hn u f]

/-- The counts. -/
theorem cnt_addend (c : Dev nD) (t : Fin cfg0.N) (acc : Vec Ideal S1x256x1 .f32) (g : Fin 256) :
    k0_pay2 (F := Ideal) (k0_pay8 (F := Ideal) (segRow (F := Ideal) (grid0.coords t) (tblk V c t))) acc
        (ix3 (0 : Fin 1) g (0 : Fin 1))
      = acc (ix3 (0 : Fin 1) g (0 : Fin 1)) + blkCnt (segRows V c) t.val g := by
  have hn : t.val < 100 := lt_of_lt_of_eq t.isLt N100
  refine (cnt_step _ _ g).trans ?_
  unfold blkCnt
  rw [dif_pos hn]
  refine congrArg (acc (ix3 (0 : Fin 1) g (0 : Fin 1)) + ·) (Finset.sum_congr rfl fun u _ => ?_)
  rw [segRow_apply V c t hn u]

/-! ## The running blocks after each point -/

/-- At a core's first point: the arithmetic over the zero blocks. -/
theorem outs_first (c : Dev nD) (t : Fin cfg0.N) (h0 : t.val % 50 = 0) :
    (outsAt0 V c t.val t.isLt).1
        = k0_pay9 (segRow (grid0.coords t) (tblk V c t)) (hblk V c t) (k0_pay3 (F := Ideal))
    ∧ (outsAt0 V c t.val t.isLt).2.1
        = k0_pay1 (k0_pay7 (segRow (grid0.coords t) (tblk V c t)) (hblk V c t)) (k0_pay4 (F := Ideal))
    ∧ (outsAt0 V c t.val t.isLt).2.2
        = k0_pay2 (k0_pay8 (segRow (grid0.coords t) (tblk V c t))) (k0_pay5 (F := Ideal)) := by
  rw [outsAt0_A V c t h0]
  dsimp only
  exact ⟨sum_A (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t),
    sq_A (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t),
    cnt_A (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t)⟩

/-- At any other point: the arithmetic over what the point before left. -/
theorem outs_next (c : Dev nD) (t : Fin cfg0.N) (h0 : ¬t.val % 50 = 0) :
    (outsAt0 V c t.val t.isLt).1
        = k0_pay9 (segRow (grid0.coords t) (tblk V c t)) (hblk V c t) (outsAt0 V c (t.val - 1) (Nat.lt_of_le_of_lt (Nat.sub_le _ _) t.isLt)).1
    ∧ (outsAt0 V c t.val t.isLt).2.1
        = k0_pay1 (k0_pay7 (segRow (grid0.coords t) (tblk V c t)) (hblk V c t)) (outsAt0 V c (t.val - 1) (Nat.lt_of_le_of_lt (Nat.sub_le _ _) t.isLt)).2.1
    ∧ (outsAt0 V c t.val t.isLt).2.2
        = k0_pay2 (k0_pay8 (segRow (grid0.coords t) (tblk V c t))) (outsAt0 V c (t.val - 1) (Nat.lt_of_le_of_lt (Nat.sub_le _ _) t.isLt)).2.2 := by
  rw [outsAt0_B V c t h0]
  dsimp only
  exact ⟨sum_B (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2,
    sq_B (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2,
    cnt_B (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2⟩

/-! ## The fold over a core's run -/

/-- The zero blocks read 0. -/
theorem zero3 (i : S1x256x128.Idx) : k0_pay3 (F := Ideal) i = 0 := Ideal.ofBits_zero_f32
theorem zero4 (i : S1x256x128.Idx) : k0_pay4 (F := Ideal) i = 0 := Ideal.ofBits_zero_f32
theorem zero5 (i : S1x256x1.Idx) : k0_pay5 (F := Ideal) i = 0 := Ideal.ofBits_zero_f32

/-- A quantity that is `0 + M n` at the first point of each run of 50 and the point before's value plus `M n`
    elsewhere is, at the run's last point, the sum of the run's 50 addends. -/
theorem run_sum {ι : Type} (r : (n : ℕ) → n < cfg0.N → ι → EReal) (M : ℕ → ι → EReal)
    (h0 : ∀ (n : ℕ) (h : n < cfg0.N), n % 50 = 0 → r n h = fun p => 0 + M n p)
    (hs : ∀ (n : ℕ) (h : n + 1 < cfg0.N), ¬(n + 1) % 50 = 0 →
      r (n + 1) h = fun p => r n (Nat.lt_of_succ_lt h) p + M (n + 1) p)
    (q : Fin 2) (h : 50 * q.val + 49 < cfg0.N) (p : ι) :
    r (50 * q.val + 49) h p = ∑ s ∈ Finset.range 50, M (50 * q.val + s) p := by
  have hd : (50 * q.val + 49) / 50 = q.val := by omega
  have hm : (50 * q.val + 49) % 50 = 49 := by omega
  have h' : 50 * ((50 * q.val + 49) / 50) + (50 * q.val + 49) % 50 < cfg0.N := by rw [hd, hm]; exact h
  have key := Pipeline.eq_accAt_of_mod r 50 (fun n _ p => 0 + M n p) (fun n _ acc p => acc p + M n p)
    h0 hs (by norm_num) (50 * q.val + 49) h h'
  have unroll := Pipeline.accAt_add_apply (N := cfg0.N) (fun n _ p => 0 + M n p) (fun n _ acc p => acc p + M n p)
    (fun _ => (0 : EReal)) M (50 * ((50 * q.val + 49) / 50)) 49 (fun _ _ => rfl) (fun _ _ _ _ _ _ => rfl)
    ((50 * q.val + 49) % 50) (by omega) h' p
  rw [key, unroll, zero_add, hd, hm]

/-- The block of sums after point `n`, at segment `g` and column `f`. -/
def sumAt (c : Dev nD) (n : ℕ) (hn : n < cfg0.N) : Fin 256 × Fin 128 → EReal :=
  fun p => (outsAt0 V c n hn).1 (ix3 (0 : Fin 1) p.1 p.2)
def sqAt (c : Dev nD) (n : ℕ) (hn : n < cfg0.N) : Fin 256 × Fin 128 → EReal :=
  fun p => (outsAt0 V c n hn).2.1 (ix3 (0 : Fin 1) p.1 p.2)
def cntAt (c : Dev nD) (n : ℕ) (hn : n < cfg0.N) : Fin 256 → EReal :=
  fun g => (outsAt0 V c n hn).2.2 (ix3 (0 : Fin 1) g (0 : Fin 1))

/-- After a core's last point the block of sums holds the core's 50 contributions added. -/
theorem sum_last (c : Dev nD) (q : Fin 2) (h : 50 * q.val + 49 < cfg0.N) (g : Fin 256) (f : Fin 128) :
    (outsAt0 V c (50 * q.val + 49) h).1 (ix3 (0 : Fin 1) g f) = kSum (segRows V c) (hRows V c) q g f := by
  refine (run_sum (sumAt V c) (fun n p => blkSum (segRows V c) (hRows V c) n p.1 p.2) ?_ ?_ q h (g, f)).trans rfl
  · intro n hn h0
    funext p
    refine (congrFun (outs_first V c ⟨n, hn⟩ h0).1 (ix3 (0 : Fin 1) p.1 p.2)).trans ?_
    refine (sum_addend V c ⟨n, hn⟩ _ p.1 p.2).trans ?_
    rw [zero3]
  · intro n hn h0
    funext p
    refine (congrFun (outs_next V c ⟨n + 1, hn⟩ h0).1 (ix3 (0 : Fin 1) p.1 p.2)).trans ?_
    exact sum_addend V c ⟨n + 1, hn⟩ _ p.1 p.2

theorem sq_last (c : Dev nD) (q : Fin 2) (h : 50 * q.val + 49 < cfg0.N) (g : Fin 256) (f : Fin 128) :
    (outsAt0 V c (50 * q.val + 49) h).2.1 (ix3 (0 : Fin 1) g f) = kSq (segRows V c) (hRows V c) q g f := by
  refine (run_sum (sqAt V c) (fun n p => blkSq (segRows V c) (hRows V c) n p.1 p.2) ?_ ?_ q h (g, f)).trans rfl
  · intro n hn h0
    funext p
    refine (congrFun (outs_first V c ⟨n, hn⟩ h0).2.1 (ix3 (0 : Fin 1) p.1 p.2)).trans ?_
    refine (sq_addend V c ⟨n, hn⟩ _ p.1 p.2).trans ?_
    rw [zero4]
  · intro n hn h0
    funext p
    refine (congrFun (outs_next V c ⟨n + 1, hn⟩ h0).2.1 (ix3 (0 : Fin 1) p.1 p.2)).trans ?_
    exact sq_addend V c ⟨n + 1, hn⟩ _ p.1 p.2

theorem cnt_last (c : Dev nD) (q : Fin 2) (h : 50 * q.val + 49 < cfg0.N) (g : Fin 256) :
    (outsAt0 V c (50 * q.val + 49) h).2.2 (ix3 (0 : Fin 1) g (0 : Fin 1)) = kCnt (segRows V c) q g := by
  refine (run_sum (cntAt V c) (fun n g => blkCnt (segRows V c) n g) ?_ ?_ q h g).trans rfl
  · intro n hn h0
    funext p
    refine (congrFun (outs_first V c ⟨n, hn⟩ h0).2.2 (ix3 (0 : Fin 1) p (0 : Fin 1))).trans ?_
    refine (cnt_addend V c ⟨n, hn⟩ _ p).trans ?_
    rw [zero5]
  · intro n hn h0
    funext p
    refine (congrFun (outs_next V c ⟨n + 1, hn⟩ h0).2.2 (ix3 (0 : Fin 1) p (0 : Fin 1))).trans ?_
    exact cnt_addend V c ⟨n + 1, hn⟩ _ p

/-! ## The arrays after the region -/

/-! ### Output 2 -/

/-- The array of sums: per core, segment and column. -/
def sumArr (c : Dev nD) : Vec Ideal S2x256x128 .f32 := fun i => kSum (segRows V c) (hRows V c) (i 0) (i 1) (i 2)

theorem sumArr_of (c : Dev nD) (i : S2x256x128.Idx) (q : Fin 2) (g : Fin 256) (f : Fin 128)
    (h0 : (i 0).val = q.val) (h1 : (i 1).val = g.val) (h2 : (i 2).val = f.val) :
    sumArr V c i = kSum (segRows V c) (hRows V c) q g f := by
  obtain ⟨a', g', f', rfl⟩ : ∃ (a' : Fin 2) (g' : Fin 256) (f' : Fin 128), i = ix3 a' g' f' := ⟨i 0, i 1, i 2, eq_ix3 i⟩
  obtain rfl : a' = q := Fin.ext h0
  obtain rfl : g' = g := Fin.ext h1
  obtain rfl : f' = f := Fin.ext h2
  rfl

/-- What a core's last point writes back is the core's block of the array. -/
theorem flushed2_eq (c : Dev nD) (t : Fin cfg0.N) (hf : (cfg0.win 2).flush t = true) :
    (dat0 V c).flushed 2 t = ((cfg0.win 2).blk t).view.read (Elt Ideal) (sumArr V c) := by
  have h49 : t.val % 50 = 49 := (flush0_2 t).mp hf
  have htl : t.val < 100 := lt_of_lt_of_eq t.isLt N100
  obtain ⟨-, -, -, -, -, -, e0, e1, e2, -⟩ := idx_facts t
  have hq : t.val / 50 < 2 := by omega
  have ht : 50 * (⟨t.val / 50, hq⟩ : Fin 2).val + 49 = t.val := by show 50 * (t.val / 50) + 49 = t.val; omega
  have hlt : 50 * (⟨t.val / 50, hq⟩ : Fin 2).val + 49 < cfg0.N := by rw [ht]; exact t.isLt
  have same : ∀ (n : ℕ) (hn : n < cfg0.N), n = t.val → (outsAt0 V c n hn).1 = (outsAt0 V c t.val t.isLt).1 :=
    fun n hn e => by subst e; rfl
  show (cfg0.win 2).cut (grid0.coords t) ((dat0 V c).after 2 t) = _
  rw [after0_2]
  refine funext fun (j : S1x256x128.Idx) => ?_
  obtain ⟨a, g, f, rfl⟩ : ∃ (a : Fin 1) (g : Fin 256) (f : Fin 128), j = ix3 a g f := ⟨j 0, j 1, j 2, eq_ix3 j⟩
  obtain rfl : a = 0 := Subsingleton.elim _ _
  show (outsAt0 V c t.val t.isLt).1 (ix3 (0 : Fin 1) g f)
    = sumArr V c (((cfg0.win 2).blk t).view.emb (ix3 (0 : Fin 1) g f))
  refine ((congrFun (same _ hlt ht) _).symm.trans (sum_last V c ⟨t.val / 50, hq⟩ hlt g f)).trans ?_
  refine (sumArr_of V c _ ⟨t.val / 50, hq⟩ g f ?_ ?_ ?_).symm
  · show win0_2.index t 0 * 1 + 1 * 0 = t.val / 50
    rw [e0]; omega
  · show win0_2.index t 1 * 256 + 1 * g.val = g.val
    rw [e1]; omega
  · show win0_2.index t 2 * 128 + 1 * f.val = f.val
    rw [e2]; omega

/-- An index of the array is in a point's block iff each coordinate is in the block's range on its axis. -/
theorem mem_blk2 (t : Fin cfg0.N) (i : S2x256x128.Idx) :
    i ∈ ((cfg0.win 2).blk t).view.set ↔ ∀ a : Fin 3, win0_2.index t a * S1x256x128.size a ≤ (i a).val
      ∧ (i a).val < win0_2.index t a * S1x256x128.size a + S1x256x128.size a := by
  show i ∈ ((View.whole main_v3_0).slice (win0_2.rect t)).set ↔ _
  rw [View.set_slice_whole, Rect.mem_set_unit]
  exact Iff.rfl

/-- Entry (a, g, ·) of the array is written back by core `a`'s last point. -/
theorem cover2 (i : S2x256x128.Idx) :
    ∃ t : Fin cfg0.N, (cfg0.win 2).flush t = true ∧ i ∈ ((cfg0.win 2).blk t).view.set := by
  have hi0 : (i 0).val < 2 := (i 0).isLt
  have hi1 : (i 1).val < 256 := (i 1).isLt
  have hi2 : (i 2).val < 128 := (i 2).isLt
  have hlt : 50 * (i 0).val + 49 < cfg0.N := by rw [N100]; omega
  refine ⟨⟨50 * (i 0).val + 49, hlt⟩, (flush0_2 _).mpr (by show (50 * (i 0).val + 49) % 50 = 49; omega), ?_⟩
  obtain ⟨-, -, -, -, -, -, e0, e1, e2, -⟩ := idx_facts ⟨50 * (i 0).val + 49, hlt⟩
  have e0' : win0_2.index ⟨50 * (i 0).val + 49, hlt⟩ 0 = (i 0).val := by rw [e0]; show (50 * (i 0).val + 49) / 50 = _; omega
  rw [mem_blk2]
  intro a
  match a with
  | ⟨0, _⟩ =>
    show win0_2.index ⟨50 * (i 0).val + 49, hlt⟩ 0 * 1 ≤ (i 0).val ∧ (i 0).val < win0_2.index ⟨50 * (i 0).val + 49, hlt⟩ 0 * 1 + 1
    rw [e0']; omega
  | ⟨1, _⟩ =>
    show win0_2.index ⟨50 * (i 0).val + 49, hlt⟩ 1 * 256 ≤ (i 1).val ∧ (i 1).val < win0_2.index ⟨50 * (i 0).val + 49, hlt⟩ 1 * 256 + 256
    rw [e1]; omega
  | ⟨2, _⟩ =>
    show win0_2.index ⟨50 * (i 0).val + 49, hlt⟩ 2 * 128 ≤ (i 2).val ∧ (i 2).val < win0_2.index ⟨50 * (i 0).val + 49, hlt⟩ 2 * 128 + 128
    rw [e2]; omega

/-- So the array ends holding, per core, the core's 50 contributions added. -/
theorem final2 (c : Dev nD) : (dat0 V c).arrAt 2 cfg0.N = sumArr V c :=
  (dat0 V c).arrAt_eq_of_cover 2 (sumArr V c) (flushed2_eq V c) (cover2)

/-! ### Output 3 -/

/-- The array of sums of squares: per core, segment and column. -/
def sqArr (c : Dev nD) : Vec Ideal S2x256x128 .f32 := fun i => kSq (segRows V c) (hRows V c) (i 0) (i 1) (i 2)

theorem sqArr_of (c : Dev nD) (i : S2x256x128.Idx) (q : Fin 2) (g : Fin 256) (f : Fin 128)
    (h0 : (i 0).val = q.val) (h1 : (i 1).val = g.val) (h2 : (i 2).val = f.val) :
    sqArr V c i = kSq (segRows V c) (hRows V c) q g f := by
  obtain ⟨a', g', f', rfl⟩ : ∃ (a' : Fin 2) (g' : Fin 256) (f' : Fin 128), i = ix3 a' g' f' := ⟨i 0, i 1, i 2, eq_ix3 i⟩
  obtain rfl : a' = q := Fin.ext h0
  obtain rfl : g' = g := Fin.ext h1
  obtain rfl : f' = f := Fin.ext h2
  rfl

/-- What a core's last point writes back is the core's block of the array. -/
theorem flushed3_eq (c : Dev nD) (t : Fin cfg0.N) (hf : (cfg0.win 3).flush t = true) :
    (dat0 V c).flushed 3 t = ((cfg0.win 3).blk t).view.read (Elt Ideal) (sqArr V c) := by
  have h49 : t.val % 50 = 49 := (flush0_3 t).mp hf
  have htl : t.val < 100 := lt_of_lt_of_eq t.isLt N100
  obtain ⟨-, -, -, -, -, -, -, -, -, e0, e1, e2, -⟩ := idx_facts t
  have hq : t.val / 50 < 2 := by omega
  have ht : 50 * (⟨t.val / 50, hq⟩ : Fin 2).val + 49 = t.val := by show 50 * (t.val / 50) + 49 = t.val; omega
  have hlt : 50 * (⟨t.val / 50, hq⟩ : Fin 2).val + 49 < cfg0.N := by rw [ht]; exact t.isLt
  have same : ∀ (n : ℕ) (hn : n < cfg0.N), n = t.val → (outsAt0 V c n hn).2.1 = (outsAt0 V c t.val t.isLt).2.1 :=
    fun n hn e => by subst e; rfl
  show (cfg0.win 3).cut (grid0.coords t) ((dat0 V c).after 3 t) = _
  rw [after0_3]
  refine funext fun (j : S1x256x128.Idx) => ?_
  obtain ⟨a, g, f, rfl⟩ : ∃ (a : Fin 1) (g : Fin 256) (f : Fin 128), j = ix3 a g f := ⟨j 0, j 1, j 2, eq_ix3 j⟩
  obtain rfl : a = 0 := Subsingleton.elim _ _
  show (outsAt0 V c t.val t.isLt).2.1 (ix3 (0 : Fin 1) g f)
    = sqArr V c (((cfg0.win 3).blk t).view.emb (ix3 (0 : Fin 1) g f))
  refine ((congrFun (same _ hlt ht) _).symm.trans (sq_last V c ⟨t.val / 50, hq⟩ hlt g f)).trans ?_
  refine (sqArr_of V c _ ⟨t.val / 50, hq⟩ g f ?_ ?_ ?_).symm
  · show win0_3.index t 0 * 1 + 1 * 0 = t.val / 50
    rw [e0]; omega
  · show win0_3.index t 1 * 256 + 1 * g.val = g.val
    rw [e1]; omega
  · show win0_3.index t 2 * 128 + 1 * f.val = f.val
    rw [e2]; omega

/-- An index of the array is in a point's block iff each coordinate is in the block's range on its axis. -/
theorem mem_blk3 (t : Fin cfg0.N) (i : S2x256x128.Idx) :
    i ∈ ((cfg0.win 3).blk t).view.set ↔ ∀ a : Fin 3, win0_3.index t a * S1x256x128.size a ≤ (i a).val
      ∧ (i a).val < win0_3.index t a * S1x256x128.size a + S1x256x128.size a := by
  show i ∈ ((View.whole main_v3_1).slice (win0_3.rect t)).set ↔ _
  rw [View.set_slice_whole, Rect.mem_set_unit]
  exact Iff.rfl

/-- Entry (a, g, ·) of the array is written back by core `a`'s last point. -/
theorem cover3 (i : S2x256x128.Idx) :
    ∃ t : Fin cfg0.N, (cfg0.win 3).flush t = true ∧ i ∈ ((cfg0.win 3).blk t).view.set := by
  have hi0 : (i 0).val < 2 := (i 0).isLt
  have hi1 : (i 1).val < 256 := (i 1).isLt
  have hi2 : (i 2).val < 128 := (i 2).isLt
  have hlt : 50 * (i 0).val + 49 < cfg0.N := by rw [N100]; omega
  refine ⟨⟨50 * (i 0).val + 49, hlt⟩, (flush0_3 _).mpr (by show (50 * (i 0).val + 49) % 50 = 49; omega), ?_⟩
  obtain ⟨-, -, -, -, -, -, -, -, -, e0, e1, e2, -⟩ := idx_facts ⟨50 * (i 0).val + 49, hlt⟩
  have e0' : win0_3.index ⟨50 * (i 0).val + 49, hlt⟩ 0 = (i 0).val := by rw [e0]; show (50 * (i 0).val + 49) / 50 = _; omega
  rw [mem_blk3]
  intro a
  match a with
  | ⟨0, _⟩ =>
    show win0_3.index ⟨50 * (i 0).val + 49, hlt⟩ 0 * 1 ≤ (i 0).val ∧ (i 0).val < win0_3.index ⟨50 * (i 0).val + 49, hlt⟩ 0 * 1 + 1
    rw [e0']; omega
  | ⟨1, _⟩ =>
    show win0_3.index ⟨50 * (i 0).val + 49, hlt⟩ 1 * 256 ≤ (i 1).val ∧ (i 1).val < win0_3.index ⟨50 * (i 0).val + 49, hlt⟩ 1 * 256 + 256
    rw [e1]; omega
  | ⟨2, _⟩ =>
    show win0_3.index ⟨50 * (i 0).val + 49, hlt⟩ 2 * 128 ≤ (i 2).val ∧ (i 2).val < win0_3.index ⟨50 * (i 0).val + 49, hlt⟩ 2 * 128 + 128
    rw [e2]; omega

/-- So the array ends holding, per core, the core's 50 contributions added. -/
theorem final3 (c : Dev nD) : (dat0 V c).arrAt 3 cfg0.N = sqArr V c :=
  (dat0 V c).arrAt_eq_of_cover 3 (sqArr V c) (flushed3_eq V c) (cover3)

/-! ### Output 4 -/

/-- The array of counts: per core and segment. -/
def cntArr (c : Dev nD) : Vec Ideal S2x256x1 .f32 := fun i => kCnt (segRows V c) (i 0) (i 1)

theorem cntArr_of (c : Dev nD) (i : S2x256x1.Idx) (q : Fin 2) (g : Fin 256)
    (h0 : (i 0).val = q.val) (h1 : (i 1).val = g.val) :
    cntArr V c i = kCnt (segRows V c) q g := by
  obtain ⟨a', g', f', rfl⟩ : ∃ (a' : Fin 2) (g' : Fin 256) (f' : Fin 1), i = ix3 a' g' f' := ⟨i 0, i 1, i 2, eq_ix3 i⟩
  obtain rfl : a' = q := Fin.ext h0
  obtain rfl : g' = g := Fin.ext h1
  obtain rfl : f' = 0 := Subsingleton.elim _ _
  rfl

/-- What a core's last point writes back is the core's block of the array. -/
theorem flushed4_eq (c : Dev nD) (t : Fin cfg0.N) (hf : (cfg0.win 4).flush t = true) :
    (dat0 V c).flushed 4 t = ((cfg0.win 4).blk t).view.read (Elt Ideal) (cntArr V c) := by
  have h49 : t.val % 50 = 49 := (flush0_4 t).mp hf
  have htl : t.val < 100 := lt_of_lt_of_eq t.isLt N100
  obtain ⟨-, -, -, -, -, -, -, -, -, -, -, -, e0, e1, e2⟩ := idx_facts t
  have hq : t.val / 50 < 2 := by omega
  have ht : 50 * (⟨t.val / 50, hq⟩ : Fin 2).val + 49 = t.val := by show 50 * (t.val / 50) + 49 = t.val; omega
  have hlt : 50 * (⟨t.val / 50, hq⟩ : Fin 2).val + 49 < cfg0.N := by rw [ht]; exact t.isLt
  have same : ∀ (n : ℕ) (hn : n < cfg0.N), n = t.val → (outsAt0 V c n hn).2.2 = (outsAt0 V c t.val t.isLt).2.2 :=
    fun n hn e => by subst e; rfl
  show (cfg0.win 4).cut (grid0.coords t) ((dat0 V c).after 4 t) = _
  rw [after0_4]
  refine funext fun (j : S1x256x1.Idx) => ?_
  obtain ⟨a, g, f, rfl⟩ : ∃ (a : Fin 1) (g : Fin 256) (f : Fin 1), j = ix3 a g f := ⟨j 0, j 1, j 2, eq_ix3 j⟩
  obtain rfl : a = 0 := Subsingleton.elim _ _
  obtain rfl : f = 0 := Subsingleton.elim _ _
  show (outsAt0 V c t.val t.isLt).2.2 (ix3 (0 : Fin 1) g (0 : Fin 1))
    = cntArr V c (((cfg0.win 4).blk t).view.emb (ix3 (0 : Fin 1) g (0 : Fin 1)))
  refine ((congrFun (same _ hlt ht) _).symm.trans (cnt_last V c ⟨t.val / 50, hq⟩ hlt g)).trans ?_
  refine (cntArr_of V c _ ⟨t.val / 50, hq⟩ g ?_ ?_).symm
  · show win0_4.index t 0 * 1 + 1 * 0 = t.val / 50
    rw [e0]; omega
  · show win0_4.index t 1 * 256 + 1 * g.val = g.val
    rw [e1]; omega

/-- An index of the array is in a point's block iff each coordinate is in the block's range on its axis. -/
theorem mem_blk4 (t : Fin cfg0.N) (i : S2x256x1.Idx) :
    i ∈ ((cfg0.win 4).blk t).view.set ↔ ∀ a : Fin 3, win0_4.index t a * S1x256x1.size a ≤ (i a).val
      ∧ (i a).val < win0_4.index t a * S1x256x1.size a + S1x256x1.size a := by
  show i ∈ ((View.whole main_v3_2).slice (win0_4.rect t)).set ↔ _
  rw [View.set_slice_whole, Rect.mem_set_unit]
  exact Iff.rfl

/-- Entry (a, g, ·) of the array is written back by core `a`'s last point. -/
theorem cover4 (i : S2x256x1.Idx) :
    ∃ t : Fin cfg0.N, (cfg0.win 4).flush t = true ∧ i ∈ ((cfg0.win 4).blk t).view.set := by
  have hi0 : (i 0).val < 2 := (i 0).isLt
  have hi1 : (i 1).val < 256 := (i 1).isLt
  have hi2 : (i 2).val < 1 := (i 2).isLt
  have hlt : 50 * (i 0).val + 49 < cfg0.N := by rw [N100]; omega
  refine ⟨⟨50 * (i 0).val + 49, hlt⟩, (flush0_4 _).mpr (by show (50 * (i 0).val + 49) % 50 = 49; omega), ?_⟩
  obtain ⟨-, -, -, -, -, -, -, -, -, -, -, -, e0, e1, e2⟩ := idx_facts ⟨50 * (i 0).val + 49, hlt⟩
  have e0' : win0_4.index ⟨50 * (i 0).val + 49, hlt⟩ 0 = (i 0).val := by rw [e0]; show (50 * (i 0).val + 49) / 50 = _; omega
  rw [mem_blk4]
  intro a
  match a with
  | ⟨0, _⟩ =>
    show win0_4.index ⟨50 * (i 0).val + 49, hlt⟩ 0 * 1 ≤ (i 0).val ∧ (i 0).val < win0_4.index ⟨50 * (i 0).val + 49, hlt⟩ 0 * 1 + 1
    rw [e0']; omega
  | ⟨1, _⟩ =>
    show win0_4.index ⟨50 * (i 0).val + 49, hlt⟩ 1 * 256 ≤ (i 1).val ∧ (i 1).val < win0_4.index ⟨50 * (i 0).val + 49, hlt⟩ 1 * 256 + 256
    rw [e1]; omega
  | ⟨2, _⟩ =>
    show win0_4.index ⟨50 * (i 0).val + 49, hlt⟩ 2 * 1 ≤ (i 2).val ∧ (i 2).val < win0_4.index ⟨50 * (i 0).val + 49, hlt⟩ 2 * 1 + 1
    rw [e2]; omega

/-- So the array ends holding, per core, the core's 50 contributions added. -/
theorem final4 (c : Dev nD) : (dat0 V c).arrAt 4 cfg0.N = cntArr V c :=
  (dat0 V c).arrAt_eq_of_cover 4 (cntArr V c) (flushed4_eq V c) (cover4)

/-! ## The three results -/

theorem sum_final (c : Dev nD) (a : Fin 2) (g : Fin 256) (f : Fin 128) :
    ((dat0 (F := Ideal) V c).arrAt 2 cfg0.N : Vec Ideal S2x256x128 .f32) (ix3 a g f)
      = kSum (segRows V c) (hRows V c) a g f :=
  (congrFun (final2 V c) (ix3 a g f)).trans rfl

theorem sq_final (c : Dev nD) (a : Fin 2) (g : Fin 256) (f : Fin 128) :
    ((dat0 (F := Ideal) V c).arrAt 3 cfg0.N : Vec Ideal S2x256x128 .f32) (ix3 a g f)
      = kSq (segRows V c) (hRows V c) a g f :=
  (congrFun (final3 V c) (ix3 a g f)).trans rfl

theorem cnt_final (c : Dev nD) (a : Fin 2) (g : Fin 256) :
    ((dat0 (F := Ideal) V c).arrAt 4 cfg0.N : Vec Ideal S2x256x1 .f32) (ix3 a g (0 : Fin 1))
      = kCnt (segRows V c) a g :=
  (congrFun (final4 V c) (ix3 a g (0 : Fin 1))).trans rfl

end Cert.KernelIdeal.Region0

end
-- ==== Proof.LibDotFirstAxes.lean ====
/-
  A product of two matrices that contracts the FIRST axis of both operands, read at an entry.

  For a left operand of shape [K, R], a right operand of shape [K, N] and dimension numbers
  "contract axis 0 with axis 0, free axes 1 and 1, no batch axes", the contraction shape has the one axis of extent
  K, the left operand is read at (k, p) and the right at (k, n); so over the extended reals the product accumulated
  into an accumulator `acc` is, at (p, n), `acc (p, n) + ∑ k, l (k, p) * r (k, n)`: column p of the left operand
  against column n of the right.  Stated for ANY such record of dimension numbers, whatever its name, from the six
  equations that say which lists it holds.
-/
import Idealize.ShloMosaic.PureOps.Ideal.Laws
import Idealize.ShloMosaic.Lib.ValueIdx

noncomputable section

namespace Cert.LibDotFirstAxes

open Idealize.ShloMosaic Idealize.ShloMosaic.ValueIdx

variable {R K N : Nat} (D : DotDims ⟨2, ![K, R]⟩ ⟨2, ![K, N]⟩ ⟨2, ![R, N]⟩)

/-- Two coordinates of an index named by equal numbers are equal. -/
private theorem coord_congr {s : Shape} (i : s.Idx) (a b : Nat) (ha : a < s.rank) (hb : b < s.rank) (h : a = b) :
    (i ⟨a, ha⟩).val = (i ⟨b, hb⟩).val := by subst h; rfl

/-- One axis is contracted. -/
theorem contr_rank (hlc : D.lhsContracting = [0]) : D.contr.rank = 1 := by
  rw [D.rank_contr, hlc]; rfl

/-- Its extent is K, the left operand's first extent. -/
theorem contr_size (hlc : D.lhsContracting = [0]) :
    D.contr.size ⟨0, by rw [contr_rank D hlc]; exact Nat.one_pos⟩ = K := by
  have h := D.size_contr 0 (by rw [hlc]; exact Nat.one_pos)
  refine h.trans ?_
  simp only [hlc, List.getElem_cons_zero]
  rfl

/-- The left operand's row is the contraction coordinate. -/
theorem lhs_row (hlc : D.lhsContracting = [0]) (i : (⟨2, ![R, N]⟩ : Shape).Idx) (q : D.contr.Idx) :
    (D.lhsIdx i q 0).val = (q ⟨0, by rw [contr_rank D hlc]; exact Nat.one_pos⟩).val :=
  D.lhsIdx_val_of_single hlc i q

/-- The left operand's column is the result's row. -/
theorem lhs_col (hln : D.lhsNonContracting = [1]) (hlb : D.lhsBatch = [])
    (i : (⟨2, ![R, N]⟩ : Shape).Idx) (q : D.contr.Idx) : (D.lhsIdx i q 1).val = (i 0).val := by
  unfold DotDims.lhsIdx
  rw [dif_neg (show ¬(1 : Fin (⟨2, ![K, R]⟩ : Shape).rank) ∈ D.lhsBatch by rw [hlb]; exact List.not_mem_nil),
    dif_pos (show (1 : Fin (⟨2, ![K, R]⟩ : Shape).rank) ∈ D.lhsNonContracting by rw [hln]; exact List.mem_singleton.mpr rfl)]
  simp only [Fin.val_cast]
  exact coord_congr i _ 0 _ (show 0 < 2 from Nat.two_pos) (by simp [hlb, hln])

/-- The right operand's row is the contraction coordinate. -/
theorem rhs_row (hlc : D.lhsContracting = [0]) (hrc : D.rhsContracting = [0]) (i : (⟨2, ![R, N]⟩ : Shape).Idx)
    (q : D.contr.Idx) : (D.rhsIdx i q 0).val = (q ⟨0, by rw [contr_rank D hlc]; exact Nat.one_pos⟩).val :=
  D.rhsIdx_val_of_single hrc i q

/-- The right operand's column is the result's column. -/
theorem rhs_col (hln : D.lhsNonContracting = [1]) (hrn : D.rhsNonContracting = [1]) (hlb : D.lhsBatch = [])
    (hrb : D.rhsBatch = []) (i : (⟨2, ![R, N]⟩ : Shape).Idx) (q : D.contr.Idx) : (D.rhsIdx i q 1).val = (i 1).val := by
  unfold DotDims.rhsIdx
  rw [dif_neg (show ¬(1 : Fin (⟨2, ![K, N]⟩ : Shape).rank) ∈ D.rhsBatch by rw [hrb]; exact List.not_mem_nil),
    dif_pos (show (1 : Fin (⟨2, ![K, N]⟩ : Shape).rank) ∈ D.rhsNonContracting by rw [hrn]; exact List.mem_singleton.mpr rfl)]
  simp only [Fin.val_cast]
  exact coord_congr i _ 1 _ (show 1 < 2 from Nat.one_lt_two) (by simp [hlb, hln, hrn])

/-- THE PRODUCT AT AN ENTRY: at (p, n) it is the accumulator's entry plus column p of the left operand against
    column n of the right. -/
theorem matmul_tcols {φ₁ φ₂ : FTy} (prec : Option ContractPrecision)
    (hlc : D.lhsContracting = [0]) (hrc : D.rhsContracting = [0]) (hln : D.lhsNonContracting = [1])
    (hrn : D.rhsNonContracting = [1]) (hlb : D.lhsBatch = []) (hrb : D.rhsBatch = [])
    (l : FVec Ideal ⟨2, ![K, R]⟩ φ₁) (r : FVec Ideal ⟨2, ![K, N]⟩ φ₂) (acc : FVec Ideal ⟨2, ![R, N]⟩ .f32) (p : Fin R) (n : Fin N) :
    FloatOps.matmul D prec l r acc (ix2 p n) = acc (ix2 p n) + ∑ k : Fin K, l (ix2 k p) * r (ix2 k n) := by
  rw [Ideal.matmul_apply,
    ← Equiv.sum_comp (contrEquiv1 D K (contr_rank D hlc) (contr_size D hlc)).symm]
  refine congrArg (acc (ix2 p n) + ·) (Finset.sum_congr rfl fun k _ => ?_)
  have hk := contrEquiv1_symm_val D K (contr_rank D hlc) (contr_size D hlc) k
  have el : D.lhsIdx (ix2 p n) ((contrEquiv1 D K (contr_rank D hlc) (contr_size D hlc)).symm k) = ix2 k p :=
    funext fun a => Fin.ext (by
      match a with
      | ⟨0, _⟩ => exact (lhs_row D hlc _ _).trans hk
      | ⟨1, _⟩ => exact lhs_col D hln hlb _ _)
  have er : D.rhsIdx (ix2 p n) ((contrEquiv1 D K (contr_rank D hlc) (contr_size D hlc)).symm k) = ix2 k n :=
    funext fun a => Fin.ext (by
      match a with
      | ⟨0, _⟩ => exact (rhs_row D hlc hrc _ _).trans hk
      | ⟨1, _⟩ => exact rhs_col D hln hrn hlb hrb _ _)
  rw [el, er]

end Cert.LibDotFirstAxes

end
-- ==== Proof.Region1Pay.lean ====
/-
  The normalising pass's body as a function of what it loads, at the extended reals, entry by entry.

  The body builds, from one row of identifiers (one identifier per row of the block), the one-hot matrix whose entry
  (g, p) is 1 when segment g is the identifier of row p and 0 otherwise; multiplies it, contracting the segment axis,
  against each of four tables of 256 rows; and returns, at row p and column f, the block's entry times the sum of the
  first two selections plus the sum of the last two.
-/
import proofs.«403000_j1451698946636_3_alg».proof.Proof.Gen.KernelIdeal.Skeleton
import proofs.«403000_j1451698946636_3_alg».proof.Proof.Spec
import proofs.«403000_j1451698946636_3_alg».proof.Proof.LibDotFirstAxes
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.Region1Pay

open Cert.KernelIdeal Cert.KernelIdeal.Gen Cert.GraphNorm

/-- A column `[a, 1]` broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The comparison word of two identifiers, widened and read as a signed integer, is 1 where they agree and 0 elsewhere. -/
theorem word_oh (a s : BitVec 32) :
    ((((IntOp.cmpi .eq a s).setWidth 32).toInt : ℝ) : EReal) = if a = s then 1 else 0 := by
  unfold IntOp.cmpi
  by_cases h : a = s
  · subst h
    rw [if_pos rfl, show (a == a) = true from beq_self_eq_true a]
    rw [show ((BitVec.ofBool true).setWidth 32).toInt = 1 by decide]
    norm_num
  · rw [if_neg h, show (a == s) = false from beq_false_of_ne h]
    rw [show ((BitVec.ofBool false).setWidth 32).toInt = 0 by decide]
    norm_num

/-- The one-hot operand the body builds from the loaded row of identifiers. -/
abbrev ohVec (v1 : Vec Ideal S1x5000 .i32) : FVec Ideal S256x5000 .bf16 :=
  truncf .bf16 (sitofp .f32 (extui 32 (cmpi .eq
    (broadcastTo S256x5000 (iota .tc S256x1 32 [0] iota_S256x1_d0_w32) broadcasts_S256x1_S256x5000)
    (broadcastTo S256x5000 (shapeCast S1x5000 (shapeCast S5000 v1 shapeCasts_S1x5000_S5000) shapeCasts_S5000_S1x5000)
      broadcasts_S1x5000_S256x5000)) natLt_1_32)) bitsLt_bf16_f32

/-- At (g, p) it is 1 when segment g is the identifier of row p, else 0. -/
theorem ohVec_apply (v1 : Vec Ideal S1x5000 .i32) (g : Fin 256) (p : Fin 5000) :
    ohVec v1 (ix2 g p) = oh g (v1 (ix2 (0 : Fin 1) p)) := by
  unfold ohVec
  rw [shapeCast_shapeCast]
  show ((((IntOp.cmpi .eq
      (broadcastTo S256x5000 (iota .tc S256x1 32 [0] iota_S256x1_d0_w32) broadcasts_S256x1_S256x5000 (ix2 g p))
      (broadcastTo S256x5000 v1 broadcasts_S1x5000_S256x5000 (ix2 g p))).setWidth 32).toInt : ℝ) : EReal) = _
  rw [broadcastTo_a1_ab_apply, broadcastTo_1b_ab_apply, iota_single_apply, word_oh]
  rfl

/-- One of the body's four products: the one-hot operand against a table, into the zero splat, at (p, f) selects the
    table's rows by the identifier of row p. -/
theorem mm_apply (v1 : Vec Ideal S1x5000 .i32) (w : Vec Ideal S256x128 .bf16) (p : Fin 5000) (f : Fin 128) :
    (matmul dot_S256x5000_S256x128_S5000x128_0_0_1_1_n_n none (ohVec v1)
        (shapeCast S256x128 w shapeCasts_S256x128_S256x128 : FVec Ideal S256x128 .bf16) (constant S5000x128 .f32 0x00000000#32) :
        FVec Ideal S5000x128 .f32) (ix2 p f)
      = ∑ g : Fin 256, oh g (v1 (ix2 (0 : Fin 1) p)) * w (ix2 g f) := by
  rw [shapeCast_self]
  refine (Cert.LibDotFirstAxes.matmul_tcols dot_S256x5000_S256x128_S5000x128_0_0_1_1_n_n none rfl rfl rfl rfl rfl rfl
    (ohVec v1) (w : FVec Ideal S256x128 .bf16) (constant S5000x128 .f32 0x00000000#32) p f).trans ?_
  show Ideal.ofBits .f32 0x00000000#32 + _ = _
  rw [Ideal.ofBits_zero_f32, zero_add]
  exact Finset.sum_congr rfl fun g _ => by rw [ohVec_apply]

/-- THE BODY'S VALUE AT (p, f): the row's entry times the selected scale (two parts) plus the selected shift (two parts). -/
theorem pay_apply (v1 : Vec Ideal S1x5000 .i32) (v11 v14 v18 v21 : Vec Ideal S256x128 .bf16)
    (v25 : Vec Ideal S5000x128 .f32) (p : Fin 5000) (f : Fin 128) :
    k1_pay1 (F := Ideal) v1 v11 v14 v18 v21 v25 (ix2 p f)
      = v25 (ix2 p f)
          * ((∑ g : Fin 256, oh g (v1 (ix2 (0 : Fin 1) p)) * v11 (ix2 g f))
              + (∑ g : Fin 256, oh g (v1 (ix2 (0 : Fin 1) p)) * v14 (ix2 g f)))
        + ((∑ g : Fin 256, oh g (v1 (ix2 (0 : Fin 1) p)) * v18 (ix2 g f))
            + (∑ g : Fin 256, oh g (v1 (ix2 (0 : Fin 1) p)) * v21 (ix2 g f))) := by
  rw [← mm_apply v1 v11 p f, ← mm_apply v1 v14 p f, ← mm_apply v1 v18 p f, ← mm_apply v1 v21 p f]
  rfl

end Cert.KernelIdeal.Region1Pay

end
-- ==== Proof.Region1.lean ====
/-
  Region 1 (the normalising pass), read as a value.

  The pass runs over 100 points; point t holds rows 5000 t … 5000 t + 4999 of the array and row t of the identifiers
  laid out as 100 rows of 5000.  Its body stores, at row p and column f of the block, the entry of the array times the
  sum of two selections of scale tables plus the sum of two selections of shift tables, each selection the one-hot row
  of the identifier of row p against a table of 256 rows.  Every point writes its block back and the blocks tile the
  array, so after the pass the array is one function of the arrays the pass found: row n's entry times its segment's
  scale plus its segment's shift, the identifier of row n read at (n / 5000, n % 5000) of the layout.
-/
import proofs.«403000_j1451698946636_3_alg».proof.Proof.Gen.KernelIdeal.Frame
import proofs.«403000_j1451698946636_3_alg».proof.Proof.Spec
import proofs.«403000_j1451698946636_3_alg».proof.Proof.Region1Pay
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.GraphNorm

variable (V : (c : Dev nD) → (b : Ref sig .tc) → Buf (Elt Ideal) ((c : Thread nD τ).loc b))

/-- The arrays region 1 finds, by their literal types. -/
abbrev segArr (c : Dev nD) : IVec S100x5000 32 := V c main_v0
abbrev hArr (c : Dev nD) : Vec Ideal S500000x128 .f32 := V c main_arg0
abbrev scaleHi (c : Dev nD) : Vec Ideal S256x128 .bf16 := V c main_v43
abbrev scaleLo (c : Dev nD) : Vec Ideal S256x128 .bf16 := V c main_v46
abbrev shiftHi (c : Dev nD) : Vec Ideal S256x128 .bf16 := V c main_v47
abbrev shiftLo (c : Dev nD) : Vec Ideal S256x128 .bf16 := V c main_v50

theorem hz : (![0, 0] : Fin 2 → Nat) = fun _ => 0 := funext fun a => by fin_cases a <;> rfl

/-- The row of the identifier table the body loads at grid coordinates `i`: row `i 0`, all 5000 columns. -/
abbrev rowOf (i : grid1.Coords) (x0 : Vec Ideal S100x5000 .i32) : Vec Ideal S1x5000 .i32 :=
  View.ld x0 (Rect.unit (s := S100x5000) (k1_off1 i) S1x5000.size (Facts₀.k1_off1_inb i))

/-- THE PIECE: what the body's one store leaves in the output block is the body's value of the loaded row of
    identifiers, the four tables and the block of rows. -/
theorem out_piece (c : Dev nD) (i : grid1.Coords)
    (a1 : Memref sig .tc .vmem S100x5000 .i32) (h1 : a1.IsWhole) (a2 : Memref sig .tc .vmem S5000x128 .f32) (h2 : a2.IsWhole)
    (a3 : Memref sig .tc .vmem S256x128 .bf16) (h3 : a3.IsWhole) (a4 : Memref sig .tc .vmem S256x128 .bf16) (h4 : a4.IsWhole)
    (a5 : Memref sig .tc .vmem S256x128 .bf16) (h5 : a5.IsWhole) (a6 : Memref sig .tc .vmem S256x128 .bf16) (h6 : a6.IsWhole)
    (a7 : Memref sig .tc .vmem S5000x128 .f32) (h7 : a7.IsWhole)
    (x0 : Vec Ideal S100x5000 .i32) (x1 : Vec Ideal S5000x128 .f32) (x2 : Vec Ideal S256x128 .bf16) (x3 : Vec Ideal S256x128 .bf16)
    (x4 : Vec Ideal S256x128 .bf16) (x5 : Vec Ideal S256x128 .bf16) :
    out1_A_6 (F := Ideal) c i a1 h1 a2 h2 a3 h3 a4 h4 a5 h5 a6 h6 a7 h7 x0 x1 x2 x3 x4 x5
      = k1_pay1 (F := Ideal) (rowOf i x0) x2 x3 x4 x5 x1 := by
  unfold out1_A_6
  rw [View.read_writes_eq_canon _ _ _ (cover1_A_6 c i a1 h1 a2 h2 a3 h3 a4 h4 a5 h5 a6 h6 a7 h7 x0 x1 x2 x3 x4 x5)]
  unfold kernelRun1_A
  dsimp only
  sl_unfold_words
  rw [View.canon_unit_zero hz]
  simp only [View.readAt_eq_ld, h1.read_unread, h2.read_unread, h3.read_unread, h4.read_unread, h5.read_unread, h6.read_unread,
    View.ld_unit_zero (S := S256x128) hz, View.ld_unit_zero (S := S5000x128) hz]
  rfl

/-- The loaded row at column p is the table at (point's number, p). -/
theorem rowOf_apply (i : grid1.Coords) (x0 : Vec Ideal S100x5000 .i32) (tn : Fin 100) (hi : (i 0).val = tn.val) (p : Fin 5000) :
    rowOf i x0 (ix2 (0 : Fin 1) p) = x0 (ix2 tn p) := by
  show x0 _ = x0 _
  refine congrArg x0 (funext fun a => Fin.ext ?_)
  match a with
  | ⟨0, _⟩ =>
    show (BitVec.ofNat 32 (i 0).val).toNat + 1 * 0 = tn.val
    rw [BitVec.toNat_ofNat, hi]
    have := tn.isLt
    omega
  | ⟨1, _⟩ =>
    show 0 + 1 * p.val = p.val
    omega

/-- THE BODY AT A POINT, entry (p, f), over the point's blocks. -/
theorem point_eq (i : grid1.Coords) (tn : Fin 100) (hi : (i 0).val = tn.val)
    (x0 : Vec Ideal S100x5000 .i32) (x1 : Vec Ideal S5000x128 .f32) (x2 x3 x4 x5 : Vec Ideal S256x128 .bf16)
    (p : Fin 5000) (f : Fin 128) :
    k1_pay1 (F := Ideal) (rowOf i x0) x2 x3 x4 x5 x1 (ix2 p f)
      = x1 (ix2 p f)
          * ((∑ g : Fin 256, oh g (x0 (ix2 tn p)) * x2 (ix2 g f)) + (∑ g : Fin 256, oh g (x0 (ix2 tn p)) * x3 (ix2 g f)))
        + ((∑ g : Fin 256, oh g (x0 (ix2 tn p)) * x4 (ix2 g f)) + (∑ g : Fin 256, oh g (x0 (ix2 tn p)) * x5 (ix2 g f))) := by
  rw [Region1Pay.pay_apply, rowOf_apply i x0 tn hi p]

/-- THE WHOLE ARRAY the region leaves: row n's entry times its segment's scale (two parts) plus its segment's shift
    (two parts), the segment selected by the one-hot row of the identifier of row n. -/
def G (c : Dev nD) : Vec Ideal S500000x128 .f32 := fun i =>
  hArr V c i
      * ((∑ g : Fin 256, oh g (rowsOf (fun b t => segArr V c (ix2 b t)) (i 0)) * scaleHi V c (ix2 g (i 1)))
          + (∑ g : Fin 256, oh g (rowsOf (fun b t => segArr V c (ix2 b t)) (i 0)) * scaleLo V c (ix2 g (i 1))))
    + ((∑ g : Fin 256, oh g (rowsOf (fun b t => segArr V c (ix2 b t)) (i 0)) * shiftHi V c (ix2 g (i 1)))
        + (∑ g : Fin 256, oh g (rowsOf (fun b t => segArr V c (ix2 b t)) (i 0)) * shiftLo V c (ix2 g (i 1))))

/-- The printed index maps, decided over the grid: the block of rows and the output block move with the point, the
    tables stay, and the grid coordinate is the point's number. -/
theorem idx_facts : ∀ t : Fin cfg1.N,
    win1_1.index t (0 : Fin 2) = t.val ∧ win1_1.index t (1 : Fin 2) = 0
    ∧ win1_6.index t (0 : Fin 2) = t.val ∧ win1_6.index t (1 : Fin 2) = 0
    ∧ win1_0.index t (0 : Fin 2) = 0 ∧ win1_0.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ (grid1.coords t 0).val = t.val :=
  (by decide +kernel : ∀ t : Fin grid1.N, _)

/-- The block of rows at point t, entry (p, f), is the array at row 5000 t + p. -/
theorem iblk_h (c : Dev nD) (t : Fin cfg1.N) (p : Fin 5000) (f : Fin 128) (n : Fin 500000)
    (hn : n.val = t.val * 5000 + p.val) :
    (iblk1 V c 1 t : Vec Ideal S5000x128 .f32) (ix2 p f) = hArr V c (ix2 n f) := by
  obtain ⟨e0, e1, -⟩ := idx_facts t
  unfold iblk1
  rw [View.read_apply]
  show V c main_arg0 _ = V c main_arg0 _
  congr 1
  funext a
  apply Fin.ext
  match a with
  | ⟨0, _⟩ => show win1_1.index t (0 : Fin 2) * 5000 + 1 * p.val = n.val; rw [e0, hn]; omega
  | ⟨1, _⟩ => show win1_1.index t (1 : Fin 2) * 128 + 1 * f.val = f.val; rw [e1]; omega

/-- The identifier table staged whole: its block at any point is the table. -/
theorem iblk_seg (c : Dev nD) (t : Fin cfg1.N) (b : Fin 100) (q : Fin 5000) :
    (iblk1 V c 0 t : Vec Ideal S100x5000 .i32) (ix2 b q) = segArr V c (ix2 b q) := by
  obtain ⟨-, -, -, -, e0, e1, -⟩ := idx_facts t
  unfold iblk1
  rw [View.read_apply]
  show V c main_v0 _ = V c main_v0 _
  congr 1
  funext a
  apply Fin.ext
  match a with
  | ⟨0, _⟩ => show win1_0.index t (0 : Fin 2) * 100 + 1 * b.val = b.val; rw [e0]; omega
  | ⟨1, _⟩ => show win1_0.index t (1 : Fin 2) * 5000 + 1 * q.val = q.val; rw [e1]; omega

/-- The four tables staged whole: each one's block at any point is the table. -/
theorem iblk_t2 (c : Dev nD) (t : Fin cfg1.N) (g : Fin 256) (f : Fin 128) :
    (iblk1 V c 2 t : Vec Ideal S256x128 .bf16) (ix2 g f) = scaleHi V c (ix2 g f) := by
  obtain ⟨-, -, -, -, -, -, e0, e1, -⟩ := idx_facts t
  unfold iblk1
  rw [View.read_apply]
  show V c main_v43 _ = V c main_v43 _
  congr 1
  funext a
  apply Fin.ext
  match a with
  | ⟨0, _⟩ => show win1_2.index t (0 : Fin 2) * 256 + 1 * g.val = g.val; rw [e0]; omega
  | ⟨1, _⟩ => show win1_2.index t (1 : Fin 2) * 128 + 1 * f.val = f.val; rw [e1]; omega

theorem iblk_t3 (c : Dev nD) (t : Fin cfg1.N) (g : Fin 256) (f : Fin 128) :
    (iblk1 V c 3 t : Vec Ideal S256x128 .bf16) (ix2 g f) = scaleLo V c (ix2 g f) := by
  obtain ⟨-, -, -, -, -, -, -, -, e0, e1, -⟩ := idx_facts t
  unfold iblk1
  rw [View.read_apply]
  show V c main_v46 _ = V c main_v46 _
  congr 1
  funext a
  apply Fin.ext
  match a with
  | ⟨0, _⟩ => show win1_3.index t (0 : Fin 2) * 256 + 1 * g.val = g.val; rw [e0]; omega
  | ⟨1, _⟩ => show win1_3.index t (1 : Fin 2) * 128 + 1 * f.val = f.val; rw [e1]; omega

theorem iblk_t4 (c : Dev nD) (t : Fin cfg1.N) (g : Fin 256) (f : Fin 128) :
    (iblk1 V c 4 t : Vec Ideal S256x128 .bf16) (ix2 g f) = shiftHi V c (ix2 g f) := by
  obtain ⟨-, -, -, -, -, -, -, -, -, -, e0, e1, -⟩ := idx_facts t
  unfold iblk1
  rw [View.read_apply]
  show V c main_v47 _ = V c main_v47 _
  congr 1
  funext a
  apply Fin.ext
  match a with
  | ⟨0, _⟩ => show win1_4.index t (0 : Fin 2) * 256 + 1 * g.val = g.val; rw [e0]; omega
  | ⟨1, _⟩ => show win1_4.index t (1 : Fin 2) * 128 + 1 * f.val = f.val; rw [e1]; omega

theorem iblk_t5 (c : Dev nD) (t : Fin cfg1.N) (g : Fin 256) (f : Fin 128) :
    (iblk1 V c 5 t : Vec Ideal S256x128 .bf16) (ix2 g f) = shiftLo V c (ix2 g f) := by
  obtain ⟨-, -, -, -, -, -, -, -, -, -, -, -, e0, e1, -⟩ := idx_facts t
  unfold iblk1
  rw [View.read_apply]
  show V c main_v50 _ = V c main_v50 _
  congr 1
  funext a
  apply Fin.ext
  match a with
  | ⟨0, _⟩ => show win1_5.index t (0 : Fin 2) * 256 + 1 * g.val = g.val; rw [e0]; omega
  | ⟨1, _⟩ => show win1_5.index t (1 : Fin 2) * 128 + 1 * f.val = f.val; rw [e1]; omega

/-- G at (n, f), spelled out. -/
theorem G_apply (c : Dev nD) (n : Fin 500000) (f : Fin 128) :
    G V c (ix2 n f)
      = hArr V c (ix2 n f)
          * ((∑ g : Fin 256, oh g (rowsOf (fun b t => segArr V c (ix2 b t)) n) * scaleHi V c (ix2 g f))
              + (∑ g : Fin 256, oh g (rowsOf (fun b t => segArr V c (ix2 b t)) n) * scaleLo V c (ix2 g f)))
        + ((∑ g : Fin 256, oh g (rowsOf (fun b t => segArr V c (ix2 b t)) n) * shiftHi V c (ix2 g f))
            + (∑ g : Fin 256, oh g (rowsOf (fun b t => segArr V c (ix2 b t)) n) * shiftLo V c (ix2 g f))) := rfl

/-- WHAT POINT t WRITES BACK is block t of G: rows 5000 t … 5000 t + 4999. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold outsAt1
  rw [out_piece c (grid1.coords t) (ms1_0 t) (hs1_0 t) (ms1_1 t) (hs1_1 t) (ms1_2 t) (hs1_2 t) (ms1_3 t) (hs1_3 t)
    (ms1_4 t) (hs1_4 t) (ms1_5 t) (hs1_5 t) (ms1_6 t) (hs1_6 t) (iblk1 V c 0 t) (iblk1 V c 1 t) (iblk1 V c 2 t)
    (iblk1 V c 3 t) (iblk1 V c 4 t) (iblk1 V c 5 t)]
  obtain ⟨-, -, e0, e1, -, -, -, -, -, -, -, -, -, -, ec⟩ := idx_facts t
  have ht : t.val < 100 := lt_of_lt_of_eq t.isLt N_1
  funext j
  obtain ⟨p, f, rfl⟩ : ∃ (p : Fin 5000) (f : Fin 128), j = ix2 p f := ⟨j 0, j 1, eq_ix2 j⟩
  show k1_pay1 (F := Ideal) (rowOf (grid1.coords t) (iblk1 V c 0 t)) (iblk1 V c 2 t) (iblk1 V c 3 t) (iblk1 V c 4 t)
      (iblk1 V c 5 t) (iblk1 V c 1 t) (ix2 p f) = G V c (((cfg1.win 6).blk t).view.emb (ix2 p f))
  have hemb : ((cfg1.win 6).blk t).view.emb (ix2 p f) = ix2 (row ⟨t.val, ht⟩ p) f := by
    funext a; apply Fin.ext
    match a with
    | ⟨0, _⟩ => show win1_6.index t (0 : Fin 2) * 5000 + 1 * p.val = t.val * 5000 + p.val; rw [e0]; omega
    | ⟨1, _⟩ => show win1_6.index t (1 : Fin 2) * 128 + 1 * f.val = f.val; rw [e1]; omega
  rw [hemb]
  refine (point_eq (grid1.coords t) ⟨t.val, ht⟩ ec (iblk1 V c 0 t) (iblk1 V c 1 t) (iblk1 V c 2 t) (iblk1 V c 3 t)
    (iblk1 V c 4 t) (iblk1 V c 5 t) p f).trans ?_
  rw [iblk_h V c t p f (row ⟨t.val, ht⟩ p) rfl, iblk_seg V c t ⟨t.val, ht⟩ p, G_apply, rowsOf_row]
  simp only [iblk_t2 V c t, iblk_t3 V c t, iblk_t4 V c t, iblk_t5 V c t]

/-- An index of the array is in point t's block iff each coordinate is in the block's range on its axis. -/
theorem mem_blk (t : Fin cfg1.N) (i : S500000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v51).slice (win1_6.rect t)).set ↔ _
  rw [View.set_slice_whole, Rect.mem_set_unit]
  exact Iff.rfl

/-- Row r is written back by point r / 5000. -/
theorem cover (i : S500000x128.Idx) :
    ∃ t : Fin cfg1.N, (cfg1.win 6).flush t = true ∧ i ∈ ((cfg1.win 6).blk t).view.set := by
  have hi0 : (i 0).val < 500000 := (i 0).isLt
  have hi1 : (i 1).val < 128 := (i 1).isLt
  have hN : cfg1.N = 100 := N_1
  refine ⟨⟨(i 0).val / 5000, by rw [hN]; omega⟩, flush1_6 _, ?_⟩
  rw [mem_blk]
  obtain ⟨-, -, e0, e1, -⟩ := idx_facts ⟨(i 0).val / 5000, by rw [hN]; omega⟩
  intro a
  match a with
  | ⟨0, _⟩ =>
    show win1_6.index _ (0 : Fin 2) * 5000 ≤ (i 0).val ∧ (i 0).val < win1_6.index _ (0 : Fin 2) * 5000 + 5000
    rw [e0]; dsimp only; omega
  | ⟨1, _⟩ =>
    show win1_6.index _ (1 : Fin 2) * 128 ≤ (i 1).val ∧ (i 1).val < win1_6.index _ (1 : Fin 2) * 128 + 128
    rw [e1]; omega

/-- THE ARRAY after the region is G. -/
theorem final (c : Dev nD) : (dat1 V c).arrAt 6 cfg1.N = G V c :=
  (dat1 V c).arrAt_eq_of_cover 6 (G V c) (fun t _ => flushed_eq V c t) cover

/-- The output array after region 1, entry (n, f). -/
theorem out_final (c : Dev nD) (n : Fin 500000) (f : Fin 128) :
    ((dat1 (F := Ideal) V c).arrAt 6 cfg1.N : Vec Ideal S500000x128 .f32) (ix2 n f)
      = hArr V c (ix2 n f)
          * ((∑ g : Fin 256, oh g (rowsOf (fun b t => segArr V c (ix2 b t)) n) * scaleHi V c (ix2 g f))
              + (∑ g : Fin 256, oh g (rowsOf (fun b t => segArr V c (ix2 b t)) n) * scaleLo V c (ix2 g f)))
        + ((∑ g : Fin 256, oh g (rowsOf (fun b t => segArr V c (ix2 b t)) n) * shiftHi V c (ix2 g f))
            + (∑ g : Fin 256, oh g (rowsOf (fun b t => segArr V c (ix2 b t)) n) * shiftLo V c (ix2 g f))) :=
  (congrFun (final V c) (ix2 n f)).trans (G_apply V c n f)

end Cert.KernelIdeal.Region1

end
-- ==== Proof.TablesIO.lean ====
/-
  What the two regions find of the arguments. The rows `h` reach both regions untouched: no host operation and no
  region writes that array. The identifiers reach them reshaped to 100 blocks of 5000: entry (b, t) of the reshaped
  table is identifier 5000·b + t, and nothing after the reshape writes the table.
-/
import proofs.«403000_j1451698946636_3_alg».proof.Proof.Gen.KernelIdeal.Frame
import proofs.«403000_j1451698946636_3_alg».proof.Proof.Spec
import Idealize.ShloMosaic.Lib.Pipeline.Value
import Idealize.ShloMosaic.Lib.ValueIdx
import Idealize.ShloMosaic.PureOps.Ideal.Laws
import Idealize.ShloMosaic.Lib.StableHlo.Run
import Idealize.ShloMosaic.Lib.IdealHost
set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tables

open Cert.KernelIdeal Cert.KernelIdeal.Gen Cert.GraphNorm

variable (m : (ℓ : Loc nD τ sig) → Buf (Elt Ideal) ℓ) (ρ : Dev nD → PrngReg)

/-- The arguments as functions of the rows. -/
def segIn (c : Dev nD) : Fin 500000 → BitVec 32 := fun n => (m ((c : Thread nD τ).loc main_arg1) : IVec S500000 32) (ix1 n)
def hIn (c : Dev nD) : Fin 500000 → Fin 128 → EReal := fun n f => (m ((c : Thread nD τ).loc main_arg0) : Vec Ideal S500000x128 .f32) (ix2 n f)
def gammaIn (c : Dev nD) : Fin 128 → EReal := fun f => (m ((c : Thread nD τ).loc main_arg2) : Vec Ideal S128 .f32) (ix1 f)
def betaIn (c : Dev nD) : Fin 128 → EReal := fun f => (m ((c : Thread nD τ).loc main_arg3) : Vec Ideal S128 .f32) (ix1 f)
/-- The two float literals the host stretches carry. -/
abbrev oneLit : EReal := Ideal.ofBits .f32 0x3F800000#32
abbrev epsLit : EReal := Ideal.ofBits .f32 0x3727C5AC#32

/-! ## The rows -/

/-- Region 0 finds the rows as launched. -/
theorem W1_h (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- Region 1 finds the rows as region 0 did. -/
theorem W7_h (c : Dev nD) : W7 m ρ c (Proc.devRef .tc main_arg0) = W1 m ρ c (Proc.devRef .tc main_arg0) :=
  calc W7 m ρ c (Proc.devRef .tc main_arg0)
    _ = W6 m ρ c (Proc.devRef .tc main_arg0) := StableHlo.after_of_forall_not_mem (b := Proc.devRef .tc main_arg0) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg0) := StableHlo.after_of_forall_not_mem (b := Proc.devRef .tc main_arg0) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg0) := StableHlo.after_of_forall_not_mem (b := Proc.devRef .tc main_arg0) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := StableHlo.after_of_forall_not_mem (b := Proc.devRef .tc main_arg0) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 1).trans (((dat0 (V1 m ρ) c).arrAt_in 1 rfl _).trans (A_eq0 (V1 m ρ) c 1))

theorem V1_h (c : Dev nD) (n : Fin 500000) (f : Fin 128) :
    (V1 m ρ c main_arg0 : Vec Ideal S500000x128 .f32) (ix2 n f) = hIn m c n f :=
  congrFun (W1_h m ρ c) (ix2 n f)

theorem V7_h (c : Dev nD) (n : Fin 500000) (f : Fin 128) :
    (V7 m ρ c main_arg0 : Vec Ideal S500000x128 .f32) (ix2 n f) = hIn m c n f :=
  congrFun ((W7_h m ρ c).trans (W1_h m ρ c)) (ix2 n f)

/-! ## The identifiers -/

/-- Region 1 finds the reshaped identifiers as region 0 did. -/
theorem W7_seg (c : Dev nD) : W7 m ρ c (Proc.devRef .tc main_v0) = W1 m ρ c (Proc.devRef .tc main_v0) :=
  calc W7 m ρ c (Proc.devRef .tc main_v0)
    _ = W6 m ρ c (Proc.devRef .tc main_v0) := StableHlo.after_of_forall_not_mem (b := Proc.devRef .tc main_v0) _ _ (List.forall_iff_forall_mem.mp (by
          simp only [hostOps1_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v0) := StableHlo.after_of_forall_not_mem (b := Proc.devRef .tc main_v0) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v0) := StableHlo.after_of_forall_not_mem (b := Proc.devRef .tc main_v0) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v0) := StableHlo.after_of_forall_not_mem (b := Proc.devRef .tc main_v0) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v0) := StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v0) := (W2_arr m ρ c 0).trans (((dat0 (V1 m ρ) c).arrAt_in 0 rfl _).trans (A_eq0 (V1 m ρ) c 0))

/-- The reshape, at (b, t): identifier 5000·b + t. -/
theorem V1_seg (c : Dev nD) (b : Fin 100) (t : Fin 5000) :
    (V1 m ρ c main_v0 : IVec S100x5000 32) (ix2 b t) = segIn m c (row b t) := by
  have e : (V1 m ρ c main_v0 : IVec S100x5000 32)
      = shapeCast S100x5000 (m ((c : Thread nD τ).loc main_arg1) : IVec S500000 32) shapeCasts_S500000_S100x5000 := by
    show StableHlo.after hostOps0 (W0 m ρ c) (Proc.devRef .tc main_v0) = _
    after_results
    rfl
  rw [e]
  unfold segIn
  refine shapeCast_apply _ _ (ix2 b t) (ix1 (row b t)) ?_
  rw [Shape.rowMajor_val_two, Shape.rowMajor_val_one]
  show b.val * 5000 + t.val = b.val * 5000 + t.val
  rfl

theorem V7_seg (c : Dev nD) (b : Fin 100) (t : Fin 5000) :
    (V7 m ρ c main_v0 : IVec S100x5000 32) (ix2 b t) = segIn m c (row b t) :=
  (congrFun (W7_seg m ρ c) (ix2 b t)).trans (V1_seg m ρ c b t)

end Cert.KernelIdeal.Tables

end
-- ==== Proof.Tables.lean ====
/- The host stretches between the two regions, read as values: the four tables region 1 is entered with, from what
   region 0 left. Each operation is read at an index — a slice, a reshape or a broadcast as its operand at the matching
   index, an arithmetic operation entry by entry, the sum over the two cores' halves as two terms, a comparison and a
   selection as a guard — and the stretches are chained buffer by buffer. -/
import proofs.«403000_j1451698946636_3_alg».proof.Proof.TablesIO
import proofs.«403000_j1451698946636_3_alg».proof.Proof.Gen.KernelIdeal.Frame
import proofs.«403000_j1451698946636_3_alg».proof.Proof.Spec
import Idealize.ShloMosaic.Lib.Pipeline.Value
import Idealize.ShloMosaic.Lib.ValueIdx
import Idealize.ShloMosaic.PureOps.Ideal.Laws
import Idealize.ShloMosaic.Lib.StableHlo.Run
import Idealize.ShloMosaic.Lib.IdealHost
set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tables

open Cert.KernelIdeal Cert.KernelIdeal.Gen Cert.GraphNorm

variable (m : (ℓ : Loc nD τ sig) → Buf (Elt Ideal) ℓ) (ρ : Dev nD → PrngReg)

/-! ## Layout operations read at an index -/

section Reads
variable {α : Type}

/-- A column broadcast along the 128 columns reads the column's entry. -/
theorem bcCol_apply (x : S256x1.Idx → α) (g : Fin 256) (f : Fin 128) :
    broadcastInDim S256x128 ![0, 1] bcast_S256x1_S256x128_0_1 x (ix2 g f) = x (ix2 g (0 : Fin 1)) := by
  refine broadcastInDim_apply _ _ _ (ix2 g f) (ix2 g (0 : Fin 1)) fun a => ?_
  match a with
  | ⟨0, _⟩ => rfl
  | ⟨1, _⟩ => rfl

/-- A row broadcast along the 256 rows reads the row's entry. -/
theorem bcRow_apply (x : S1x128.Idx → α) (g : Fin 256) (f : Fin 128) :
    broadcastInDim S256x128 ![0, 1] bcast_S1x128_S256x128_0_1 x (ix2 g f) = x (ix2 (0 : Fin 1) f) := by
  refine broadcastInDim_apply _ _ _ (ix2 g f) (ix2 (0 : Fin 1) f) fun a => ?_
  match a with
  | ⟨0, _⟩ => rfl
  | ⟨1, _⟩ => rfl

/-- A vector of 128 entries laid out as one row. -/
theorem asRow_apply (x : S128.Idx → α) (f : Fin 128) :
    shapeCast S1x128 x shapeCasts_S128_S1x128 (ix2 (0 : Fin 1) f) = x (ix1 f) := by
  refine shapeCast_apply _ _ (ix2 (0 : Fin 1) f) (ix1 f) ?_
  rw [Shape.rowMajor_val_one, Shape.rowMajor_val_two]
  show f.val = 0 * 128 + f.val
  omega

/-- A vector of 256 entries laid out as one column. -/
theorem asCol_apply (x : S256.Idx → α) (g : Fin 256) :
    shapeCast S256x1 x shapeCasts_S256_S256x1 (ix2 g (0 : Fin 1)) = x (ix1 g) := by
  refine shapeCast_apply _ _ (ix2 g (0 : Fin 1)) (ix1 g) ?_
  rw [Shape.rowMajor_val_one, Shape.rowMajor_val_two]
  show g.val = g.val * 1 + 0
  omega

/-- The unit last axis of a [2,256,1] array dropped. -/
theorem dropLast_apply (x : S2x256x1.Idx → α) (a : Fin 2) (g : Fin 256) :
    shapeCast S2x256 x shapeCasts_S2x256x1_S2x256 (ix2 a g) = x (ix3 a g (0 : Fin 1)) := by
  refine shapeCast_apply _ _ (ix2 a g) (ix3 a g (0 : Fin 1)) ?_
  rw [Shape.rowMajor_val_three, Shape.rowMajor_val_two]
  show (a.val * 256 + g.val) * 1 + 0 = a.val * 256 + g.val
  omega

/-- Half `0` of a [2,256,128] array as a [256,128] array. -/
theorem half0_apply (x : S2x256x128.Idx → α) (g : Fin 256) (f : Fin 128) :
    shapeCast S256x128 (extractStridedSlice S1x256x128 ![0, 0, 0] x slices_S2x256x128_S1x256x128_0_0_0)
      shapeCasts_S1x256x128_S256x128 (ix2 g f) = x (ix3 (0 : Fin 2) g f) := by
  refine (shapeCast_apply _ _ (ix2 g f) (ix3 (0 : Fin 1) g f) ?_).trans ?_
  · rw [Shape.rowMajor_val_three, Shape.rowMajor_val_two]
    show (0 * 256 + g.val) * 128 + f.val = g.val * 128 + f.val
    omega
  · refine extractStridedSlice_apply _ _ _ (ix3 (0 : Fin 1) g f) (ix3 (0 : Fin 2) g f) fun a => ?_
    match a with
    | ⟨0, _⟩ => rfl
    | ⟨1, _⟩ => exact (Nat.zero_add _).symm
    | ⟨2, _⟩ => exact (Nat.zero_add _).symm

/-- Half `1`. -/
theorem half1_apply (x : S2x256x128.Idx → α) (g : Fin 256) (f : Fin 128) :
    shapeCast S256x128 (extractStridedSlice S1x256x128 ![1, 0, 0] x slices_S2x256x128_S1x256x128_1_0_0)
      shapeCasts_S1x256x128_S256x128 (ix2 g f) = x (ix3 (1 : Fin 2) g f) := by
  refine (shapeCast_apply _ _ (ix2 g f) (ix3 (0 : Fin 1) g f) ?_).trans ?_
  · rw [Shape.rowMajor_val_three, Shape.rowMajor_val_two]
    show (0 * 256 + g.val) * 128 + f.val = g.val * 128 + f.val
    omega
  · refine extractStridedSlice_apply _ _ _ (ix3 (0 : Fin 1) g f) (ix3 (1 : Fin 2) g f) fun a => ?_
    match a with
    | ⟨0, _⟩ => rfl
    | ⟨1, _⟩ => exact (Nat.zero_add _).symm
    | ⟨2, _⟩ => exact (Nat.zero_add _).symm

end Reads

/-- The host's sum over the two halves of a [2,256] array, from an initial scalar. -/
theorem sumHalves_apply (x : FVec Ideal S2x256 .f32) (init : FVec Ideal S_ .f32) (g : Fin 256) :
    Host.reduceAdd (F := Ideal) x init reducesTo_S2x256_S256_d0 h_S_ (ix1 g) = init ix0 + (x (ix2 (0 : Fin 2) g) + x (ix2 (1 : Fin 2) g)) := by
  have hR : Shape.Reduces S2x256 [0] S256 := by decide
  rw [hostReduceAdd_apply, Ideal.hostReduceAdd_single _ hR]
  have e0 : init (Shape.Idx.first h_S_) = init ix0 := congrArg init (funext fun a => a.elim0)
  rw [e0]
  congr 1
  show (∑ k : Fin 2, x (hR.lift (ix1 g) k)) = _
  rw [Fin.sum_univ_two]
  have l0 : hR.lift (ix1 g) (0 : Fin 2) = ix2 (0 : Fin 2) g := by
    funext a; match a with
    | ⟨0, _⟩ => exact Fin.ext rfl
    | ⟨1, _⟩ => exact Fin.ext rfl
  have l1 : hR.lift (ix1 g) (1 : Fin 2) = ix2 (1 : Fin 2) g := by
    funext a; match a with
    | ⟨0, _⟩ => exact Fin.ext rfl
    | ⟨1, _⟩ => exact Fin.ext rfl
  rw [l0, l1]

/-! ## What the stretches compute, as arrays, and those arrays read at an index -/

/-- The two cores' halves of a [2,256,128] array at `(g, f)`, added; and of a [2,256,1] array at `g`. -/
def both (x : FVec Ideal S2x256x128 .f32) (g : Fin 256) (f : Fin 128) : EReal :=
  x (ix3 (0 : Fin 2) g f) + x (ix3 (1 : Fin 2) g f)
def both1 (x : FVec Ideal S2x256x1 .f32) (g : Fin 256) : EReal :=
  x (ix3 (0 : Fin 2) g (0 : Fin 1)) + x (ix3 (1 : Fin 2) g (0 : Fin 1))

/-- The two halves of a [2,256,128] array added. -/
def halves (x : FVec Ideal S2x256x128 .f32) : FVec Ideal S256x128 .f32 :=
  addf (shapeCast S256x128 (extractStridedSlice S1x256x128 ![0, 0, 0] x slices_S2x256x128_S1x256x128_0_0_0) shapeCasts_S1x256x128_S256x128)
       (shapeCast S256x128 (extractStridedSlice S1x256x128 ![1, 0, 0] x slices_S2x256x128_S1x256x128_1_0_0) shapeCasts_S1x256x128_S256x128)

theorem halves_apply (x : FVec Ideal S2x256x128 .f32) (g : Fin 256) (f : Fin 128) :
    halves x (ix2 g f) = both x g f := by
  unfold halves
  simp only [addf]
  rw [half0_apply, half1_apply]
  rfl

/-- The two halves of the [2,256,1] counts added from zero, as a column. -/
def counts (x : FVec Ideal S2x256x1 .f32) : FVec Ideal S256x1 .f32 :=
  shapeCast S256x1 (Host.reduceAdd (F := Ideal) (shapeCast S2x256 x shapeCasts_S2x256x1_S2x256) (constant S_ .f32 0x00000000#32)
    reducesTo_S2x256_S256_d0 h_S_) shapeCasts_S256_S256x1

theorem counts_apply (x : FVec Ideal S2x256x1 .f32) (g : Fin 256) :
    counts x (ix2 g (0 : Fin 1)) = both1 x g := by
  unfold counts
  rw [asCol_apply, sumHalves_apply, dropLast_apply, dropLast_apply]
  show Ideal.ofBits .f32 0x00000000#32 + _ = _
  rw [Ideal.ofBits_zero_f32, zero_add]
  rfl

/-- The zero literal is the extended real zero. -/
theorem zeroLit_eq : (constant (F := Ideal) S_ .f32 0x00000000#32 ix0 : EReal) = 0 := Ideal.ofBits_zero_f32

theorem ofBool_eq_one (b : Bool) : BitVec.ofBool b = 1#1 ↔ b = true := by cases b <;> decide

/-- The ordered comparison "greater than" answers 1 exactly when its first operand is the greater. -/
theorem cmp_ogt_iff (a b : EReal) : Ideal.cmp .ogt a b = 1 ↔ b < a := by
  show BitVec.ofBool (decide (b < a)) = 1#1 ↔ _
  rw [ofBool_eq_one, decide_eq_true_iff]

/-- The guard "the count is positive", as a column of bits. -/
def posGate (x : FVec Ideal S2x256x1 .f32) : IVec S256x1 1 :=
  cmpf .ogt (counts x) (broadcastInDim S256x1 ![] bcast_S_S256x1 (constant (F := Ideal) S_ .f32 0x00000000#32))

theorem posGate_iff (x : FVec Ideal S2x256x1 .f32) (g : Fin 256) :
    posGate x (ix2 g (0 : Fin 1)) = 1 ↔ 0 < both1 x g := by
  unfold posGate
  simp only [cmpf]
  rw [counts_apply, broadcastInDim_scalar_apply]
  refine (cmp_ogt_iff _ _).trans ?_
  rw [zeroLit_eq]

/-- The sums over the counts. -/
def ratio (x0 : FVec Ideal S2x256x128 .f32) (x2 : FVec Ideal S2x256x1 .f32) : FVec Ideal S256x128 .f32 :=
  Host.divf (halves x0) (broadcastInDim S256x128 ![0, 1] bcast_S256x1_S256x128_0_1 (counts x2))

theorem ratio_apply (x0 : FVec Ideal S2x256x128 .f32) (x2 : FVec Ideal S2x256x1 .f32) (g : Fin 256) (f : Fin 128) :
    ratio x0 x2 (ix2 g f) = Ideal.div (both x0 g f) (both1 x2 g) := by
  unfold ratio
  rw [hostDivf_apply, halves_apply, bcCol_apply, counts_apply]

/-- A column of bits selecting, row by row, between an array and a scalar. -/
def guarded (b : IVec S256x1 1) (x : FVec Ideal S256x128 .f32) (z : FVec Ideal S_ .f32) : FVec Ideal S256x128 .f32 :=
  select (broadcastInDim S256x128 ![0, 1] bcast_S256x1_S256x128_0_1 b) x (broadcastInDim S256x128 ![] bcast_S_S256x128 z)

theorem guarded_apply (b : IVec S256x1 1) (x : FVec Ideal S256x128 .f32) (z : FVec Ideal S_ .f32) (g : Fin 256) (f : Fin 128) :
    guarded b x z (ix2 g f) = if b (ix2 g (0 : Fin 1)) = 1 then x (ix2 g f) else z ix0 := by
  unfold guarded
  simp only [select, Scalar.select]
  rw [bcCol_apply, broadcastInDim_scalar_apply]

/-- The variance before its guard: `max ((q − c · μ · μ) / (c − 1)) 0`. -/
def varArr (q : FVec Ideal S256x128 .f32) (n : FVec Ideal S256x1 .f32) (μ : FVec Ideal S256x128 .f32) : FVec Ideal S256x128 .f32 :=
  maximumf
    (Host.divf
      (subf q (mulf (mulf (broadcastInDim S256x128 ![0, 1] bcast_S256x1_S256x128_0_1 n) μ) μ))
      (broadcastInDim S256x128 ![0, 1] bcast_S256x1_S256x128_0_1
        (subf n (broadcastInDim S256x1 ![] bcast_S_S256x1 (constant (F := Ideal) S_ .f32 0x3F800000#32)))))
    (broadcastInDim S256x128 ![] bcast_S_S256x128 (constant (F := Ideal) S_ .f32 0x00000000#32))

theorem varArr_apply (q : FVec Ideal S256x128 .f32) (n : FVec Ideal S256x1 .f32) (μ : FVec Ideal S256x128 .f32)
    (g : Fin 256) (f : Fin 128) :
    varArr q n μ (ix2 g f)
      = max (Ideal.div (q (ix2 g f) - n (ix2 g (0 : Fin 1)) * μ (ix2 g f) * μ (ix2 g f)) (n (ix2 g (0 : Fin 1)) - oneLit)) 0 := by
  unfold varArr
  simp only [maximumf, Host.divf, subf, mulf]
  rw [bcCol_apply, bcCol_apply, broadcastInDim_scalar_apply]
  simp only [subf]
  rw [broadcastInDim_scalar_apply, zeroLit_eq]
  rfl

/-- The guard "the count exceeds one". -/
def oneGate (n : FVec Ideal S256x1 .f32) : IVec S256x1 1 :=
  cmpf .ogt n (broadcastInDim S256x1 ![] bcast_S_S256x1 (constant (F := Ideal) S_ .f32 0x3F800000#32))

theorem oneGate_iff (n : FVec Ideal S256x1 .f32) (g : Fin 256) :
    oneGate n (ix2 g (0 : Fin 1)) = 1 ↔ oneLit < n (ix2 g (0 : Fin 1)) := by
  unfold oneGate
  simp only [cmpf]
  rw [broadcastInDim_scalar_apply]
  exact cmp_ogt_iff _ _

/-- The scale `γ / (√v + ε)` and the shift `β − μ · scale`. -/
def scaleArr (γ : FVec Ideal S1x128 .f32) (v : FVec Ideal S256x128 .f32) : FVec Ideal S256x128 .f32 :=
  Host.divf (broadcastInDim S256x128 ![0, 1] bcast_S1x128_S256x128_0_1 γ)
    (addf (Host.sqrt v) (broadcastInDim S256x128 ![] bcast_S_S256x128 (constant (F := Ideal) S_ .f32 0x3727C5AC#32)))

theorem scaleArr_apply (γ : FVec Ideal S1x128 .f32) (v : FVec Ideal S256x128 .f32) (g : Fin 256) (f : Fin 128) :
    scaleArr γ v (ix2 g f) = Ideal.div (γ (ix2 (0 : Fin 1) f)) (Ideal.sqrt (v (ix2 g f)) + epsLit) := by
  unfold scaleArr
  simp only [Host.divf, addf, Host.sqrt]
  rw [bcRow_apply, broadcastInDim_scalar_apply]
  rfl

def shiftArr (β : FVec Ideal S1x128 .f32) (μ s : FVec Ideal S256x128 .f32) : FVec Ideal S256x128 .f32 :=
  subf (broadcastInDim S256x128 ![0, 1] bcast_S1x128_S256x128_0_1 β) (mulf μ s)

theorem shiftArr_apply (β : FVec Ideal S1x128 .f32) (μ s : FVec Ideal S256x128 .f32) (g : Fin 256) (f : Fin 128) :
    shiftArr β μ s (ix2 g f) = β (ix2 (0 : Fin 1) f) - μ (ix2 g f) * s (ix2 g f) := by
  unfold shiftArr
  simp only [subf, mulf]
  rw [bcRow_apply]
  rfl

/-- An array's half-precision part and what is left of it. -/
def hi (x : FVec Ideal S256x128 .f32) : FVec Ideal S256x128 .bf16 := truncf .bf16 x bitsLt_bf16_f32
def lo (x : FVec Ideal S256x128 .f32) : FVec Ideal S256x128 .bf16 :=
  truncf .bf16 (subf x (extf .f32 (truncf .bf16 x bitsLt_bf16_f32) bitsLt_bf16_f32)) bitsLt_bf16_f32

theorem hi_apply (x : FVec Ideal S256x128 .f32) (i : S256x128.Idx) : hi x i = x i := rfl
theorem lo_apply (x : FVec Ideal S256x128 .f32) (i : S256x128.Idx) : lo x i = x i - x i := rfl

/-! ## The stretches between the regions, buffer by buffer -/

/-- A stretch leaves a buffer none of its operations writes as it was. -/
local macro "untouched" : tactic => `(tactic|
  (refine StableHlo.after_of_forall_not_mem _ _ (List.forall_iff_forall_mem.mp ?_)
   simp only [hostOps0, hostOps1, hostOps1_1, hostOps1_2, hostOps1_3, hostOps1_4, List.Forall,
     StableHlo.nullary_writes, StableHlo.unary_writes, StableHlo.binary_writes, StableHlo.ternary_writes,
     StableHlo.reshape_writes, Finset.mem_singleton]
   repeat' apply And.intro
   all_goals exact StableHlo.devRef_ne_of_ne (by decide)))

section Stretches
variable (V : Valuation τ sig (Elt Ideal))

theorem s1_v13 : (StableHlo.after hostOps1 V (Proc.devRef .tc main_v13) : FVec Ideal S256x128 .f32)
    = halves (V (Proc.devRef .tc main_v3_1)) := by
  dsimp only [hostOps1]; after_results; rfl

theorem s1_v16 : (StableHlo.after hostOps1 V (Proc.devRef .tc main_v16) : FVec Ideal S256x1 .f32)
    = counts (V (Proc.devRef .tc main_v3_2)) := by
  dsimp only [hostOps1]; after_results; rfl

theorem s1_v18 : (StableHlo.after hostOps1 V (Proc.devRef .tc main_v18) : IVec S256x1 1)
    = posGate (V (Proc.devRef .tc main_v3_2)) := by
  dsimp only [hostOps1]; after_results; rfl

theorem s1_v20 : (StableHlo.after hostOps1 V (Proc.devRef .tc main_v20) : FVec Ideal S256x128 .f32)
    = ratio (V (Proc.devRef .tc main_v3_0)) (V (Proc.devRef .tc main_v3_2)) := by
  dsimp only [hostOps1]; after_results; rfl

theorem s1_cst1 : (StableHlo.after hostOps1 V (Proc.devRef .tc main_cst_1) : FVec Ideal S_ .f32)
    = constant (F := Ideal) S_ .f32 0x00000000#32 := by
  dsimp only [hostOps1]; after_results

theorem s2_v21 : (StableHlo.after hostOps1_1 V (Proc.devRef .tc main_v21) : FVec Ideal S256x128 .f32)
    = guarded (V (Proc.devRef .tc main_v18)) (V (Proc.devRef .tc main_v20)) (V (Proc.devRef .tc main_cst_1)) := by
  dsimp only [hostOps1_1]; after_results; rfl

theorem s3_v33 : (StableHlo.after hostOps1_2 V (Proc.devRef .tc main_v33) : FVec Ideal S256x128 .f32)
    = varArr (V (Proc.devRef .tc main_v13)) (V (Proc.devRef .tc main_v16)) (V (Proc.devRef .tc main_v21)) := by
  dsimp only [hostOps1_2]; after_results; rfl

theorem s3_v31 : (StableHlo.after hostOps1_2 V (Proc.devRef .tc main_v31) : IVec S256x1 1)
    = oneGate (V (Proc.devRef .tc main_v16)) := by
  dsimp only [hostOps1_2]; after_results; rfl

theorem s3_cst5 : (StableHlo.after hostOps1_2 V (Proc.devRef .tc main_cst_5) : FVec Ideal S_ .f32)
    = constant (F := Ideal) S_ .f32 0x00000000#32 := by
  dsimp only [hostOps1_2]; after_results

theorem s4_v34 : (StableHlo.after hostOps1_3 V (Proc.devRef .tc main_v34) : FVec Ideal S256x128 .f32)
    = guarded (V (Proc.devRef .tc main_v31)) (V (Proc.devRef .tc main_v33)) (V (Proc.devRef .tc main_cst_5)) := by
  dsimp only [hostOps1_3]; after_results; rfl

theorem s5_v43 : (StableHlo.after hostOps1_4 V (Proc.devRef .tc main_v43) : FVec Ideal S256x128 .bf16)
    = hi (scaleArr (V (Proc.devRef .tc main_v1)) (V (Proc.devRef .tc main_v34))) := by
  dsimp only [hostOps1_4]; after_results; rfl

theorem s5_v46 : (StableHlo.after hostOps1_4 V (Proc.devRef .tc main_v46) : FVec Ideal S256x128 .bf16)
    = lo (scaleArr (V (Proc.devRef .tc main_v1)) (V (Proc.devRef .tc main_v34))) := by
  dsimp only [hostOps1_4]; after_results; rfl

theorem s5_v47 : (StableHlo.after hostOps1_4 V (Proc.devRef .tc main_v47) : FVec Ideal S256x128 .bf16)
    = hi (shiftArr (V (Proc.devRef .tc main_v2)) (V (Proc.devRef .tc main_v21))
        (scaleArr (V (Proc.devRef .tc main_v1)) (V (Proc.devRef .tc main_v34)))) := by
  dsimp only [hostOps1_4]; after_results; rfl

theorem s5_v50 : (StableHlo.after hostOps1_4 V (Proc.devRef .tc main_v50) : FVec Ideal S256x128 .bf16)
    = lo (shiftArr (V (Proc.devRef .tc main_v2)) (V (Proc.devRef .tc main_v21))
        (scaleArr (V (Proc.devRef .tc main_v1)) (V (Proc.devRef .tc main_v34)))) := by
  dsimp only [hostOps1_4]; after_results; rfl

end Stretches

/-! ## The run's boundaries -/

section Run
variable (c : Dev nD)

/-- `γ` and `β` as rows: written before region 0, untouched since. -/
theorem W1_v1 : (W1 m ρ c (Proc.devRef .tc main_v1) : FVec Ideal S1x128 .f32)
    = fun i => shapeCast S1x128 (m ((c : Thread nD τ).loc main_arg2) : FVec Ideal S128 .f32) shapeCasts_S128_S1x128 i := by
  dsimp only [W1, hostOps0]; after_results; rfl

theorem W1_v2 : (W1 m ρ c (Proc.devRef .tc main_v2) : FVec Ideal S1x128 .f32)
    = fun i => shapeCast S1x128 (m ((c : Thread nD τ).loc main_arg3) : FVec Ideal S128 .f32) shapeCasts_S128_S1x128 i := by
  dsimp only [W1, hostOps0]; after_results; rfl

theorem W6_v1 : W6 m ρ c (Proc.devRef .tc main_v1) = W1 m ρ c (Proc.devRef .tc main_v1) :=
  calc W6 m ρ c (Proc.devRef .tc main_v1)
    _ = W5 m ρ c (Proc.devRef .tc main_v1) := by untouched
    _ = W4 m ρ c (Proc.devRef .tc main_v1) := by untouched
    _ = W3 m ρ c (Proc.devRef .tc main_v1) := by untouched
    _ = W2 m ρ c (Proc.devRef .tc main_v1) := by untouched
    _ = W1 m ρ c (Proc.devRef .tc main_v1) := W2_of_ne m ρ c main_v1 (by decide)

theorem W6_v2 : W6 m ρ c (Proc.devRef .tc main_v2) = W1 m ρ c (Proc.devRef .tc main_v2) :=
  calc W6 m ρ c (Proc.devRef .tc main_v2)
    _ = W5 m ρ c (Proc.devRef .tc main_v2) := by untouched
    _ = W4 m ρ c (Proc.devRef .tc main_v2) := by untouched
    _ = W3 m ρ c (Proc.devRef .tc main_v2) := by untouched
    _ = W2 m ρ c (Proc.devRef .tc main_v2) := by untouched
    _ = W1 m ρ c (Proc.devRef .tc main_v2) := W2_of_ne m ρ c main_v2 (by decide)

theorem W6_gamma (f : Fin 128) :
    (W6 m ρ c (Proc.devRef .tc main_v1) : FVec Ideal S1x128 .f32) (ix2 (0 : Fin 1) f) = gammaIn m c f := by
  rw [W6_v1, W1_v1]
  exact asRow_apply _ f

theorem W6_beta (f : Fin 128) :
    (W6 m ρ c (Proc.devRef .tc main_v2) : FVec Ideal S1x128 .f32) (ix2 (0 : Fin 1) f) = betaIn m c f := by
  rw [W6_v2, W1_v2]
  exact asRow_apply _ f

theorem W4_v16 : W4 m ρ c (Proc.devRef .tc main_v16) = W3 m ρ c (Proc.devRef .tc main_v16) := by untouched
theorem W4_v13 : W4 m ρ c (Proc.devRef .tc main_v13) = W3 m ρ c (Proc.devRef .tc main_v13) := by untouched
theorem W6_v21 : W6 m ρ c (Proc.devRef .tc main_v21) = W4 m ρ c (Proc.devRef .tc main_v21) :=
  calc W6 m ρ c (Proc.devRef .tc main_v21)
    _ = W5 m ρ c (Proc.devRef .tc main_v21) := by untouched
    _ = W4 m ρ c (Proc.devRef .tc main_v21) := by untouched

end Run

/-! ## The four tables -/

/-- The four tables, given region 0's three output arrays. -/
theorem V7_tables (c : Dev nD)
    (hS : ∀ (a : Fin 2) (g : Fin 256) (f : Fin 128),
      (V2 m ρ c main_v3_0 : Vec Ideal S2x256x128 .f32) (ix3 a g f) = kSum (segIn m c) (hIn m c) a g f)
    (hQ : ∀ (a : Fin 2) (g : Fin 256) (f : Fin 128),
      (V2 m ρ c main_v3_1 : Vec Ideal S2x256x128 .f32) (ix3 a g f) = kSq (segIn m c) (hIn m c) a g f)
    (hC : ∀ (a : Fin 2) (g : Fin 256),
      (V2 m ρ c main_v3_2 : Vec Ideal S2x256x1 .f32) (ix3 a g (0 : Fin 1)) = kCnt (segIn m c) a g)
    (g : Fin 256) (f : Fin 128) :
    (V7 m ρ c main_v43 : Vec Ideal S256x128 .bf16) (ix2 g f) = scaleK (segIn m c) (hIn m c) (gammaIn m c) oneLit epsLit g f
    ∧ (V7 m ρ c main_v46 : Vec Ideal S256x128 .bf16) (ix2 g f)
        = scaleK (segIn m c) (hIn m c) (gammaIn m c) oneLit epsLit g f - scaleK (segIn m c) (hIn m c) (gammaIn m c) oneLit epsLit g f
    ∧ (V7 m ρ c main_v47 : Vec Ideal S256x128 .bf16) (ix2 g f)
        = shiftK (segIn m c) (hIn m c) (gammaIn m c) (betaIn m c) oneLit epsLit g f
    ∧ (V7 m ρ c main_v50 : Vec Ideal S256x128 .bf16) (ix2 g f)
        = shiftK (segIn m c) (hIn m c) (gammaIn m c) (betaIn m c) oneLit epsLit g f
          - shiftK (segIn m c) (hIn m c) (gammaIn m c) (betaIn m c) oneLit epsLit g f := by
  -- region 0's halves added: the sums, the sums of squares, the counts
  have hs : ∀ g f, both (W2 m ρ c (Proc.devRef .tc main_v3_0)) g f = sumH (segIn m c) (hIn m c) g f :=
    fun g f => congrArg₂ (fun x y : EReal => x + y) (hS 0 g f) (hS 1 g f)
  have hq : ∀ g f, both (W2 m ρ c (Proc.devRef .tc main_v3_1)) g f = sqH (segIn m c) (hIn m c) g f :=
    fun g f => congrArg₂ (fun x y : EReal => x + y) (hQ 0 g f) (hQ 1 g f)
  have hc : ∀ g, both1 (W2 m ρ c (Proc.devRef .tc main_v3_2)) g = cntH (segIn m c) g :=
    fun g => congrArg₂ (fun x y : EReal => x + y) (hC 0 g) (hC 1 g)
  -- the count and the sum of squares, as the later stretches read them
  have h16 : ∀ g, (W3 m ρ c (Proc.devRef .tc main_v16) : FVec Ideal S256x1 .f32) (ix2 g (0 : Fin 1)) = cntH (segIn m c) g := by
    intro g
    rw [show W3 m ρ c (Proc.devRef .tc main_v16) = counts (W2 m ρ c (Proc.devRef .tc main_v3_2)) from s1_v16 _, counts_apply]
    exact hc g
  have h13 : ∀ g f, (W3 m ρ c (Proc.devRef .tc main_v13) : FVec Ideal S256x128 .f32) (ix2 g f) = sqH (segIn m c) (hIn m c) g f := by
    intro g f
    rw [show W3 m ρ c (Proc.devRef .tc main_v13) = halves (W2 m ρ c (Proc.devRef .tc main_v3_1)) from s1_v13 _, halves_apply]
    exact hq g f
  -- the mean
  have hμ : ∀ g f, (W4 m ρ c (Proc.devRef .tc main_v21) : FVec Ideal S256x128 .f32) (ix2 g f) = meanK (segIn m c) (hIn m c) g f := by
    intro g f
    rw [show W4 m ρ c (Proc.devRef .tc main_v21)
          = guarded (W3 m ρ c (Proc.devRef .tc main_v18)) (W3 m ρ c (Proc.devRef .tc main_v20)) (W3 m ρ c (Proc.devRef .tc main_cst_1))
          from s2_v21 _, guarded_apply,
      show W3 m ρ c (Proc.devRef .tc main_v18) = posGate (W2 m ρ c (Proc.devRef .tc main_v3_2)) from s1_v18 _,
      show W3 m ρ c (Proc.devRef .tc main_v20) = ratio (W2 m ρ c (Proc.devRef .tc main_v3_0)) (W2 m ρ c (Proc.devRef .tc main_v3_2)) from s1_v20 _,
      show W3 m ρ c (Proc.devRef .tc main_cst_1) = constant (F := Ideal) S_ .f32 0x00000000#32 from s1_cst1 _,
      ratio_apply, hs, hc, zeroLit_eq]
    unfold meanK
    exact if_congr ((posGate_iff _ g).trans (by rw [hc])) rfl rfl
  -- the variance
  have hv : ∀ g f, (W6 m ρ c (Proc.devRef .tc main_v34) : FVec Ideal S256x128 .f32) (ix2 g f)
      = varK (segIn m c) (hIn m c) oneLit g f := by
    intro g f
    rw [show W6 m ρ c (Proc.devRef .tc main_v34)
          = guarded (W5 m ρ c (Proc.devRef .tc main_v31)) (W5 m ρ c (Proc.devRef .tc main_v33)) (W5 m ρ c (Proc.devRef .tc main_cst_5))
          from s4_v34 _, guarded_apply,
      show W5 m ρ c (Proc.devRef .tc main_v31) = oneGate (W4 m ρ c (Proc.devRef .tc main_v16)) from s3_v31 _,
      show W5 m ρ c (Proc.devRef .tc main_v33)
          = varArr (W4 m ρ c (Proc.devRef .tc main_v13)) (W4 m ρ c (Proc.devRef .tc main_v16)) (W4 m ρ c (Proc.devRef .tc main_v21))
          from s3_v33 _,
      show W5 m ρ c (Proc.devRef .tc main_cst_5) = constant (F := Ideal) S_ .f32 0x00000000#32 from s3_cst5 _,
      varArr_apply, W4_v13, W4_v16, h13, h16, hμ, zeroLit_eq]
    unfold varK varRawK
    exact if_congr ((oneGate_iff _ g).trans (by rw [h16])) rfl rfl
  -- the scale and the shift
  have hsc : ∀ g f, scaleArr (W6 m ρ c (Proc.devRef .tc main_v1)) (W6 m ρ c (Proc.devRef .tc main_v34)) (ix2 g f)
      = scaleK (segIn m c) (hIn m c) (gammaIn m c) oneLit epsLit g f := by
    intro g f
    rw [scaleArr_apply, hv, W6_gamma]
    rfl
  have hsh : ∀ g f, shiftArr (W6 m ρ c (Proc.devRef .tc main_v2)) (W6 m ρ c (Proc.devRef .tc main_v21))
        (scaleArr (W6 m ρ c (Proc.devRef .tc main_v1)) (W6 m ρ c (Proc.devRef .tc main_v34))) (ix2 g f)
      = shiftK (segIn m c) (hIn m c) (gammaIn m c) (betaIn m c) oneLit epsLit g f := by
    intro g f
    rw [shiftArr_apply, hsc, W6_beta, W6_v21, hμ]
    rfl
  refine ⟨?_, ?_, ?_, ?_⟩
  · show (W7 m ρ c (Proc.devRef .tc main_v43) : FVec Ideal S256x128 .bf16) (ix2 g f) = _
    rw [show W7 m ρ c (Proc.devRef .tc main_v43) = hi (scaleArr (W6 m ρ c (Proc.devRef .tc main_v1)) (W6 m ρ c (Proc.devRef .tc main_v34))) from s5_v43 _,
      hi_apply]
    exact hsc g f
  · show (W7 m ρ c (Proc.devRef .tc main_v46) : FVec Ideal S256x128 .bf16) (ix2 g f) = _
    rw [show W7 m ρ c (Proc.devRef .tc main_v46) = lo (scaleArr (W6 m ρ c (Proc.devRef .tc main_v1)) (W6 m ρ c (Proc.devRef .tc main_v34))) from s5_v46 _,
      lo_apply, hsc]
  · show (W7 m ρ c (Proc.devRef .tc main_v47) : FVec Ideal S256x128 .bf16) (ix2 g f) = _
    rw [show W7 m ρ c (Proc.devRef .tc main_v47) = hi (shiftArr (W6 m ρ c (Proc.devRef .tc main_v2)) (W6 m ρ c (Proc.devRef .tc main_v21))
          (scaleArr (W6 m ρ c (Proc.devRef .tc main_v1)) (W6 m ρ c (Proc.devRef .tc main_v34)))) from s5_v47 _,
      hi_apply]
    exact hsh g f
  · show (W7 m ρ c (Proc.devRef .tc main_v50) : FVec Ideal S256x128 .bf16) (ix2 g f) = _
    rw [show W7 m ρ c (Proc.devRef .tc main_v50) = lo (shiftArr (W6 m ρ c (Proc.devRef .tc main_v2)) (W6 m ρ c (Proc.devRef .tc main_v21))
          (scaleArr (W6 m ρ c (Proc.devRef .tc main_v1)) (W6 m ρ c (Proc.devRef .tc main_v34)))) from s5_v50 _,
      lo_apply, hsh]

end Cert.KernelIdeal.Tables

end
-- ==== Proof.LibScatterSum.lean ====
/-
  AN ACCUMULATING SCATTER ALONG ONE AXIS, READ AT AN INDEX. At the ideal instance a host scatter with an add body is, at
  each operand index, the operand's element plus the sum of the updates whose result index is that index; the start
  index is read signed and not clamped, and an update that lands outside the operand adds nothing. For three layouts
  with ONE index word per update (scatter indices `[E, 1]`) — updates `[C, E]` into `[C, N]` along axis 1, updates
  `[E, K]` into `[N, K]` along axis 0, updates `[E]` into `[N]` — the scatter at an index is the operand's element
  plus the plain sum, over the updates `e` whose index word read signed equals the scattered coordinate `n`, of the
  update element on the same window coordinate. Each layout: the start and the window coordinate on each operand axis,
  then when an update lands on a given index, then the sum re-indexed by coordinates.
-/
import Idealize.ShloMosaic.PureOps.Ideal
import Idealize.ShloMosaic.Lib.ValueIdx

noncomputable section

open Idealize.ShloMosaic Idealize.ShloMosaic.ValueIdx
open scoped BigOperators

namespace Cert.LibScatterSum

section Cols
variable {C N E w : Nat}
  (h : ScatterDims.WF (⟨2, ![C, N]⟩ : Shape) (⟨2, ![E, 1]⟩ : Shape) (⟨2, ![C, E]⟩ : Shape) [0] [1] [1] 1)

/-- The dimension numbers: update window axis 0, inserted operand axis 1, start indices for operand axis 1, the index
    vector on the scatter indices' axis 1. -/
abbrev colsDims : ScatterDims (⟨2, ![C, N]⟩ : Shape) (⟨2, ![E, 1]⟩ : Shape) (⟨2, ![C, E]⟩ : Shape) := ⟨[0], [1], [1], 1, h⟩

/-- No start index names operand axis 0: the window starts at 0 there. -/
theorem cols_start0 (j : (⟨2, ![C, E]⟩ : Shape).Idx) (idx : IVec (⟨2, ![E, 1]⟩ : Shape) w) (h0) :
    (colsDims h).start j idx ⟨0, h0⟩ = 0 := by
  have hm : (⟨0, h0⟩ : Fin (⟨2, ![C, N]⟩ : Shape).rank) ∉ (colsDims h).scatterDimsToOperandDims := by
    show (0 : Fin 2) ∉ ([1] : List (Fin 2)); decide
  unfold ScatterDims.start
  rw [dif_neg hm]

/-- Update `j` reads its one start-index component at `(j 1, 0)` of the scatter indices. -/
theorem cols_siIdx (j : (⟨2, ![C, E]⟩ : Shape).Idx) (c : Fin (colsDims h).scatterDimsToOperandDims.length) :
    (colsDims h).siIdx j c = ix2 (j 1) (0 : Fin 1) := by
  funext b; refine Fin.ext ?_
  match b with
  | ⟨0, _⟩ => rfl
  | ⟨1, _⟩ =>
    show c.val = 0
    have : c.val < 1 := c.isLt
    omega

/-- On operand axis 1 the window starts at the index word of update column `j 1`, read signed. -/
theorem cols_start1 (j : (⟨2, ![C, E]⟩ : Shape).Idx) (idx : IVec (⟨2, ![E, 1]⟩ : Shape) w) (h1) :
    (colsDims h).start j idx ⟨1, h1⟩ = (idx (ix2 (j 1) (0 : Fin 1))).toInt := by
  have hm : (⟨1, h1⟩ : Fin (⟨2, ![C, N]⟩ : Shape).rank) ∈ (colsDims h).scatterDimsToOperandDims := by
    show (1 : Fin 2) ∈ ([1] : List (Fin 2)); decide
  unfold ScatterDims.start
  rw [dif_pos hm, cols_siIdx h j]
  rfl

/-- On operand axis 0 the window coordinate is the update's row. -/
theorem cols_window0 (j : (⟨2, ![C, E]⟩ : Shape).Idx) (h0) : (colsDims h).window j ⟨0, h0⟩ = (j 0).val := by
  have hm : (⟨0, h0⟩ : Fin (⟨2, ![C, N]⟩ : Shape).rank) ∈ (colsDims h).sKept := by
    show (0 : Fin 2) ∈ (List.finRange 2).filter (· ∉ ([1] : List (Fin 2))); decide
  unfold ScatterDims.window
  rw [dif_pos hm]
  rfl

/-- Operand axis 1 is inserted: window coordinate 0. -/
theorem cols_window1 (j : (⟨2, ![C, E]⟩ : Shape).Idx) (h1) : (colsDims h).window j ⟨1, h1⟩ = 0 := by
  have hm : (⟨1, h1⟩ : Fin (⟨2, ![C, N]⟩ : Shape).rank) ∉ (colsDims h).sKept := by
    show (1 : Fin 2) ∉ (List.finRange 2).filter (· ∉ ([1] : List (Fin 2))); decide
  unfold ScatterDims.window
  rw [dif_neg hm]

/-- Update `j` lands on `(c, n)` exactly when its row is `c` and its column's index word, read signed, is `n`. -/
theorem cols_resultIdx_iff (j : (⟨2, ![C, E]⟩ : Shape).Idx) (idx : IVec (⟨2, ![E, 1]⟩ : Shape) w)
    (c : Fin C) (n : Fin N) :
    (colsDims h).resultIdx? j idx = some (ix2 c n) ↔
      j 0 = c ∧ (idx (ix2 (j 1) (0 : Fin 1))).toInt = (n.val : ℤ) := by
  unfold ScatterDims.resultIdx?
  split
  · rename_i hb
    rw [Option.some.injEq]
    constructor
    · intro he
      have e0 := congrArg Fin.val (congrFun he ⟨0, Nat.zero_lt_two⟩)
      have e1 := congrArg Fin.val (congrFun he ⟨1, Nat.one_lt_two⟩)
      have b1 := (hb ⟨1, Nat.one_lt_two⟩).1
      simp only [cols_start0, cols_start1, cols_window0, cols_window1] at e0 e1 b1
      refine ⟨Fin.ext ?_, ?_⟩
      · change _ = c.val at e0; omega
      · change _ = n.val at e1; omega
    · rintro ⟨hc, hn⟩
      funext a; refine Fin.ext ?_
      match a with
      | ⟨0, h0⟩ =>
        show ((colsDims h).start j idx ⟨0, h0⟩ + ((colsDims h).window j ⟨0, h0⟩ : ℕ)).toNat = c.val
        rw [cols_start0, cols_window0, hc]; omega
      | ⟨1, h1⟩ =>
        show ((colsDims h).start j idx ⟨1, h1⟩ + ((colsDims h).window j ⟨1, h1⟩ : ℕ)).toNat = n.val
        rw [cols_start1, cols_window1, hn]; omega
  · rename_i hb
    constructor
    · intro he; cases he
    · rintro ⟨hc, hn⟩
      exfalso; apply hb
      intro a
      match a with
      | ⟨0, _⟩ =>
        show 0 ≤ _ ∧ _ < ((C : ℕ) : ℤ)
        rw [cols_start0, cols_window0, hc]; have := c.isLt; omega
      | ⟨1, _⟩ =>
        show 0 ≤ _ ∧ _ < ((N : ℕ) : ℤ)
        rw [cols_start1, cols_window1, hn]; have := n.isLt; omega

/-- The scatter at `(c, n)`, over the named dimension numbers. -/
theorem cols_sum (x : (⟨2, ![C, N]⟩ : Shape).Idx → EReal) (idx : IVec (⟨2, ![E, 1]⟩ : Shape) w)
    (upd : (⟨2, ![C, E]⟩ : Shape).Idx → EReal) (c : Fin C) (n : Fin N) :
    Ideal.hostScatterAdd (colsDims h) x idx upd (ix2 c n)
      = x (ix2 c n) + ∑ e ∈ Finset.univ.filter (fun e : Fin E => (idx (ix2 e (0 : Fin 1))).toInt = (n.val : ℤ)), upd (ix2 c e) := by
  unfold Ideal.hostScatterAdd
  congr 1
  rw [Finset.sum_filter, Finset.sum_filter, sum_idx2, Finset.sum_comm]
  refine Finset.sum_congr rfl fun e _ => ?_
  have hiff : ∀ a : Fin C, ((colsDims h).resultIdx? (ix2 a e) idx = some (ix2 c n)) ↔
      (a = c ∧ (idx (ix2 e (0 : Fin 1))).toInt = (n.val : ℤ)) := fun a => cols_resultIdx_iff h (ix2 a e) idx c n
  simp only [hiff]
  by_cases hp : (idx (ix2 e (0 : Fin 1))).toInt = (n.val : ℤ)
  · simp only [hp, and_true, if_true, Finset.sum_ite_eq', Finset.mem_univ]
  · simp only [hp, and_false, if_false, Finset.sum_const_zero]
end Cols

section Rows
variable {N K E w : Nat}
  (h : ScatterDims.WF (⟨2, ![N, K]⟩ : Shape) (⟨2, ![E, 1]⟩ : Shape) (⟨2, ![E, K]⟩ : Shape) [1] [0] [0] 1)

/-- The dimension numbers: update window axis 1, inserted operand axis 0, start indices for operand axis 0, the index
    vector on the scatter indices' axis 1. -/
abbrev rowsDims : ScatterDims (⟨2, ![N, K]⟩ : Shape) (⟨2, ![E, 1]⟩ : Shape) (⟨2, ![E, K]⟩ : Shape) := ⟨[1], [0], [0], 1, h⟩

/-- Update `j` reads its one start-index component at `(j 0, 0)` of the scatter indices. -/
theorem rows_siIdx (j : (⟨2, ![E, K]⟩ : Shape).Idx) (c : Fin (rowsDims h).scatterDimsToOperandDims.length) :
    (rowsDims h).siIdx j c = ix2 (j 0) (0 : Fin 1) := by
  funext b; refine Fin.ext ?_
  match b with
  | ⟨0, _⟩ => rfl
  | ⟨1, _⟩ =>
    show c.val = 0
    have : c.val < 1 := c.isLt
    omega

/-- On operand axis 0 the window starts at the index word of update row `j 0`, read signed. -/
theorem rows_start0 (j : (⟨2, ![E, K]⟩ : Shape).Idx) (idx : IVec (⟨2, ![E, 1]⟩ : Shape) w) (h0) :
    (rowsDims h).start j idx ⟨0, h0⟩ = (idx (ix2 (j 0) (0 : Fin 1))).toInt := by
  have hm : (⟨0, h0⟩ : Fin (⟨2, ![N, K]⟩ : Shape).rank) ∈ (rowsDims h).scatterDimsToOperandDims := by
    show (0 : Fin 2) ∈ ([0] : List (Fin 2)); decide
  unfold ScatterDims.start
  rw [dif_pos hm, rows_siIdx h j]
  rfl

/-- No start index names operand axis 1: the window starts at 0 there. -/
theorem rows_start1 (j : (⟨2, ![E, K]⟩ : Shape).Idx) (idx : IVec (⟨2, ![E, 1]⟩ : Shape) w) (h1) :
    (rowsDims h).start j idx ⟨1, h1⟩ = 0 := by
  have hm : (⟨1, h1⟩ : Fin (⟨2, ![N, K]⟩ : Shape).rank) ∉ (rowsDims h).scatterDimsToOperandDims := by
    show (1 : Fin 2) ∉ ([0] : List (Fin 2)); decide
  unfold ScatterDims.start
  rw [dif_neg hm]

/-- Operand axis 0 is inserted: window coordinate 0. -/
theorem rows_window0 (j : (⟨2, ![E, K]⟩ : Shape).Idx) (h0) : (rowsDims h).window j ⟨0, h0⟩ = 0 := by
  have hm : (⟨0, h0⟩ : Fin (⟨2, ![N, K]⟩ : Shape).rank) ∉ (rowsDims h).sKept := by
    show (0 : Fin 2) ∉ (List.finRange 2).filter (· ∉ ([0] : List (Fin 2))); decide
  unfold ScatterDims.window
  rw [dif_neg hm]

/-- On operand axis 1 the window coordinate is the update's column. -/
theorem rows_window1 (j : (⟨2, ![E, K]⟩ : Shape).Idx) (h1) : (rowsDims h).window j ⟨1, h1⟩ = (j 1).val := by
  have hm : (⟨1, h1⟩ : Fin (⟨2, ![N, K]⟩ : Shape).rank) ∈ (rowsDims h).sKept := by
    show (1 : Fin 2) ∈ (List.finRange 2).filter (· ∉ ([0] : List (Fin 2))); decide
  unfold ScatterDims.window
  rw [dif_pos hm]
  rfl

/-- Update `j` lands on `(n, k)` exactly when its row's index word, read signed, is `n` and its column is `k`. -/
theorem rows_resultIdx_iff (j : (⟨2, ![E, K]⟩ : Shape).Idx) (idx : IVec (⟨2, ![E, 1]⟩ : Shape) w)
    (n : Fin N) (k : Fin K) :
    (rowsDims h).resultIdx? j idx = some (ix2 n k) ↔
      (idx (ix2 (j 0) (0 : Fin 1))).toInt = (n.val : ℤ) ∧ j 1 = k := by
  unfold ScatterDims.resultIdx?
  split
  · rename_i hb
    rw [Option.some.injEq]
    constructor
    · intro he
      have e0 := congrArg Fin.val (congrFun he ⟨0, Nat.zero_lt_two⟩)
      have e1 := congrArg Fin.val (congrFun he ⟨1, Nat.one_lt_two⟩)
      have b0 := (hb ⟨0, Nat.zero_lt_two⟩).1
      simp only [rows_start0, rows_start1, rows_window0, rows_window1] at e0 e1 b0
      refine ⟨?_, Fin.ext ?_⟩
      · change _ = n.val at e0; omega
      · change _ = k.val at e1; omega
    · rintro ⟨hn, hk⟩
      funext a; refine Fin.ext ?_
      match a with
      | ⟨0, h0⟩ =>
        show ((rowsDims h).start j idx ⟨0, h0⟩ + ((rowsDims h).window j ⟨0, h0⟩ : ℕ)).toNat = n.val
        rw [rows_start0, rows_window0, hn]; omega
      | ⟨1, h1⟩ =>
        show ((rowsDims h).start j idx ⟨1, h1⟩ + ((rowsDims h).window j ⟨1, h1⟩ : ℕ)).toNat = k.val
        rw [rows_start1, rows_window1, hk]; omega
  · rename_i hb
    constructor
    · intro he; cases he
    · rintro ⟨hn, hk⟩
      exfalso; apply hb
      intro a
      match a with
      | ⟨0, _⟩ =>
        show 0 ≤ _ ∧ _ < ((N : ℕ) : ℤ)
        rw [rows_start0, rows_window0, hn]; have := n.isLt; omega
      | ⟨1, _⟩ =>
        show 0 ≤ _ ∧ _ < ((K : ℕ) : ℤ)
        rw [rows_start1, rows_window1, hk]; have := k.isLt; omega

/-- The scatter at `(n, k)`, over the named dimension numbers. -/
theorem rows_sum (x : (⟨2, ![N, K]⟩ : Shape).Idx → EReal) (idx : IVec (⟨2, ![E, 1]⟩ : Shape) w)
    (upd : (⟨2, ![E, K]⟩ : Shape).Idx → EReal) (n : Fin N) (k : Fin K) :
    Ideal.hostScatterAdd (rowsDims h) x idx upd (ix2 n k)
      = x (ix2 n k) + ∑ e ∈ Finset.univ.filter (fun e : Fin E => (idx (ix2 e (0 : Fin 1))).toInt = (n.val : ℤ)), upd (ix2 e k) := by
  unfold Ideal.hostScatterAdd
  congr 1
  rw [Finset.sum_filter, Finset.sum_filter, sum_idx2]
  refine Finset.sum_congr rfl fun e _ => ?_
  have hiff : ∀ b : Fin K, ((rowsDims h).resultIdx? (ix2 e b) idx = some (ix2 n k)) ↔
      ((idx (ix2 e (0 : Fin 1))).toInt = (n.val : ℤ) ∧ b = k) := fun b => rows_resultIdx_iff h (ix2 e b) idx n k
  simp only [hiff]
  by_cases hp : (idx (ix2 e (0 : Fin 1))).toInt = (n.val : ℤ)
  · simp only [hp, true_and, if_true, Finset.sum_ite_eq', Finset.mem_univ]
  · simp only [hp, false_and, if_false, Finset.sum_const_zero]
end Rows

section Vec
variable {N E w : Nat}
  (h : ScatterDims.WF (⟨1, ![N]⟩ : Shape) (⟨2, ![E, 1]⟩ : Shape) (⟨1, ![E]⟩ : Shape) [] [0] [0] 1)

/-- The dimension numbers: no update window axis, inserted operand axis 0, start indices for operand axis 0, the index
    vector on the scatter indices' axis 1. -/
abbrev vecDims : ScatterDims (⟨1, ![N]⟩ : Shape) (⟨2, ![E, 1]⟩ : Shape) (⟨1, ![E]⟩ : Shape) := ⟨[], [0], [0], 1, h⟩

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Update `j` reads its one start-index component at `(j 0, 0)` of the scatter indices. -/
theorem vec_siIdx (j : (⟨1, ![E]⟩ : Shape).Idx) (c : Fin (vecDims h).scatterDimsToOperandDims.length) :
    (vecDims h).siIdx j c = ix2 (j 0) (0 : Fin 1) := by
  funext b; refine Fin.ext ?_
  match b with
  | ⟨0, _⟩ => rfl
  | ⟨1, _⟩ =>
    show c.val = 0
    have : c.val < 1 := c.isLt
    omega

/-- On the operand's one axis the window starts at the index word of update `j 0`, read signed. -/
theorem vec_start0 (j : (⟨1, ![E]⟩ : Shape).Idx) (idx : IVec (⟨2, ![E, 1]⟩ : Shape) w) (h0) :
    (vecDims h).start j idx ⟨0, h0⟩ = (idx (ix2 (j 0) (0 : Fin 1))).toInt := by
  have hm : (⟨0, h0⟩ : Fin (⟨1, ![N]⟩ : Shape).rank) ∈ (vecDims h).scatterDimsToOperandDims := by
    show (0 : Fin 1) ∈ ([0] : List (Fin 1)); decide
  unfold ScatterDims.start
  rw [dif_pos hm, vec_siIdx h j]
  rfl

/-- The operand's one axis is inserted: window coordinate 0. -/
theorem vec_window0 (j : (⟨1, ![E]⟩ : Shape).Idx) (h0) : (vecDims h).window j ⟨0, h0⟩ = 0 := by
  have hm : (⟨0, h0⟩ : Fin (⟨1, ![N]⟩ : Shape).rank) ∉ (vecDims h).sKept := by
    show (0 : Fin 1) ∉ (List.finRange 1).filter (· ∉ ([0] : List (Fin 1))); decide
  unfold ScatterDims.window
  rw [dif_neg hm]

/-- Update `j` lands on `n` exactly when its index word, read signed, is `n`. -/
theorem vec_resultIdx_iff (j : (⟨1, ![E]⟩ : Shape).Idx) (idx : IVec (⟨2, ![E, 1]⟩ : Shape) w) (n : Fin N) :
    (vecDims h).resultIdx? j idx = some (ix1 n) ↔ (idx (ix2 (j 0) (0 : Fin 1))).toInt = (n.val : ℤ) := by
  unfold ScatterDims.resultIdx?
  split
  · rename_i hb
    rw [Option.some.injEq]
    constructor
    · intro he
      have e0 := congrArg Fin.val (congrFun he ⟨0, Nat.zero_lt_one⟩)
      have b0 := (hb ⟨0, Nat.zero_lt_one⟩).1
      simp only [vec_start0, vec_window0] at e0 b0
      change _ = n.val at e0; omega
    · intro hn
      funext a; refine Fin.ext ?_
      match a with
      | ⟨0, h0⟩ =>
        show ((vecDims h).start j idx ⟨0, h0⟩ + ((vecDims h).window j ⟨0, h0⟩ : ℕ)).toNat = n.val
        rw [vec_start0, vec_window0, hn]; omega
  · rename_i hb
    constructor
    · intro he; cases he
    · intro hn
      exfalso; apply hb
      intro a
      match a with
      | ⟨0, _⟩ =>
        show 0 ≤ _ ∧ _ < ((N : ℕ) : ℤ)
        rw [vec_start0, vec_window0, hn]; have := n.isLt; omega

/-- The scatter at `n`, over the named dimension numbers. -/
theorem vec_sum (x : (⟨1, ![N]⟩ : Shape).Idx → EReal) (idx : IVec (⟨2, ![E, 1]⟩ : Shape) w)
    (upd : (⟨1, ![E]⟩ : Shape).Idx → EReal) (n : Fin N) :
    Ideal.hostScatterAdd (vecDims h) x idx upd (ix1 n)
      = x (ix1 n) + ∑ e ∈ Finset.univ.filter (fun e : Fin E => (idx (ix2 e (0 : Fin 1))).toInt = (n.val : ℤ)), upd (ix1 e) := by
  unfold Ideal.hostScatterAdd
  congr 1
  rw [Finset.sum_filter, Finset.sum_filter, sum_idx1]
  refine Finset.sum_congr rfl fun e _ => ?_
  have hiff : ((vecDims h).resultIdx? (ix1 e) idx = some (ix1 n)) ↔
      ((idx (ix2 e (0 : Fin 1))).toInt = (n.val : ℤ)) := vec_resultIdx_iff h (ix1 e) idx n
  simp only [hiff]
end Vec

/-! ## The three layouts, over their literal dimension numbers -/

/-- An accumulating scatter whose window axis is axis 0 and whose scattered axis is axis 1 (operand `[C, N]`,
    one index word per update column in `[E, 1]`, updates `[C, E]`), read at `(c, n)`: the operand's element plus
    the sum of the updates `(c, e)` over the columns `e` whose index word, read signed, is `n`. -/
theorem scatterAdd_cols {C N E w : Nat}
    (h : ScatterDims.WF (⟨2, ![C, N]⟩ : Shape) (⟨2, ![E, 1]⟩ : Shape) (⟨2, ![C, E]⟩ : Shape) [0] [1] [1] 1)
    (x : (⟨2, ![C, N]⟩ : Shape).Idx → EReal) (idx : IVec (⟨2, ![E, 1]⟩ : Shape) w) (upd : (⟨2, ![C, E]⟩ : Shape).Idx → EReal)
    (c : Fin C) (n : Fin N) :
    Ideal.hostScatterAdd (⟨[0], [1], [1], 1, h⟩ : ScatterDims (⟨2, ![C, N]⟩ : Shape) (⟨2, ![E, 1]⟩ : Shape) (⟨2, ![C, E]⟩ : Shape)) x idx upd (ix2 c n)
      = x (ix2 c n) + ∑ e ∈ Finset.univ.filter (fun e : Fin E => (idx (ix2 e (0 : Fin 1))).toInt = (n.val : ℤ)), upd (ix2 c e) := by
  exact cols_sum h x idx upd c n

/-- An accumulating scatter whose scattered axis is axis 0 and whose window axis is axis 1 (operand `[N, K]`,
    one index word per update row in `[E, 1]`, updates `[E, K]`), read at `(n, k)`: the operand's element plus
    the sum of the updates `(e, k)` over the rows `e` whose index word, read signed, is `n`. -/
theorem scatterAdd_rows {N K E w : Nat}
    (h : ScatterDims.WF (⟨2, ![N, K]⟩ : Shape) (⟨2, ![E, 1]⟩ : Shape) (⟨2, ![E, K]⟩ : Shape) [1] [0] [0] 1)
    (x : (⟨2, ![N, K]⟩ : Shape).Idx → EReal) (idx : IVec (⟨2, ![E, 1]⟩ : Shape) w) (upd : (⟨2, ![E, K]⟩ : Shape).Idx → EReal)
    (n : Fin N) (k : Fin K) :
    Ideal.hostScatterAdd (⟨[1], [0], [0], 1, h⟩ : ScatterDims (⟨2, ![N, K]⟩ : Shape) (⟨2, ![E, 1]⟩ : Shape) (⟨2, ![E, K]⟩ : Shape)) x idx upd (ix2 n k)
      = x (ix2 n k) + ∑ e ∈ Finset.univ.filter (fun e : Fin E => (idx (ix2 e (0 : Fin 1))).toInt = (n.val : ℤ)), upd (ix2 e k) := by
  exact rows_sum h x idx upd n k

/-- An accumulating scatter into a vector (operand `[N]`, one index word per update in `[E, 1]`, updates `[E]`,
    no window axis), read at `n`: the operand's element plus the sum of the updates `e` whose index word, read
    signed, is `n`. -/
theorem scatterAdd_vec {N E w : Nat}
    (h : ScatterDims.WF (⟨1, ![N]⟩ : Shape) (⟨2, ![E, 1]⟩ : Shape) (⟨1, ![E]⟩ : Shape) [] [0] [0] 1)
    (x : (⟨1, ![N]⟩ : Shape).Idx → EReal) (idx : IVec (⟨2, ![E, 1]⟩ : Shape) w) (upd : (⟨1, ![E]⟩ : Shape).Idx → EReal)
    (n : Fin N) :
    Ideal.hostScatterAdd (⟨[], [0], [0], 1, h⟩ : ScatterDims (⟨1, ![N]⟩ : Shape) (⟨2, ![E, 1]⟩ : Shape) (⟨1, ![E]⟩ : Shape)) x idx upd (ix1 n)
      = x (ix1 n) + ∑ e ∈ Finset.univ.filter (fun e : Fin E => (idx (ix2 e (0 : Fin 1))).toInt = (n.val : ℤ)), upd (ix1 e) := by
  exact vec_sum h x idx upd n

end Cert.LibScatterSum

end
-- ==== Proof.LibGatherRows.lean ====
/-
  A GATHER OF WHOLE ROWS, READ AT AN INDEX.

  A gather of an operand `[N, K]` at start indices `[E, 1]` with offset axis 1, collapsed operand axis 0, start index map
  `[0]`, the index vector on axis 1 of the start indices and slices `[1, K]` produces a result `[E, K]`. Its operand index
  for the result index `(e, k)` is, axis by axis, "clamped start + batching coordinate + offset coordinate":

    * on axis 0, which is in the start index map, the start is the word `idx (e, 0)` read signed, as a natural number,
      clamped to `N − 1` (the size `N` minus the slice size `1`); there is no batching axis, and axis 0 is collapsed, so
      the other two summands are `0`;
    * on axis 1, which is not in the start index map, the start is `0`; there is no batching axis; axis 1 is the only kept
      operand axis, it is read by the only offset axis of the result, axis 1, so the offset coordinate is `k`.

  Hence the result at `(e, k)` is the operand at `(min (idx (e, 0)).toInt.toNat (N − 1), k)`.
-/
import Idealize.ShloMosaic.PureOps.Ideal
import Idealize.ShloMosaic.Lib.ValueIdx

noncomputable section

open Idealize.ShloMosaic Idealize.ShloMosaic.ValueIdx

namespace Cert.LibGatherRows

/-- The dimension numbers of a row gather: operand `[N, K]`, one start-index word per result row in `[E, 1]`, result
    `[E, K]`; offset axis 1, collapsed operand axis 0, start indices for operand axis 0, the index vector on the start
    indices' axis 1, slices of one whole row. -/
abbrev rowsDims {N K E : Nat}
    (wf : GatherDims.WF (⟨2, ![N, K]⟩ : Shape) (⟨2, ![E, 1]⟩ : Shape) (⟨2, ![E, K]⟩ : Shape) [1] [0] [] [0] [] 1 ![1, K]) :
    GatherDims (⟨2, ![N, K]⟩ : Shape) (⟨2, ![E, 1]⟩ : Shape) (⟨2, ![E, K]⟩ : Shape) where
  offsetDims := [1]
  collapsedSliceDims := [0]
  operandBatchingDims := []
  startIndicesBatchingDims := []
  startIndexMap := [0]
  indexVectorDim := 1
  sliceSizes := ![1, K]
  wf := wf

/-- The start-indices index at which the result index `(e, k)` reads the only component of its start index is `(e, 0)`:
    the batch coordinate `e` on axis 0 and the component number `0` on the index vector's axis 1. -/
theorem rows_siIdx {N K E : Nat}
    (wf : GatherDims.WF (⟨2, ![N, K]⟩ : Shape) (⟨2, ![E, 1]⟩ : Shape) (⟨2, ![E, K]⟩ : Shape) [1] [0] [] [0] [] 1 ![1, K])
    (e : Fin E) (k : Fin K) (h : List.idxOf (0 : Fin 2) (rowsDims wf).startIndexMap < (rowsDims wf).startIndexMap.length) :
    (rowsDims wf).siIdx (ix2 e k) ⟨List.idxOf (0 : Fin 2) (rowsDims wf).startIndexMap, h⟩ = ix2 e (0 : Fin 1) := by
  funext b
  refine Fin.ext ?_
  match b with
  | ⟨0, _⟩ => rfl
  | ⟨1, _⟩ => rfl

/-- On operand axis 0 the row gather's operand index for `(e, k)` is the start-index word of `e` read signed and clamped
    to `N − 1`: axis 0 is in the start index map with slice size 1, it is no batching axis, and it is collapsed. -/
theorem rows_coord0 {N K E w : Nat}
    (wf : GatherDims.WF (⟨2, ![N, K]⟩ : Shape) (⟨2, ![E, 1]⟩ : Shape) (⟨2, ![E, K]⟩ : Shape) [1] [0] [] [0] [] 1 ![1, K])
    (idx : IVec (⟨2, ![E, 1]⟩ : Shape) w) (e : Fin E) (k : Fin K) :
    (rowsDims wf).start (ix2 e k) idx 0 + (rowsDims wf).batchCoord (ix2 e k) 0 + (rowsDims wf).offCoord (ix2 e k) 0
      = min (idx (ix2 e (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims wf).startIndexMap from List.mem_singleton.mpr rfl)]
  rw [rows_siIdx wf e k]
  rfl

/-- On operand axis 1 the row gather's operand index for `(e, k)` is `k`: axis 1 is not in the start index map (start 0),
    it is no batching axis, and it is the kept operand axis the result's offset axis 1 reads. -/
theorem rows_coord1 {N K E w : Nat}
    (wf : GatherDims.WF (⟨2, ![N, K]⟩ : Shape) (⟨2, ![E, 1]⟩ : Shape) (⟨2, ![E, K]⟩ : Shape) [1] [0] [] [0] [] 1 ![1, K])
    (idx : IVec (⟨2, ![E, 1]⟩ : Shape) w) (e : Fin E) (k : Fin K) :
    (rowsDims wf).start (ix2 e k) idx 1 + (rowsDims wf).batchCoord (ix2 e k) 1 + (rowsDims wf).offCoord (ix2 e k) 1
      = k.val := by
  rw [GatherDims.batchCoord_eq_zero _ _ _ List.not_mem_nil]
  have hs : (rowsDims wf).start (ix2 e k) idx 1 = 0 := by
    unfold GatherDims.start
    rw [dif_neg (show ¬ (1 : Fin 2) ∈ (rowsDims wf).startIndexMap from (by decide : (1 : Fin 2) ∉ ([0] : List (Fin 2))))]
  rw [hs]
  simp only [Nat.add_zero, Nat.zero_add]
  unfold GatherDims.offCoord
  rw [dif_pos (show (1 : Fin 2) ∈ (rowsDims wf).sKept from
    (GatherDims.mem_sKept _ _).mpr ⟨(by decide : (1 : Fin 2) ∉ ([0] : List (Fin 2))), List.not_mem_nil⟩)]
  rfl

/-- THE ROW GATHER READ AT `(e, k)`: the operand's row at the start-index word of `e`, read signed and clamped into
    `[0, N − 1]`, at column `k`. -/
theorem gather_rows_apply {α : Type} {N K E w : Nat} (hN : 0 < N)
    (wf : GatherDims.WF (⟨2, ![N, K]⟩ : Shape) (⟨2, ![E, 1]⟩ : Shape) (⟨2, ![E, K]⟩ : Shape) [1] [0] [] [0] [] 1 ![1, K])
    (x : (⟨2, ![N, K]⟩ : Shape).Idx → α) (idx : IVec (⟨2, ![E, 1]⟩ : Shape) w) (e : Fin E) (k : Fin K) :
    Host.gather (rowsDims wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ => exact rows_coord0 wf idx e k
  | ⟨1, _⟩ => exact rows_coord1 wf idx e k

end Cert.LibGatherRows

end
-- ==== Proof.RefValue.lean ====
/- The reference's result read at a row and a column. -/
import proofs.«403000_j1451698946636_3_alg».proof.Proof.Gen.ReferenceIdeal.Read
import proofs.«403000_j1451698946636_3_alg».proof.Proof.Spec
import proofs.«403000_j1451698946636_3_alg».proof.Proof.LibScatterSum
import proofs.«403000_j1451698946636_3_alg».proof.Proof.LibGatherRows
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.GraphNorm

open Cert.ReferenceIdeal.Read Cert.ReferenceIdeal.Gen

/-! ## Words: the wrapped identifier -/

/-- A one-bit word made from a truth value is 1 exactly when the value is true. -/
private theorem ofBool_one_iff (b : Bool) : BitVec.ofBool b = 1#1 ↔ b = true := by cases b <;> decide

/-- "Signed less than zero, then add 256, else keep" is the wrap of the specification. -/
theorem select_wrap (s : BitVec 32) :
    Scalar.select (IntOp.cmpi .slt s 0#32) (IntOp.addi s 256#32) s = wrap s := by
  have hc : (IntOp.cmpi .slt s 0#32 = 1) ↔ s.toInt < 0 := by
    unfold IntOp.cmpi
    show BitVec.ofBool (s.slt 0#32) = 1#1 ↔ _
    rw [ofBool_one_iff, BitVec.slt, decide_eq_true_iff]
    rfl
  unfold Scalar.select wrap IntOp.addi
  by_cases h : s.toInt < 0
  · rw [if_pos (hc.mpr h), if_pos h]
  · rw [if_neg (fun hh => h (hc.mp hh)), if_neg h]

/-! ## Index maps of the layout stages, at coordinates -/

/-- The one-word index column read at a row is the identifier of the row. -/
theorem idx2_row (e : Fin 500000) : idx_main_v2 (ix2 e (0 : Fin 1)) = ix1 e := by
  funext a; refine Fin.ext ?_; match a with | ⟨0, _⟩ => rfl

/-- The same, for each of the stages that lay the identifiers (or the wrapped identifiers) out as a column. -/
theorem idx5_row (e : Fin 500000) : idx_main_v5 (ix2 e (0 : Fin 1)) = ix1 e := by
  funext a; refine Fin.ext ?_; match a with | ⟨0, _⟩ => rfl
theorem idx15_row (e : Fin 500000) : idx_main_v15 (ix2 e (0 : Fin 1)) = ix1 e := by
  funext a; refine Fin.ext ?_; match a with | ⟨0, _⟩ => rfl
theorem idx20_row (e : Fin 500000) : idx_main_v20 (ix2 e (0 : Fin 1)) = ix1 e := by
  funext a; refine Fin.ext ?_; match a with | ⟨0, _⟩ => rfl
theorem idx33_row (e : Fin 500000) : idx_main_v33 (ix2 e (0 : Fin 1)) = ix1 e := by
  funext a; refine Fin.ext ?_; match a with | ⟨0, _⟩ => rfl

/-- A per-segment vector spread over the columns is read at the segment. -/
theorem idx78 (g : Fin 256) (f : Fin 128) : idx_main_v7 (idx_main_v8 (ix2 g f)) = ix1 g := by
  funext a; refine Fin.ext ?_; match a with | ⟨0, _⟩ => rfl

theorem idx2425 (g : Fin 256) (f : Fin 128) : idx_main_v24 (idx_main_v25 (ix2 g f)) = ix1 g := by
  funext a; refine Fin.ext ?_; match a with | ⟨0, _⟩ => rfl

/-- A per-column vector spread over the rows is read at the column. -/
theorem idx3839 (n : Fin 500000) (f : Fin 128) : idx_main_v38 (idx_main_v39 (ix2 n f)) = ix1 f := by
  funext a; refine Fin.ext ?_; match a with | ⟨0, _⟩ => rfl

theorem idx4142 (n : Fin 500000) (f : Fin 128) : idx_main_v41 (idx_main_v42 (ix2 n f)) = ix1 f := by
  funext a; refine Fin.ext ?_; match a with | ⟨0, _⟩ => rfl

section
variable (x0 : (⟨S500000x128, .f32⟩ : BufTy).Contents (Elt Ideal)) (x1 : (⟨S500000, .i32⟩ : BufTy).Contents (Elt Ideal))
  (x2 x3 : (⟨S128, .f32⟩ : BufTy).Contents (Elt Ideal))

local notation "sg" => (fun e : Fin 500000 => x1 (ix1 e))
local notation "hh" => (fun (e : Fin 500000) (k : Fin 128) => x0 (ix2 e k))
local notation "one1" => (Ideal.ofBits FTy.f32 0x3F800000#32)

/-! ## The counts, the sums and the means of the segments -/

/-- The count of segment g: zero plus a one for every row whose identifier, read signed, is g. -/
theorem v3_apply (g : Fin 256) :
    val_main_v3 (F := Ideal) x1 (ix1 g) = cntR sg one1 g := by
  unfold val_main_v3 Host.scatterAdd
  rw [Ideal.hostScatterAdd_def]
  refine (Cert.LibScatterSum.scatterAdd_vec scatter_S256_S500000x1_S500000_n_0_0_1.wf _ _ _ g).trans ?_
  unfold cntR segSet
  simp only [val_main_v1_apply, val_main_cst_0_apply, val_main_v2_apply, idx2_row, val_main_v0_apply, val_main_cst_apply,
    Ideal.ofBits_def, Ideal.ofBits_zero_f32]

/-- The sum of segment g at column f: zero plus the rows of the segment. -/
theorem v6_apply (g : Fin 256) (f : Fin 128) :
    val_main_v6 (F := Ideal) x0 x1 (ix2 g f) = sumR sg hh g f := by
  unfold val_main_v6 Host.scatterAdd
  rw [Ideal.hostScatterAdd_def]
  refine (Cert.LibScatterSum.scatterAdd_rows scatter_S256x128_S500000x1_S500000x128_1_0_0_1.wf _ _ _ g f).trans ?_
  unfold sumR segSet
  simp only [val_main_v4_apply, val_main_cst_1_apply, val_main_v5_apply, idx5_row,
    Ideal.ofBits_def, Ideal.ofBits_zero_f32]

/-- The count spread over the columns. -/
theorem v8_apply (g : Fin 256) (f : Fin 128) :
    val_main_v8 (F := Ideal) x1 (ix2 g f) = cntR sg one1 g := by
  rw [val_main_v8_apply, val_main_v7_apply, idx78, v3_apply]

/-- The mean of segment g at column f. -/
theorem v9_apply (g : Fin 256) (f : Fin 128) :
    val_main_v9 (F := Ideal) x0 x1 (ix2 g f) = meanR sg hh one1 g f := by
  rw [val_main_v9_apply, Ideal.hostDivf_def, v6_apply, v8_apply]
  rfl

/-! ## The gathers -/

/-- The gather's index word of row n is the wrapped identifier of the row. -/
theorem v15_apply (n : Fin 500000) :
    val_main_v15 (F := Ideal) x1 (ix2 n (0 : Fin 1)) = wrap (x1 (ix1 n)) := by
  rw [val_main_v15_apply, idx15_row, val_main_v14_apply, val_main_v11_apply, val_main_v13_apply,
    val_main_v10_apply, val_main_c_apply, val_main_v12_apply, val_main_c_2_apply, select_wrap]

/-- The same word, at the second gather. -/
theorem v33_apply (n : Fin 500000) :
    val_main_v33 (F := Ideal) x1 (ix2 n (0 : Fin 1)) = wrap (x1 (ix1 n)) := by
  rw [val_main_v33_apply, idx33_row, val_main_v32_apply, val_main_v29_apply, val_main_v31_apply,
    val_main_v28_apply, val_main_c_5_apply, val_main_v30_apply, val_main_c_6_apply, select_wrap]

/-- A whole-row gather from a per-segment table reads the table at the segment the row is gathered from. -/
theorem gather_gidx (t : (⟨S256x128, .f32⟩ : BufTy).Contents (Elt Ideal))
    (ix : (⟨S500000x1, .i32⟩ : BufTy).Contents (Elt Ideal)) (n : Fin 500000) (f : Fin 128)
    (hix : ix (ix2 n (0 : Fin 1)) = wrap (x1 (ix1 n))) :
    Host.gather gather_S256x128_S500000x1_S500000x128_1_0_n_n_0_1_1128 t ix (ix2 n f) = t (ix2 (gidx sg n) f) := by
  refine (Cert.LibGatherRows.gather_rows_apply (by norm_num) gather_S256x128_S500000x1_S500000x128_1_0_n_n_0_1_1128.wf t ix n f).trans ?_
  refine congrArg (fun a => t (ix2 a f)) (Fin.ext ?_)
  show min (ix (ix2 n (0 : Fin 1))).toInt.toNat (256 - 1) = min (wrap (x1 (ix1 n))).toInt.toNat 255
  rw [hix]

/-- The mean of the segment of row n. -/
theorem v16_apply (n : Fin 500000) (f : Fin 128) :
    val_main_v16 (F := Ideal) x0 x1 (ix2 n f) = meanR sg hh one1 (gidx sg n) f := by
  unfold val_main_v16
  rw [gather_gidx x1 _ _ n f (v15_apply x1 n), v9_apply]

/-- The deviation of row n from the mean of its segment. -/
theorem v17_apply (n : Fin 500000) (f : Fin 128) :
    val_main_v17 (F := Ideal) x0 x1 (ix2 n f) = diffR sg hh one1 n f := by
  rw [val_main_v17_apply, Ideal.subf_def, v16_apply]
  rfl

/-! ## The variance and the deviation of the segments -/

/-- The sum of squared deviations of segment g at column f. -/
theorem v21_apply (g : Fin 256) (f : Fin 128) :
    val_main_v21 (F := Ideal) x0 x1 (ix2 g f) = ssdR sg hh one1 g f := by
  unfold val_main_v21 Host.scatterAdd
  rw [Ideal.hostScatterAdd_def]
  refine (Cert.LibScatterSum.scatterAdd_rows scatter_S256x128_S500000x1_S500000x128_1_0_0_1.wf _ _ _ g f).trans ?_
  unfold ssdR segSet
  simp only [val_main_v19_apply, val_main_cst_3_apply, val_main_v20_apply, idx20_row, val_main_v18_apply, v17_apply,
    Ideal.mulf_def, Ideal.ofBits_def, Ideal.ofBits_zero_f32]

/-- The count less one, spread over the columns. -/
theorem v25_apply (g : Fin 256) (f : Fin 128) :
    val_main_v25 (F := Ideal) x1 (ix2 g f) = cntR sg one1 g - one1 := by
  rw [val_main_v25_apply, val_main_v24_apply, idx2425, val_main_v23_apply, Ideal.subf_def, v3_apply,
    val_main_v22_apply, val_main_cst_4_apply, Ideal.ofBits_def]

/-- The unbiased variance of segment g at column f. -/
theorem v26_apply (g : Fin 256) (f : Fin 128) :
    val_main_v26 (F := Ideal) x0 x1 (ix2 g f) = varR sg hh one1 g f := by
  rw [val_main_v26_apply, Ideal.hostDivf_def, v21_apply, v25_apply]
  rfl

/-- The deviation of the segment of row n. -/
theorem v34_apply (n : Fin 500000) (f : Fin 128) :
    val_main_v34 (F := Ideal) x0 x1 (ix2 n f) = Ideal.sqrt (varR sg hh one1 (gidx sg n) f) := by
  unfold val_main_v34
  rw [gather_gidx x1 _ _ n f (v33_apply x1 n), val_main_v27_apply, Ideal.hostUnary_sqrt_def, v26_apply]

end

/-- The reference's last stage at (n, f) is the specification's `outR` of the arguments read as functions of the rows. -/
theorem ref_apply (x0 : (⟨S500000x128, .f32⟩ : BufTy).Contents (Elt Ideal)) (x1 : (⟨S500000, .i32⟩ : BufTy).Contents (Elt Ideal))
    (x2 x3 : (⟨S128, .f32⟩ : BufTy).Contents (Elt Ideal)) (n : Fin 500000) (f : Fin 128) :
    Cert.ReferenceIdeal.Read.val_main_v43 (F := Ideal) x0 x1 x2 x3 (ix2 n f)
      = outR (fun e => x1 (ix1 e)) (fun e k => x0 (ix2 e k)) (fun k => x2 (ix1 k)) (fun k => x3 (ix1 k))
          (Ideal.ofBits .f32 0x3F800000#32) (Ideal.ofBits .f32 0x3727C5AC#32) n f := by
  rw [val_main_v43_apply, Ideal.addf_def, val_main_v40_apply, Ideal.mulf_def, val_main_v39_apply, val_main_v38_apply, idx3839,
    val_main_v42_apply, val_main_v41_apply, idx4142, val_main_v37_apply, Ideal.hostDivf_def, v17_apply,
    val_main_v36_apply, Ideal.addf_def, v34_apply, val_main_v35_apply, val_main_cst_7_apply, Ideal.ofBits_def]
  rfl

end Cert.ReferenceIdeal.RefValue

end
-- ==== Proof.PreFacts.lean ====
/- What the precondition says of the inputs: the printed predicate, all ones, read back entry by entry. -/
import proofs.«403000_j1451698946636_3_alg».proof.Pre_finite_inputs
import proofs.«403000_j1451698946636_3_alg».proof.Proof.Gen.Pre_finite_inputs
import Idealize.ShloMosaic.PureOps.Ideal.Laws
import Idealize.ShloMosaic.Lib.ReduceAll
import Idealize.ShloMosaic.Lib.ValueIdx
import Idealize.ShloMosaic.Lib.StableHlo.Predicate

noncomputable section

open Idealize.ShloMosaic

namespace Cert.PreFacts

open Cert.Pre_finite_inputs

/-- The rank-0 shape has exactly one index: a conjunction over all axes lands in a single word. -/
private instance : Subsingleton S_.Idx := ⟨fun a b => funext fun d => d.elim0⟩

/-- The f32 pattern with all-ones exponent, zero significand and clear sign denotes `+∞`. -/
private theorem ofBits_inf : Ideal.ofBits .f32 0x7F800000#32 = (⊤ : EReal) := by
  simp [Ideal.ofBits, Ideal.ieee]

/-- On the extended reals `|x| = max x (-x)` is strictly below `+∞` only when `x` is neither infinity:
    at `⊥` and at `⊤` the maximum is `⊤`. -/
private theorem abs_lt_top (x : EReal)
    (h : Ideal.cmp .olt (max x (-x)) (Ideal.ofBits .f32 0x7F800000#32) = 1#1) : x ≠ ⊥ ∧ x ≠ ⊤ := by
  rw [ofBits_inf] at h
  simp only [Ideal.cmp, StableHlo.Predicate.ofBool_eq_one_iff, decide_eq_true_eq] at h
  induction x using EReal.rec with
  | bot => simp at h
  | top => simp at h
  | coe r => exact ⟨EReal.coe_ne_bot r, EReal.coe_ne_top r⟩

/-- If the printed precondition is all ones, every float input entry is a real number and every identifier, read signed,
    lies in `[0, 256)`. -/
theorem decode [Cert.Pre_finite_inputs.Facts] (x0 : FVec Ideal S500000x128 .f32) (x1 : IVec S500000 32)
    (x2 x3 : FVec Ideal S128 .f32)
    (hp : Cert.Pre_finite_inputs.fn (F := Ideal) x0 x1 x2 x3 = fun _ => 1#1) :
    (∀ i, x0 i ≠ ⊥ ∧ x0 i ≠ ⊤) ∧ (∀ i, x2 i ≠ ⊥ ∧ x2 i ≠ ⊤) ∧ (∀ i, x3 i ≠ ⊥ ∧ x3 i ≠ ⊤)
      ∧ (∀ i, 0 ≤ (x1 i).toInt ∧ (x1 i).toInt < 256) := by
  -- the predicate at its one index: a conjunction of four universally quantified bits
  have h0 := congrFun hp ValueIdx.ix0
  dsimp only [fn, fn_part1] at h0
  -- a conjunction of bits is one exactly when each conjunct is
  obtain ⟨h123, h4⟩ := IntOp.andi_eq_one.1 h0
  obtain ⟨h12, h3⟩ := IntOp.andi_eq_one.1 h123
  obtain ⟨h1, h2⟩ := IntOp.andi_eq_one.1 h12
  -- a conjunction over every entry that is one had a one at every entry
  refine ⟨fun i => ?_, fun i => ?_, fun i => ?_, fun i => ?_⟩
  · exact abs_lt_top (x0 i) (Host.reduce_andi_all _ _ _ _ _ h1 i)
  · exact abs_lt_top (x2 i) (Host.reduce_andi_all _ _ _ _ _ h2 i)
  · exact abs_lt_top (x3 i) (Host.reduce_andi_all _ _ _ _ _ h3 i)
  · -- the identifier's bit is itself a conjunction of two signed comparisons against the constants 0 and 256,
    -- each read at the entry as the constant
    obtain ⟨ha, hb⟩ := IntOp.andi_eq_one.1 (Host.reduce_andi_all _ _ _ _ _ h4 i)
    have ha' : (0#32 : BitVec 32).toInt ≤ (x1 i).toInt := IntOp.cmpi_sge.1 ha
    have hb' : (x1 i).toInt < (256#32 : BitVec 32).toInt := IntOp.cmpi_slt.1 hb
    have e0 : (0#32 : BitVec 32).toInt = 0 := by decide
    have e256 : (256#32 : BitVec 32).toInt = 256 := by decide
    rw [e0] at ha'
    rw [e256] at hb'
    exact ⟨ha', hb'⟩

end Cert.PreFacts

end
-- ==== Proof.LibSegmentSum.lean ====
import Mathlib.Data.EReal.Inv
import Mathlib.Algebra.BigOperators.Fin
import Mathlib.Algebra.BigOperators.Group.Finset.Basic
import Mathlib.Algebra.BigOperators.Group.Finset.Piecewise
import Mathlib.Data.Fintype.BigOperators
import Mathlib.Logic.Equiv.Fin.Basic

/-!
# Segment sums and gathers written as one-hot matrix products

A gather `h[src e]` can be computed as the product of a one-hot row `(src e = k)_k` with `h`,
and a scatter-add (segment sum) `∑_{e : dst e = n} m e` as the product of the transposed
one-hot matrix `(n = dst e)_e` with `m`; either product can be accumulated block by block.
The lemmas of this file say that these products are the plain gather and the plain segment sum,
over the extended reals (where `0 * x = 0` for every `x`, infinite ones included) and with
node identifiers read as 32-bit two's complement words.
-/

namespace Cert.LibSegmentSum

open Finset

/-! ## Sums read block by block -/

/-- The position `a * B + b` of the `b`-th entry of the `a`-th block lies below `A * B`. -/
theorem blk_lt {A B : ℕ} (a : Fin A) (b : Fin B) : a.val * B + b.val < A * B := by
  calc a.val * B + b.val < a.val * B + B := Nat.add_lt_add_left b.isLt _
    _ = (a.val + 1) * B := (Nat.succ_mul _ _).symm
    _ ≤ A * B := Nat.mul_le_mul_right _ a.isLt

/-- A sum over `A * B` positions is the sum over the `A` blocks of the sums over the `B`
positions `a * B + b` of each block. -/
theorem sum_blocks {M : Type*} [AddCommMonoid M] (A B : ℕ) (f : Fin (A * B) → M) :
    ∑ a : Fin A, ∑ b : Fin B, f ⟨a.val * B + b.val, blk_lt a b⟩ = ∑ n : Fin (A * B), f n := by
  calc ∑ a : Fin A, ∑ b : Fin B, f ⟨a.val * B + b.val, blk_lt a b⟩
      = ∑ x : Fin A × Fin B, f ⟨x.1.val * B + x.2.val, blk_lt x.1 x.2⟩ :=
        (Fintype.sum_prod_type' (fun a b => f ⟨a.val * B + b.val, blk_lt a b⟩)).symm
    _ = ∑ x : Fin A × Fin B, f (finProdFinEquiv x) := by
        refine Fintype.sum_congr _ _ fun x => congrArg f (Fin.ext ?_)
        show x.1.val * B + x.2.val = x.2.val + B * x.1.val
        rw [Nat.mul_comm, Nat.add_comm]
    _ = ∑ n : Fin (A * B), f n := Equiv.sum_comp finProdFinEquiv f

/-- An accumulator that starts at `0` and adds `g a` at step `a` holds `∑ a < A, g a`
after `A` steps. -/
theorem acc_eq_sum {M : Type*} [AddCommMonoid M] (A : ℕ) (g : ℕ → M) (acc : ℕ → M)
    (h0 : acc 0 = 0) (hs : ∀ a, a < A → acc (a + 1) = acc a + g a) :
    acc A = ∑ a : Fin A, g a.val := by
  induction A with
  | zero => simpa using h0
  | succ A ih =>
    rw [hs A (Nat.lt_succ_self A), ih (fun a ha => hs a (Nat.lt_succ_of_lt ha)),
      Fin.sum_univ_castSucc]
    rfl

/-- The accumulator recursion of a blocked sum: starting at `0` and adding at step `a` the
partial sum `0 + ∑ b, f (a * B + b)` of block `a` gives, after `A` steps, the whole sum. -/
theorem acc_blocks {M : Type*} [AddCommMonoid M] (A B : ℕ) (f : Fin (A * B) → M) (acc : ℕ → M)
    (h0 : acc 0 = 0)
    (hs : ∀ a (ha : a < A), acc (a + 1)
      = acc a + (0 + ∑ b : Fin B, f ⟨a * B + b.val, blk_lt ⟨a, ha⟩ b⟩)) :
    acc A = ∑ n : Fin (A * B), f n := by
  have h := acc_eq_sum A
    (fun a => if ha : a < A then (0 + ∑ b : Fin B, f ⟨a * B + b.val, blk_lt ⟨a, ha⟩ b⟩) else 0)
    acc h0 (fun a ha => by rw [hs a ha, dif_pos ha])
  rw [h, ← sum_blocks]
  refine Fintype.sum_congr _ _ fun a => ?_
  rw [dif_pos a.isLt, zero_add]

/-- `sum_blocks` at `125` blocks of `800`: a sum over `100000` positions. -/
theorem sum_blocks_125_800 {M : Type*} [AddCommMonoid M] (f : Fin 100000 → M) :
    ∑ a : Fin 125, ∑ b : Fin 800, f ⟨a.val * 800 + b.val, blk_lt (A := 125) a b⟩
      = ∑ n : Fin 100000, f n :=
  sum_blocks 125 800 f

/-- `sum_blocks` at `208` blocks of `8192`: a sum over `1703936` positions. -/
theorem sum_blocks_208_8192 {M : Type*} [AddCommMonoid M] (f : Fin 1703936 → M) :
    ∑ a : Fin 208, ∑ b : Fin 8192, f ⟨a.val * 8192 + b.val, blk_lt (A := 208) a b⟩
      = ∑ n : Fin 1703936, f n :=
  sum_blocks 208 8192 f

/-- `acc_blocks` at `125` blocks of `800`. -/
theorem acc_blocks_125_800 {M : Type*} [AddCommMonoid M] (f : Fin 100000 → M) (acc : ℕ → M)
    (h0 : acc 0 = 0)
    (hs : ∀ a (ha : a < 125), acc (a + 1)
      = acc a + (0 + ∑ b : Fin 800, f ⟨a * 800 + b.val, blk_lt (A := 125) ⟨a, ha⟩ b⟩)) :
    acc 125 = ∑ n : Fin 100000, f n :=
  acc_blocks 125 800 f acc h0 hs

/-- `acc_blocks` at `208` blocks of `8192`. -/
theorem acc_blocks_208_8192 {M : Type*} [AddCommMonoid M] (f : Fin 1703936 → M) (acc : ℕ → M)
    (h0 : acc 0 = 0)
    (hs : ∀ a (ha : a < 208), acc (a + 1)
      = acc a + (0 + ∑ b : Fin 8192, f ⟨a * 8192 + b.val, blk_lt (A := 208) ⟨a, ha⟩ b⟩)) :
    acc 208 = ∑ n : Fin 1703936, f n :=
  acc_blocks 208 8192 f acc h0 hs

/-! ## Node identifiers as 32-bit words -/

/-- A natural number below `2^31`, written as a 32-bit word, reads back as itself in two's
complement. -/
theorem toInt_ofNat_small (n : ℕ) (hn : n < 2 ^ 31) : (BitVec.ofNat 32 n).toInt = (n : ℤ) := by
  have hm : n % 2 ^ 32 = n := Nat.mod_eq_of_lt (by omega)
  rw [BitVec.toInt_eq_toNat_cond, BitVec.toNat_ofNat, hm]
  split <;> omega

/-- A word whose two's complement value lies in `[0, N)` has a natural value below `N`. -/
theorem toNat_lt_of_range {s : BitVec 32} {N : ℕ} (hs : 0 ≤ s.toInt ∧ s.toInt < (N : ℤ)) :
    s.toInt.toNat < N := by
  obtain ⟨h0, h1⟩ := hs
  omega

/-- For `n < 2^31`, a word equals the word of `n` exactly when its two's complement value
is `n`. -/
theorem eq_ofNat_iff (s : BitVec 32) (n : ℕ) (hn : n < 2 ^ 31) :
    s = BitVec.ofNat 32 n ↔ s.toInt = (n : ℤ) := by
  rw [← BitVec.toInt_inj, toInt_ofNat_small n hn]

/-- The same with the two sides of the equation exchanged. -/
theorem ofNat_eq_iff (s : BitVec 32) (n : ℕ) (hn : n < 2 ^ 31) :
    BitVec.ofNat 32 n = s ↔ s.toInt = (n : ℤ) := by
  rw [eq_comm]; exact eq_ofNat_iff s n hn

/-! ## One-hot selection -/

/-- The product of the one-hot row of an in-range identifier `s` with a column `h` is the
entry `h s`: a gather. -/
theorem onehot_select (N : ℕ) (hN : N ≤ 2 ^ 31) (s : BitVec 32) (h : Fin N → EReal)
    (hs : 0 ≤ s.toInt ∧ s.toInt < (N : ℤ)) :
    ∑ n : Fin N, (if s = BitVec.ofNat 32 n.val then (1 : EReal) else 0) * h n
      = h ⟨s.toInt.toNat, toNat_lt_of_range hs⟩ := by
  have key : ∀ n : Fin N, s = BitVec.ofNat 32 n.val ↔ n = ⟨s.toInt.toNat, toNat_lt_of_range hs⟩ := by
    intro n
    have hn := n.isLt
    rw [eq_ofNat_iff s n.val (by omega), Fin.ext_iff]
    show s.toInt = (n.val : ℤ) ↔ n.val = s.toInt.toNat
    obtain ⟨h0, h1⟩ := hs
    omega
  simp only [key, ite_mul, one_mul, zero_mul]
  rw [Finset.sum_ite_eq']
  exact if_pos (mem_univ _)

/-- The one-hot row of an identifier that is negative or not below `N` is zero, and so is its
product with any column. -/
theorem onehot_select_out (N : ℕ) (hN : N ≤ 2 ^ 31) (s : BitVec 32) (h : Fin N → EReal)
    (hs : s.toInt < 0 ∨ (N : ℤ) ≤ s.toInt) :
    ∑ n : Fin N, (if s = BitVec.ofNat 32 n.val then (1 : EReal) else 0) * h n = 0 := by
  refine Finset.sum_eq_zero fun n _ => ?_
  have hn := n.isLt
  have hne : ¬ s = BitVec.ofNat 32 n.val := by
    rw [eq_ofNat_iff s n.val (by omega)]
    omega
  rw [if_neg hne, zero_mul]

/-! ## A message-passing layer with zero padding -/

/-- Gather, weight and scatter-add as two one-hot products over a zero-padded edge list:
for `E` edges `(src e, dst e)` with weights `nrm e`, every `src e` in `[0, N)`, extended by
`P` padding edges of weight `0` (whatever their end points), the product of the transposed
one-hot matrix of the destinations with the weighted gathered rows is the segment sum
`∑_{e : dst e = n} nrm e * h (src e)`.  Nothing is asked of `dst`: a destination that is
negative or not below `N` matches no `n` on either side. -/
theorem layer_padded (N E P : ℕ) (hN : N ≤ 2 ^ 31)
    (src dst : Fin E → BitVec 32) (nrm : Fin E → EReal) (h : Fin N → EReal)
    (hsrc : ∀ e, 0 ≤ (src e).toInt ∧ (src e).toInt < (N : ℤ))
    (srcP dstP : Fin (E + P) → BitVec 32) (nrmP : Fin (E + P) → EReal)
    (hsrcP : ∀ (e : Fin (E + P)) (he : e.val < E), srcP e = src ⟨e.val, he⟩)
    (hdstP : ∀ (e : Fin (E + P)) (he : e.val < E), dstP e = dst ⟨e.val, he⟩)
    (hnrmP : ∀ (e : Fin (E + P)) (he : e.val < E), nrmP e = nrm ⟨e.val, he⟩)
    (hnrm0 : ∀ e : Fin (E + P), E ≤ e.val → nrmP e = 0)
    (n : Fin N) :
    ∑ e : Fin (E + P), (if BitVec.ofNat 32 n.val = dstP e then (1 : EReal) else 0)
        * ((∑ k : Fin N, (if srcP e = BitVec.ofNat 32 k.val then (1 : EReal) else 0) * h k)
            * nrmP e)
      = ∑ e ∈ Finset.univ.filter (fun e : Fin E => (dst e).toInt = (n.val : ℤ)),
          nrm e * h ⟨(src e).toInt.toNat, toNat_lt_of_range (hsrc e)⟩ := by
  have hn : n.val < 2 ^ 31 := lt_of_lt_of_le n.isLt hN
  rw [Fin.sum_univ_add]
  -- the padding edges carry weight zero
  have hpad : ∑ i : Fin P, (if BitVec.ofNat 32 n.val = dstP (Fin.natAdd E i) then (1 : EReal) else 0)
        * ((∑ k : Fin N, (if srcP (Fin.natAdd E i) = BitVec.ofNat 32 k.val then (1 : EReal) else 0)
              * h k) * nrmP (Fin.natAdd E i)) = 0 :=
    Finset.sum_eq_zero fun i _ => by
      rw [hnrm0 (Fin.natAdd E i) (Nat.le_add_right E i.val), mul_zero, mul_zero]
  rw [hpad, add_zero, Finset.sum_filter]
  refine Fintype.sum_congr _ _ fun e => ?_
  have he : (Fin.castAdd P e).val < E := e.isLt
  rw [hsrcP _ he, hdstP _ he, hnrmP _ he]
  show (if BitVec.ofNat 32 n.val = dst e then (1 : EReal) else 0)
      * ((∑ k : Fin N, (if src e = BitVec.ofNat 32 k.val then (1 : EReal) else 0) * h k) * nrm e)
    = if (dst e).toInt = (n.val : ℤ) then
        nrm e * h ⟨(src e).toInt.toNat, toNat_lt_of_range (hsrc e)⟩ else 0
  rw [onehot_select N hN (src e) h (hsrc e)]
  by_cases hd : (dst e).toInt = (n.val : ℤ)
  · rw [if_pos hd, if_pos ((ofNat_eq_iff (dst e) n.val hn).2 hd), one_mul, mul_comm]
  · rw [if_neg hd, if_neg (fun h' => hd ((ofNat_eq_iff (dst e) n.val hn).1 h')), zero_mul]

/-- `layer_padded` at `100000` nodes and `1700000` edges padded to `1703936`. -/
theorem layer_padded_100000
    (src dst : Fin 1700000 → BitVec 32) (nrm : Fin 1700000 → EReal) (h : Fin 100000 → EReal)
    (hsrc : ∀ e, 0 ≤ (src e).toInt ∧ (src e).toInt < ((100000 : ℕ) : ℤ))
    (srcP dstP : Fin 1703936 → BitVec 32) (nrmP : Fin 1703936 → EReal)
    (hsrcP : ∀ (e : Fin 1703936) (he : e.val < 1700000), srcP e = src ⟨e.val, he⟩)
    (hdstP : ∀ (e : Fin 1703936) (he : e.val < 1700000), dstP e = dst ⟨e.val, he⟩)
    (hnrmP : ∀ (e : Fin 1703936) (he : e.val < 1700000), nrmP e = nrm ⟨e.val, he⟩)
    (hnrm0 : ∀ e : Fin 1703936, 1700000 ≤ e.val → nrmP e = 0)
    (n : Fin 100000) :
    ∑ e : Fin 1703936, (if BitVec.ofNat 32 n.val = dstP e then (1 : EReal) else 0)
        * ((∑ k : Fin 100000, (if srcP e = BitVec.ofNat 32 k.val then (1 : EReal) else 0) * h k)
            * nrmP e)
      = ∑ e ∈ Finset.univ.filter (fun e : Fin 1700000 => (dst e).toInt = (n.val : ℤ)),
          nrm e * h ⟨(src e).toInt.toNat, toNat_lt_of_range (hsrc e)⟩ :=
  layer_padded 100000 1700000 3936 (by norm_num) src dst nrm h hsrc srcP dstP nrmP
    hsrcP hdstP hnrmP hnrm0 n

end Cert.LibSegmentSum
-- ==== Proof.AlgSums.lean ====
/- The kernel's block-by-block one-hot sums are the plain segment sums. -/
import proofs.«403000_j1451698946636_3_alg».proof.Proof.Spec
import Mathlib.Data.EReal.Inv
import Mathlib.Algebra.BigOperators.Fin
import Mathlib.Algebra.BigOperators.Group.Finset.Basic
import proofs.«403000_j1451698946636_3_alg».proof.Proof.LibSegmentSum

noncomputable section

namespace Cert.GraphNorm

open Finset

/-! ## Sums read block by block -/

/-- The 100 blocks of 5000 rows exhaust the 500000 rows. -/
private theorem sum_rows {M : Type*} [AddCommMonoid M] (F : Fin 500000 → M) :
    ∑ b : Fin 100, ∑ t : Fin 5000, F (row b t) = ∑ n : Fin 500000, F n :=
  Cert.LibSegmentSum.sum_blocks 100 5000 F

/-- The two cores' runs of 50 blocks, the second starting at block 50, are the 100 blocks. -/
private theorem sum_two_cores {M : Type*} [AddCommMonoid M] (blk : ℕ → M) :
    (∑ s ∈ range 50, blk (50 * (0 : Fin 2).val + s)) + (∑ s ∈ range 50, blk (50 * (1 : Fin 2).val + s))
      = ∑ b : Fin 100, blk b.val := by
  rw [← Finset.sum_range (fun b => blk b), show (100 : ℕ) = 50 + 50 from rfl, Finset.sum_range_add]
  have h0 : ∀ s, 50 * (0 : Fin 2).val + s = s := fun s => by
    show 50 * 0 + s = s
    omega
  have h1 : ∀ s, 50 * (1 : Fin 2).val + s = 50 + s := fun s => by
    show 50 * 1 + s = 50 + s
    omega
  simp only [h0, h1]

/-! ## Finite extended reals -/

/-- A finite extended real minus itself is zero. -/
private theorem sub_self_fin {x : EReal} (hx : x ≠ ⊥ ∧ x ≠ ⊤) : x - x = 0 := by
  lift x to ℝ using ⟨hx.2, hx.1⟩
  rw [← EReal.coe_sub, sub_self, EReal.coe_zero]

/-- The product of two finite extended reals is finite: it is the product of two reals. -/
private theorem mul_fin {x y : EReal} (hx : x ≠ ⊥ ∧ x ≠ ⊤) (hy : y ≠ ⊥ ∧ y ≠ ⊤) :
    x * y ≠ ⊥ ∧ x * y ≠ ⊤ := by
  lift x to ℝ using ⟨hx.2, hx.1⟩
  lift y to ℝ using ⟨hy.2, hy.1⟩
  rw [← EReal.coe_mul]
  exact ⟨EReal.coe_ne_bot _, EReal.coe_ne_top _⟩

variable (seg : Fin 500000 → BitVec 32) (h : Fin 500000 → Fin 128 → EReal)

/-! ## The one-hot row selects the rows of the segment -/

/-- The one-hot entry of segment `g` at row `n` is the indicator of `n` lying in the segment, so the
    one-hot products over all rows add up to the sum over the segment. -/
private theorem oh_sum (g : Fin 256) (x : Fin 500000 → EReal) :
    ∑ n : Fin 500000, oh g (seg n) * x n = ∑ e ∈ segSet seg g, x e := by
  unfold segSet
  rw [Finset.sum_filter]
  refine Fintype.sum_congr _ _ fun n => ?_
  have hg : g.val < 2 ^ 31 := by have := g.isLt; omega
  unfold oh
  by_cases hd : (seg n).toInt = (g.val : ℤ)
  · rw [if_pos hd, if_pos ((Cert.LibSegmentSum.ofNat_eq_iff (seg n) g.val hg).2 hd), one_mul]
  · rw [if_neg hd, if_neg (fun h' => hd ((Cert.LibSegmentSum.ofNat_eq_iff (seg n) g.val hg).1 h')), zero_mul]

/-- One-hot products accumulated block by block, 50 blocks per core, are the sum over the segment. -/
private theorem blocks_eq (g : Fin 256) (x : Fin 500000 → EReal) (blk : ℕ → EReal)
    (hblk : ∀ b : Fin 100, blk b.val = ∑ t : Fin 5000, oh g (seg (row b t)) * x (row b t)) :
    (∑ s ∈ range 50, blk (50 * (0 : Fin 2).val + s)) + (∑ s ∈ range 50, blk (50 * (1 : Fin 2).val + s))
      = ∑ e ∈ segSet seg g, x e := by
  rw [sum_two_cores blk, ← oh_sum seg g x, ← sum_rows (fun n => oh g (seg n) * x n)]
  exact Fintype.sum_congr _ _ hblk

/-! ## The blocks' contributions with the remainders gone -/

/-- With a finite row entry, the split remainder's one-hot product is zero. -/
private theorem blkSum_eq (hh : ∀ n f, h n f ≠ ⊥ ∧ h n f ≠ ⊤) (g : Fin 256) (f : Fin 128) (b : Fin 100) :
    blkSum seg h b.val g f = ∑ t : Fin 5000, oh g (seg (row b t)) * h (row b t) f := by
  have hz : ∑ t : Fin 5000, oh g (seg (row b t)) * (h (row b t) f - h (row b t) f) = 0 :=
    Finset.sum_eq_zero fun t _ => by rw [sub_self_fin (hh _ _), mul_zero]
  unfold blkSum
  rw [dif_pos b.isLt]
  exact (congrArg (fun z => (∑ t : Fin 5000, oh g (seg (row b t)) * h (row b t) f) + z) hz).trans
    (add_zero _)

private theorem blkSq_eq (hh : ∀ n f, h n f ≠ ⊥ ∧ h n f ≠ ⊤) (g : Fin 256) (f : Fin 128) (b : Fin 100) :
    blkSq seg h b.val g f = ∑ t : Fin 5000, oh g (seg (row b t)) * (h (row b t) f * h (row b t) f) := by
  have hz : ∑ t : Fin 5000, oh g (seg (row b t))
      * (h (row b t) f * h (row b t) f - h (row b t) f * h (row b t) f) = 0 :=
    Finset.sum_eq_zero fun t _ => by rw [sub_self_fin (mul_fin (hh _ _) (hh _ _)), mul_zero]
  unfold blkSq
  rw [dif_pos b.isLt]
  exact (congrArg (fun z => (∑ t : Fin 5000, oh g (seg (row b t)) * (h (row b t) f * h (row b t) f)) + z)
    hz).trans (add_zero _)

private theorem blkCnt_eq (g : Fin 256) (b : Fin 100) :
    blkCnt seg b.val g = ∑ t : Fin 5000, oh g (seg (row b t)) * 1 := by
  unfold blkCnt
  rw [dif_pos b.isLt]

/-! ## The interface -/

/-- With finite rows the split remainder `h − h` vanishes, and the 2 × 50 × 5000 one-hot products add up to the sum over
    the rows of the segment. -/
theorem sumH_eq (hh : ∀ n f, h n f ≠ ⊥ ∧ h n f ≠ ⊤) (g : Fin 256) (f : Fin 128) :
    sumH seg h g f = ∑ e ∈ segSet seg g, h e f :=
  blocks_eq seg g (fun n => h n f) (fun b => blkSum seg h b g f) (blkSum_eq seg h hh g f)

theorem sqH_eq (hh : ∀ n f, h n f ≠ ⊥ ∧ h n f ≠ ⊤) (g : Fin 256) (f : Fin 128) :
    sqH seg h g f = ∑ e ∈ segSet seg g, h e f * h e f :=
  blocks_eq seg g (fun n => h n f * h n f) (fun b => blkSq seg h b g f) (blkSq_eq seg h hh g f)

theorem cntH_eq (g : Fin 256) : cntH seg g = ∑ _e ∈ segSet seg g, (1 : EReal) :=
  blocks_eq seg g (fun _ => 1) (fun b => blkCnt seg b g) (blkCnt_eq seg g)

end Cert.GraphNorm

end
-- ==== Proof.AlgFinal.lean ====
/- The two spellings of graph normalisation agree on finite inputs with identifiers in range. -/
import proofs.«403000_j1451698946636_3_alg».proof.Proof.Spec
import proofs.«403000_j1451698946636_3_alg».proof.Proof.LibSegmentSum
import Mathlib.Data.EReal.Inv
import Mathlib.Algebra.BigOperators.Fin
import Mathlib.Algebra.BigOperators.Group.Finset.Basic

noncomputable section

open Idealize.ShloMosaic

namespace Cert.GraphNorm

/-! ## Identifiers -/

/-- The one-hot entry, read on the signed value of the identifier. -/
private theorem oh_eq (g : Fin 256) (s : BitVec 32) :
    oh g s = if s.toInt = (g.val : ℤ) then 1 else 0 := by
  unfold oh
  have hg := g.isLt
  by_cases hs : s.toInt = (g.val : ℤ)
  · rw [if_pos hs, if_pos ((Cert.LibSegmentSum.ofNat_eq_iff s g.val (by omega)).2 hs)]
  · rw [if_neg hs, if_neg (fun h' => hs ((Cert.LibSegmentSum.ofNat_eq_iff s g.val (by omega)).1 h'))]

/-- The one-hot row of an identifier whose signed value is `g` selects the entry `g`:
    every other term is a product with zero. -/
private theorem oh_select (g : Fin 256) (s : BitVec 32) (hs : s.toInt = (g.val : ℤ)) (T : Fin 256 → EReal) :
    ∑ g' : Fin 256, oh g' s * T g' = T g := by
  have key : ∀ g' : Fin 256, oh g' s = if g' = g then 1 else 0 := by
    intro g'
    rw [oh_eq, hs]
    by_cases hg : g' = g
    · rw [if_pos hg, if_pos (by rw [hg])]
    · rw [if_neg hg, if_neg (fun h' => hg (Fin.ext (by omega)))]
  simp only [key, ite_mul, one_mul, zero_mul]
  rw [Finset.sum_ite_eq']
  exact if_pos (Finset.mem_univ _)

/-- A row whose identifier, read signed, is `g` is gathered from segment `g`: nothing to wrap, nothing to clamp. -/
private theorem gidx_eq (seg : Fin 500000 → BitVec 32) (n : Fin 500000) (g : Fin 256)
    (hn : (seg n).toInt = (g.val : ℤ)) : gidx seg n = g := by
  have hg := g.isLt
  have hw : wrap (seg n) = seg n := by
    unfold wrap
    rw [if_neg (by omega)]
  refine Fin.ext ?_
  show min (wrap (seg n)).toInt.toNat 255 = g.val
  rw [hw, hn]
  omega

/-! ## Sums of real numbers read in the extended reals -/

/-- The coercion of the reals commutes with finite sums. -/
private theorem coe_sum {ι : Type*} (A : Finset ι) (x : ι → ℝ) :
    ∑ e ∈ A, ((x e : ℝ) : EReal) = ((∑ e ∈ A, x e : ℝ) : EReal) := by
  classical
  induction A using Finset.induction_on with
  | empty => simp
  | insert a s ha ih => rw [Finset.sum_insert ha, Finset.sum_insert ha, ih, EReal.coe_add]

/-- Counting a finite set by adding ones. -/
private theorem sum_one {ι : Type*} (A : Finset ι) :
    ∑ _e ∈ A, (1 : EReal) = ((A.card : ℝ) : EReal) := by
  have h := coe_sum A (fun _ => (1 : ℝ))
  rw [EReal.coe_one] at h
  rw [h, Finset.sum_const, nsmul_eq_mul, mul_one]

/-- The sum of squared deviations from the mean is the sum of squares minus the count times the squared mean. -/
private theorem ssd_real {ι : Type*} (A : Finset ι) (x : ι → ℝ) (μ : ℝ)
    (hμ : ∑ e ∈ A, x e = (A.card : ℝ) * μ) :
    ∑ e ∈ A, (x e - μ) * (x e - μ) = (∑ e ∈ A, x e * x e) - (A.card : ℝ) * μ * μ := by
  have hexp : ∀ e, (x e - μ) * (x e - μ) = x e * x e - 2 * μ * x e + μ * μ := fun e => by ring
  simp only [hexp]
  rw [Finset.sum_add_distrib, Finset.sum_sub_distrib, ← Finset.mul_sum, hμ, Finset.sum_const, nsmul_eq_mul]
  ring

variable (seg : Fin 500000 → BitVec 32) (h : Fin 500000 → Fin 128 → EReal) (γ β : Fin 128 → EReal) (one eps : EReal)

/-- For finite `h γ β`, identifiers in `[0, 256)`, `one = 1` and a finite positive `eps`, and given that the kernel's
    accumulated sums are the plain segment sums (`hS hQ hC`), the kernel's row is the reference's row. -/
theorem outK_eq_outR (hone : one = 1) (heps0 : 0 < eps) (hepsT : eps ≠ ⊤)
    (hh : ∀ n f, h n f ≠ ⊥ ∧ h n f ≠ ⊤) (hγ : ∀ f, γ f ≠ ⊥ ∧ γ f ≠ ⊤) (hβ : ∀ f, β f ≠ ⊥ ∧ β f ≠ ⊤)
    (hseg : ∀ n, 0 ≤ (seg n).toInt ∧ (seg n).toInt < 256)
    (hS : ∀ g f, sumH seg h g f = ∑ e ∈ segSet seg g, h e f)
    (hQ : ∀ g f, sqH seg h g f = ∑ e ∈ segSet seg g, h e f * h e f)
    (hC : ∀ g, cntH seg g = ∑ _e ∈ segSet seg g, (1 : EReal))
    (n : Fin 500000) (f : Fin 128) :
    outK seg h γ β one eps n f = outR seg h γ β one eps n f := by
  subst hone
  -- every input at column f is a real number
  obtain ⟨er, rfl⟩ : ∃ er : ℝ, eps = (er : EReal) :=
    ⟨eps.toReal, (EReal.coe_toReal hepsT (lt_trans EReal.bot_lt_zero heps0).ne').symm⟩
  have her : 0 < er := EReal.coe_pos.1 heps0
  obtain ⟨x, hx⟩ : ∃ x : Fin 500000 → ℝ, ∀ e, h e f = (x e : EReal) :=
    ⟨fun e => (h e f).toReal, fun e => (EReal.coe_toReal (hh e f).2 (hh e f).1).symm⟩
  obtain ⟨gm, hgm⟩ : ∃ gm : ℝ, γ f = (gm : EReal) :=
    ⟨(γ f).toReal, (EReal.coe_toReal (hγ f).2 (hγ f).1).symm⟩
  obtain ⟨bt, hbt⟩ : ∃ bt : ℝ, β f = (bt : EReal) :=
    ⟨(β f).toReal, (EReal.coe_toReal (hβ f).2 (hβ f).1).symm⟩
  -- the segment g of row n
  obtain ⟨hs0, hs1⟩ := hseg n
  obtain ⟨g, hng⟩ : ∃ g : Fin 256, (seg n).toInt = (g.val : ℤ) :=
    ⟨⟨(seg n).toInt.toNat, by omega⟩, (Int.toNat_of_nonneg hs0).symm⟩
  have hgn : gidx seg n = g := gidx_eq seg n g hng
  have hmem : n ∈ segSet seg g := Finset.mem_filter.2 ⟨Finset.mem_univ _, hng⟩
  have hgA : ∀ e ∈ segSet seg g, gidx seg e = g :=
    fun e he => gidx_eq seg e g (Finset.mem_filter.1 he).2
  have hcpos : 0 < (segSet seg g).card := Finset.card_pos.2 ⟨n, hmem⟩
  -- its count c, sum S and sum of squares Q, as real numbers
  obtain ⟨S, hSdef⟩ : ∃ S : ℝ, S = ∑ e ∈ segSet seg g, x e := ⟨_, rfl⟩
  obtain ⟨Q, hQdef⟩ : ∃ Q : ℝ, Q = ∑ e ∈ segSet seg g, x e * x e := ⟨_, rfl⟩
  obtain ⟨c, hcdef⟩ : ∃ c : ℝ, c = ((segSet seg g).card : ℝ) := ⟨_, rfl⟩
  have hc1 : 1 ≤ c := by rw [hcdef]; exact_mod_cast hcpos
  have hc0 : 0 < c := lt_of_lt_of_le one_pos hc1
  have hcne : c ≠ 0 := ne_of_gt hc0
  have hcnt : cntH seg g = (c : EReal) := by rw [hC g, sum_one, hcdef]
  have hsum : sumH seg h g f = (S : EReal) := by
    rw [hS g f, hSdef, ← coe_sum]
    exact Finset.sum_congr rfl fun e _ => hx e
  have hsq : sqH seg h g f = (Q : EReal) := by
    rw [hQ g f, hQdef, ← coe_sum]
    exact Finset.sum_congr rfl fun e _ => by rw [hx e, ← EReal.coe_mul]
  have hcntR : cntR seg 1 g = (c : EReal) := by
    unfold cntR
    rw [zero_add, sum_one, hcdef]
  have hsumR : sumR seg h g f = (S : EReal) := by
    unfold sumR
    rw [zero_add, hSdef, ← coe_sum]
    exact Finset.sum_congr rfl fun e _ => hx e
  -- the mean μ = S / c, on both sides
  obtain ⟨μ, hμdef⟩ : ∃ μ : ℝ, μ = S * (1 / c) := ⟨_, rfl⟩
  have hSμ : S = c * μ := by rw [hμdef]; field_simp
  have hmeanK : meanK seg h g f = (μ : EReal) := by
    unfold meanK
    rw [hcnt, hsum, if_pos (EReal.coe_pos.2 hc0), Ideal.div_coe hcne, ← EReal.coe_mul, hμdef]
  have hmeanR : meanR seg h 1 g f = (μ : EReal) := by
    unfold meanR
    rw [hcntR, hsumR, Ideal.div_coe hcne, ← EReal.coe_mul, hμdef]
  -- the reference's deviations and their sum of squares D = Q - c μ²
  have hdiff : ∀ e ∈ segSet seg g, diffR seg h 1 e f = ((x e - μ : ℝ) : EReal) := by
    intro e he
    unfold diffR
    rw [hgA e he, hmeanR, hx e, ← EReal.coe_sub]
  obtain ⟨D, hDdef⟩ : ∃ D : ℝ, D = ∑ e ∈ segSet seg g, (x e - μ) * (x e - μ) := ⟨_, rfl⟩
  have hssd : ssdR seg h 1 g f = (D : EReal) := by
    unfold ssdR
    rw [zero_add, hDdef, ← coe_sum]
    exact Finset.sum_congr rfl fun e he => by rw [hdiff e he, ← EReal.coe_mul]
  have hDQ : D = Q - c * μ * μ := by
    rw [hDdef, hQdef, hcdef]
    exact ssd_real _ _ _ (by rw [← hcdef, ← hSdef]; exact hSμ)
  have hD0 : 0 ≤ D := by
    rw [hDdef]
    exact Finset.sum_nonneg fun e _ => mul_self_nonneg _
  -- the kernel's row, once its variance is a known nonnegative real v
  have kernel : ∀ v : ℝ, 0 ≤ v → varK seg h 1 g f = (v : EReal) →
      outK seg h γ β 1 (er : EReal) n f
        = ((x n * (gm * (1 / (Real.sqrt v + er))) + (bt - μ * (gm * (1 / (Real.sqrt v + er)))) : ℝ) : EReal) := by
    intro v hv hvar
    have hd : Real.sqrt v + er ≠ 0 := ne_of_gt (add_pos_of_nonneg_of_pos (Real.sqrt_nonneg v) her)
    have hscale : scaleK seg h γ 1 (er : EReal) g f = ((gm * (1 / (Real.sqrt v + er)) : ℝ) : EReal) := by
      unfold scaleK
      rw [hvar, Ideal.sqrt_coe, if_neg (not_lt.2 hv), ← EReal.coe_add, Ideal.div_coe hd, hgm, ← EReal.coe_mul]
    have hshift : shiftK seg h γ β 1 (er : EReal) g f
        = ((bt - μ * (gm * (1 / (Real.sqrt v + er))) : ℝ) : EReal) := by
      unfold shiftK
      rw [hmeanK, hscale, hbt, ← EReal.coe_mul, ← EReal.coe_sub]
    unfold outK
    rw [oh_select g (seg n) hng, oh_select g (seg n) hng, oh_select g (seg n) hng, oh_select g (seg n) hng,
      hscale, hshift, hx n, ← EReal.coe_sub, ← EReal.coe_sub, sub_self, sub_self, EReal.coe_zero,
      add_zero, add_zero, ← EReal.coe_mul, ← EReal.coe_add]
  rcases Nat.lt_or_ge 1 (segSet seg g).card with hc2 | hc2
  · -- at least two rows: both variances are the real number v = D / (c - 1) ≥ 0
    have hc1' : 1 < c := by rw [hcdef]; exact_mod_cast hc2
    have hcm : c - 1 ≠ 0 := ne_of_gt (sub_pos.2 hc1')
    have hcm' : (c : EReal) - 1 = ((c - 1 : ℝ) : EReal) := by rw [← EReal.coe_one, ← EReal.coe_sub]
    obtain ⟨v, hvdef⟩ : ∃ v : ℝ, v = D * (1 / (c - 1)) := ⟨_, rfl⟩
    have hv0 : 0 ≤ v := by
      rw [hvdef]
      exact mul_nonneg hD0 (one_div_nonneg.2 (sub_nonneg.2 hc1))
    have hd : Real.sqrt v + er ≠ 0 := ne_of_gt (add_pos_of_nonneg_of_pos (Real.sqrt_nonneg v) her)
    have hvarR : varR seg h 1 g f = (v : EReal) := by
      unfold varR
      rw [hssd, hcntR, hcm', Ideal.div_coe hcm, ← EReal.coe_mul, hvdef]
    have hone_lt : (1 : EReal) < (c : EReal) := by
      rw [← EReal.coe_one]; exact EReal.coe_lt_coe_iff.2 hc1'
    have hvarK : varK seg h 1 g f = (v : EReal) := by
      unfold varK varRawK
      rw [hcnt, if_pos hone_lt, hsq, hmeanK, hcm', ← EReal.coe_mul, ← EReal.coe_mul, ← EReal.coe_sub,
        Ideal.div_coe hcm, ← EReal.coe_mul, ← hDQ, ← hvdef, max_eq_left (EReal.coe_nonneg.2 hv0)]
    rw [kernel v hv0 hvarK]
    unfold outR
    rw [hgn, hvarR, Ideal.sqrt_coe, if_neg (not_lt.2 hv0), hdiff n hmem, ← EReal.coe_add,
      Ideal.div_coe hd, hgm, hbt, ← EReal.coe_mul, ← EReal.coe_mul, ← EReal.coe_add, EReal.coe_eq_coe_iff]
    ring
  · -- a single row: the kernel's variance is zero and both rows are β
    have hcard : (segSet seg g).card = 1 := le_antisymm hc2 hcpos
    obtain ⟨a, ha⟩ := Finset.card_eq_one.1 hcard
    have hna : n = a := by rw [ha] at hmem; exact Finset.mem_singleton.1 hmem
    subst hna
    have hc1e : c = 1 := by rw [hcdef, hcard, Nat.cast_one]
    have hμx : μ = x n := by
      rw [hμdef, hSdef, ha, Finset.sum_singleton, hc1e]
      ring
    have hD0' : D = 0 := by rw [hDdef, ha, Finset.sum_singleton, hμx, sub_self, mul_zero]
    have hvarK : varK seg h 1 g f = ((0 : ℝ) : EReal) := by
      unfold varK
      rw [hcnt, hc1e, EReal.coe_one, if_neg (lt_irrefl _), EReal.coe_zero]
    have hvarR : varR seg h 1 g f = ⊥ := by
      unfold varR
      rw [hssd, hcntR, hc1e, hD0', ← EReal.coe_one, ← EReal.coe_sub, sub_self, EReal.coe_zero, Ideal.div, if_pos rfl,
        if_neg (lt_irrefl _)]
    rw [kernel 0 le_rfl hvarK]
    unfold outR
    rw [hgn, hvarR, Ideal.sqrt_bot, EReal.bot_add, Ideal.div, if_neg EReal.bot_lt_zero.ne, EReal.inv_bot,
      mul_zero, mul_zero, zero_add, hbt, hμx, EReal.coe_eq_coe_iff]
    ring

end Cert.GraphNorm

end
-- ==== Proof.lean ====
/-
  Graph normalisation over ragged segments: the kernel against its reference, over the extended reals.

  For `h : 500000 × 128`, one segment identifier per row and two vectors `γ β`, both programs compute, for a row `n` of
  segment `g`, `γ · (h n − mean g) / (std g + ε) + β` with `mean g` the mean and `std g` the square root of the unbiased
  variance of the rows of segment `g`.  The reference takes the segment sums by scatter-adds and reads them back by
  gathers; the kernel takes them in a first pass as products with the one-hot row `(g = seg n)`, accumulated block by
  block on each of two cores, forms one `scale` and one `shift` per segment on the host with the variance written as
  `(Σ h² − c · mean²) / (c − 1)`, and in a second pass selects them by the one-hot row again: `h · scale + shift`.

  The claim holds where every float input is finite and every identifier lies in `[0, 256)` (outside that range the
  reference's scatter drops the row while its gather reads a wrapped or clamped segment, and the kernel's one-hot row
  is zero).  There the split remainders `x − x` the kernel carries vanish, the one-hot products are the plain segment
  sums, `Σ (h − mean)² = Σ h² − c · mean²`, the clamp of the variance at zero is the identity, and a segment of a single
  row gives `β` on both sides (the kernel by its guard, the reference because `0 / (⊥ + ε) = 0`).

  The modules: `Spec` states both programs' results as functions of the rows; `Region0`, `Region1` read the two
  pallas_calls' output arrays off the frame's proof data; `Tables` reads the host operations around them; `KernelRun`
  is the kernel program's run with the result array named; `RefValue` reads the reference's run at an index;
  `PreFacts` reads the precondition; `AlgSums`, `AlgFinal` are the mathematics.
-/
import proofs.«403000_j1451698946636_3_alg».proof.Defs
import proofs.«403000_j1451698946636_3_alg».proof.Proof.Gen.Kernel
import proofs.«403000_j1451698946636_3_alg».proof.Proof.Gen.Kernel.Skeleton
import proofs.«403000_j1451698946636_3_alg».proof.Proof.Gen.Kernel.Launch
import proofs.«403000_j1451698946636_3_alg».proof.Proof.Gen.Kernel.Points
import proofs.«403000_j1451698946636_3_alg».proof.Proof.Gen.Kernel.Frame
import proofs.«403000_j1451698946636_3_alg».proof.Proof.Gen.KernelIdeal
import proofs.«403000_j1451698946636_3_alg».proof.Proof.Gen.KernelIdeal.Skeleton
import proofs.«403000_j1451698946636_3_alg».proof.Proof.Gen.KernelIdeal.Launch
import proofs.«403000_j1451698946636_3_alg».proof.Proof.Gen.KernelIdeal.Points
import proofs.«403000_j1451698946636_3_alg».proof.Proof.Gen.KernelIdeal.Frame
import proofs.«403000_j1451698946636_3_alg».proof.Proof.Gen.ReferenceIdeal
import proofs.«403000_j1451698946636_3_alg».proof.Proof.Gen.ReferenceIdeal.Run
import proofs.«403000_j1451698946636_3_alg».proof.Proof.Gen.ReferenceIdeal.Read
import proofs.«403000_j1451698946636_3_alg».proof.Proof.Gen.Pre_finite_inputs
import proofs.«403000_j1451698946636_3_alg».proof.Proof.Spec
import proofs.«403000_j1451698946636_3_alg».proof.Proof.KernelRun
import proofs.«403000_j1451698946636_3_alg».proof.Proof.Region0
import proofs.«403000_j1451698946636_3_alg».proof.Proof.Region1
import proofs.«403000_j1451698946636_3_alg».proof.Proof.Tables
import proofs.«403000_j1451698946636_3_alg».proof.Proof.RefValue
import proofs.«403000_j1451698946636_3_alg».proof.Proof.PreFacts
import proofs.«403000_j1451698946636_3_alg».proof.Proof.AlgSums
import proofs.«403000_j1451698946636_3_alg».proof.Proof.AlgFinal
import Idealize.ShloMosaic.Adequacy
import Idealize.ShloMosaic.Init
import Idealize.ShloMosaic.Lib.IdealHost

set_option maxRecDepth 16384

noncomputable section

namespace Cert.Proof

open Idealize.ShloMosaic Idealize.ShloMosaic.TcCoe Idealize.SL.Sem Idealize.ShloMosaic.ValueIdx Cert.GraphNorm

/-! ## The frames and the ledger -/

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ledger's two entries: a value narrowed to bf16 and widened back is itself over the extended reals. -/
theorem preserves : Cert.preserves_Kernel_KernelIdeal :=
  ⟨IdealRules.truncf_extf.statement _ _ _, IdealRules.truncf_extf.statement _ _ _⟩

/-! ## Glue -/

/-- Identifiers laid out in blocks and read back row by row are the identifiers. -/
theorem rowsOf_comp_row (s : Fin 500000 → BitVec 32) : rowsOf (fun b t => s (row b t)) = s := by
  funext n
  unfold rowsOf row
  refine congrArg s (Fin.ext ?_)
  show n.val / 5000 * 5000 + n.val % 5000 = n.val
  omega

/-- The literal 1e-5 is a positive real. -/
theorem eps_real : ∃ r : ℝ, 0 < r ∧ Ideal.ofBits .f32 0x3727C5AC#32 = (r : EReal) := by
  refine ⟨_, ?_, by simp [Ideal.ofBits, Ideal.ieee, -EReal.coe_mul]; rfl⟩
  norm_num

section Kernel

open Cert.KernelIdeal Cert.KernelIdeal.Gen Cert.KernelIdeal.Tables

variable (m : (ℓ : Loc Cert.KernelIdeal.nD Cert.KernelIdeal.τ Cert.KernelIdeal.sig) → Buf (Elt Ideal) ℓ)
  (ρ : Dev Cert.KernelIdeal.nD → PrngReg)

theorem segRows_V1 (c : Dev Cert.KernelIdeal.nD) : Region0.segRows (V1 m ρ) c = segIn m c := by
  unfold Region0.segRows
  have e : (fun b t => Region0.segArr (V1 m ρ) c (ix2 b t)) = fun b t => segIn m c (row b t) :=
    funext fun b => funext fun t => V1_seg m ρ c b t
  rw [e, rowsOf_comp_row]

theorem hRows_V1 (c : Dev Cert.KernelIdeal.nD) : Region0.hRows (V1 m ρ) c = hIn m c :=
  funext fun n => funext fun f => V1_h m ρ c n f

/-- Region 0's three output arrays, as region 1's host stretches find them. -/
theorem sums_V2 (c : Dev Cert.KernelIdeal.nD) (a : Fin 2) (g : Fin 256) (f : Fin 128) :
    (V2 m ρ c main_v3_0 : Vec Ideal S2x256x128 .f32) (ix3 a g f) = kSum (segIn m c) (hIn m c) a g f := by
  have h := Region0.sum_final (V1 m ρ) c a g f
  rw [segRows_V1, hRows_V1] at h
  exact (congrFun (W2_arr m ρ c 2) (ix3 a g f)).trans h

theorem sqs_V2 (c : Dev Cert.KernelIdeal.nD) (a : Fin 2) (g : Fin 256) (f : Fin 128) :
    (V2 m ρ c main_v3_1 : Vec Ideal S2x256x128 .f32) (ix3 a g f) = kSq (segIn m c) (hIn m c) a g f := by
  have h := Region0.sq_final (V1 m ρ) c a g f
  rw [segRows_V1, hRows_V1] at h
  exact (congrFun (W2_arr m ρ c 3) (ix3 a g f)).trans h

theorem cnts_V2 (c : Dev Cert.KernelIdeal.nD) (a : Fin 2) (g : Fin 256) :
    (V2 m ρ c main_v3_2 : Vec Ideal S2x256x1 .f32) (ix3 a g (0 : Fin 1)) = kCnt (segIn m c) a g := by
  have h := Region0.cnt_final (V1 m ρ) c a g
  rw [segRows_V1] at h
  exact (congrFun (W2_arr m ρ c 4) (ix3 a g (0 : Fin 1))).trans h

/-- The kernel program's result array at (n, f) is the specification's `outK` of the arguments. -/
theorem kernel_value (c : Dev Cert.KernelIdeal.nD) (n : Fin 500000) (f : Fin 128) :
    ((dat1 (F := Ideal) (V7 m ρ) c).arrAt 6 cfg1.N : Vec Ideal S500000x128 .f32) (ix2 n f)
      = outK (segIn m c) (hIn m c) (gammaIn m c) (betaIn m c) oneLit epsLit n f := by
  have hT := fun g => V7_tables m ρ c (sums_V2 m ρ c) (sqs_V2 m ρ c) (cnts_V2 m ρ c) g f
  have hseg : rowsOf (fun b t => Region1.segArr (V7 m ρ) c (ix2 b t)) n = segIn m c n := by
    have e : (fun b t => Region1.segArr (V7 m ρ) c (ix2 b t)) = fun b t => segIn m c (row b t) :=
      funext fun b => funext fun t => V7_seg m ρ c b t
    rw [e, rowsOf_comp_row]
  rw [Region1.out_final, hseg]
  unfold outK
  rw [show Region1.hArr (V7 m ρ) c (ix2 n f) = hIn m c n f from V7_h m ρ c n f]
  simp only [show ∀ g, Region1.scaleHi (V7 m ρ) c (ix2 g f) = _ from fun g => (hT g).1,
    show ∀ g, Region1.scaleLo (V7 m ρ) c (ix2 g f) = _ from fun g => (hT g).2.1,
    show ∀ g, Region1.shiftHi (V7 m ρ) c (ix2 g f) = _ from fun g => (hT g).2.2.1,
    show ∀ g, Region1.shiftLo (V7 m ρ) c (ix2 g f) = _ from fun g => (hT g).2.2.2]

end Kernel

/-! ## The claims -/

theorem algebraic : Cert.algebraic_KernelIdeal_ReferenceIdeal := by
  intro m ρ m' ρ' hpre hagree
  refine ⟨fun c => (Cert.KernelIdeal.Gen.dat1 (F := Ideal) (Cert.KernelIdeal.Gen.V7 m ρ) c).arrAt 6 Cert.KernelIdeal.cfg1.N, ?_, ?_⟩
  · exact (θ_run Cert.KernelIdeal.defs _ _).mono
      (fun r h c => ⟨(h c).1.trans (Cert.KernelIdeal.RunNamed.W8_result m ρ c), (h c).2⟩)
      (Cert.KernelIdeal.RunNamed.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨hh, hγ, hβ, hs⟩ := Cert.PreFacts.decode _ _ _ _ (hpre c)
    obtain ⟨e, he0, hee⟩ := eps_real
    funext i
    obtain ⟨n, f, rfl⟩ : ∃ (n : Fin 500000) (f : Fin 128), i = ix2 n f := ⟨i 0, i 1, eq_ix2 i⟩
    refine Eq.trans ?_ (kernel_value m ρ c n f).symm
    rw [Cert.ReferenceIdeal.Read.val_main_v43_eq, Cert.ReferenceIdeal.RefValue.ref_apply,
      (hagree c).1, (hagree c).2.1, (hagree c).2.2.1, (hagree c).2.2.2]
    refine (Cert.GraphNorm.outK_eq_outR _ _ _ _ _ _ Idealize.ShloMosaic.Ideal.ofBits_one_f32 ?_ ?_
      (fun n f => hh (ix2 n f)) (fun f => hγ (ix1 f)) (fun f => hβ (ix1 f)) (fun n => hs (ix1 n))
      (Cert.GraphNorm.sumH_eq _ _ (fun n f => hh (ix2 n f))) (Cert.GraphNorm.sqH_eq _ _ (fun n f => hh (ix2 n f)))
      (Cert.GraphNorm.cntH_eq _) n f).symm
    · rw [hee]; exact EReal.coe_pos.mpr he0
    · rw [hee]; exact EReal.coe_ne_top e

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
